-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x4096 : Shape := ⟨3, ![32, 1, 4096]⟩
abbrev S4096x5504 : Shape := ⟨2, ![4096, 5504]⟩
abbrev S32x11008 : Shape := ⟨2, ![32, 11008]⟩
abbrev S32x5504 : Shape := ⟨2, ![32, 5504]⟩
abbrev S11008 : Shape := ⟨1, ![11008]⟩
abbrev S_ : Shape := ⟨0, ![]⟩

class Facts : Prop where
  bcast_S_S32x1x4096 : S_.BroadcastsInDim S32x1x4096 (![] : Fin 0 → Fin S32x1x4096.rank)
  reducesTo_S32x1x4096_S_d0_1_2 : S32x1x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S32x1x4096 .f32) (main_arg1 : IVec S4096x5504 32) (main_arg2 : FVec F S32x11008 .f32) (main_arg3 : IVec S32x5504 32) (main_arg4 : FVec F S11008 .f32) : IVec S_ 1 :=
  let main_v0 : FVec F S32x1x4096 .f32 := Host.absf main_arg0
  let main_cst : FVec F S_ .f32 := constant S_ .f32 0x7F800000#32
  let main_v1 : FVec F S32x1x4096 .f32 := broadcastInDim S32x1x4096 ![] bcast_S_S32x1x4096 main_cst
  let main_v2 : IVec S32x1x4096 1 := cmpf .olt main_v0 main_v1
  let main_c : IVec S_ 1 := constantI S_ 1 1#1
  let main_v3 : IVec S_ 1 := (fun x v => Host.reduce IntOp.andi x v reducesTo_S32x1x4096_S_d0_1_2 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S32x1x4096 : Shape := ⟨3, ![32, 1, 4096]⟩
abbrev S4096x5504 : Shape := ⟨2, ![4096, 5504]⟩
abbrev S32x11008 : Shape := ⟨2, ![32, 11008]⟩
abbrev S32x5504 : Shape := ⟨2, ![32, 5504]⟩
abbrev S11008 : Shape := ⟨1, ![11008]⟩
abbrev S32x4096 : Shape := ⟨2, ![32, 4096]⟩
abbrev S32x5504x2 : Shape := ⟨3, ![32, 5504, 2]⟩
abbrev S32x5504x1 : Shape := ⟨3, ![32, 5504, 1]⟩
abbrev S5504x2 : Shape := ⟨2, ![5504, 2]⟩
abbrev S5504x1 : Shape := ⟨2, ![5504, 1]⟩
abbrev S5504 : Shape := ⟨1, ![5504]⟩
abbrev S1x5504 : Shape := ⟨2, ![1, 5504]⟩
abbrev S32x128 : Shape := ⟨2, ![32, 128]⟩
abbrev S128x2816 : Shape := ⟨2, ![128, 2816]⟩
abbrev S32x2816 : Shape := ⟨2, ![32, 2816]⟩
abbrev S1x2816 : Shape := ⟨2, ![1, 2816]⟩
abbrev S2816 : Shape := ⟨1, ![2816]⟩
abbrev S32x1x11008 : Shape := ⟨3, ![32, 1, 11008]⟩

abbrev nBuf : Space → Nat
  | .hbm => 25
  | .vmem => 20
  | .smem => 0
  | _ => 0

abbrev bufTy : (tb : Table) → Fin (tcTables nBuf tb) → BufTy
  | .hbm, ⟨0, _⟩ => ⟨S32x1x4096, .f32⟩
  | .hbm, ⟨1, _⟩ => ⟨S4096x5504, .i32⟩
  | .hbm, ⟨2, _⟩ => ⟨S32x11008, .f32⟩
  | .hbm, ⟨3, _⟩ => ⟨S32x5504, .i32⟩
  | .hbm, ⟨4, _⟩ => ⟨S11008, .f32⟩
  | .hbm, ⟨5, _⟩ => ⟨S32x4096, .f32⟩
  | .hbm, ⟨6, _⟩ => ⟨S32x5504x2, .f32⟩
  | .hbm, ⟨7, _⟩ => ⟨S32x5504x1, .f32⟩
  | .hbm, ⟨8, _⟩ => ⟨S32x5504, .f32⟩
  | .hbm, ⟨9, _⟩ => ⟨S32x5504x1, .f32⟩
  | .hbm, ⟨10, _⟩ => ⟨S32x5504, .f32⟩
  | .hbm, ⟨11, _⟩ => ⟨S5504x2, .f32⟩
  | .hbm, ⟨12, _⟩ => ⟨S5504x1, .f32⟩
  | .hbm, ⟨13, _⟩ => ⟨S5504, .f32⟩
  | .hbm, ⟨14, _⟩ => ⟨S1x5504, .f32⟩
  | .hbm, ⟨15, _⟩ => ⟨S5504x1, .f32⟩
  | .hbm, ⟨16, _⟩ => ⟨S5504, .f32⟩
  | .hbm, ⟨17, _⟩ => ⟨S1x5504, .f32⟩
  | .hbm, ⟨18, _⟩ => ⟨S32x5504, .f32⟩
  | .hbm, ⟨19, _⟩ => ⟨S32x5504, .f32⟩
  | .hbm, ⟨20, _⟩ => ⟨S32x5504x1, .f32⟩
  | .hbm, ⟨21, _⟩ => ⟨S32x5504x1, .f32⟩
  | .hbm, ⟨22, _⟩ => ⟨S32x5504x2, .f32⟩
  | .hbm, ⟨23, _⟩ => ⟨S32x11008, .f32⟩
  | .hbm, ⟨24, _⟩ => ⟨S32x1x11008, .f32⟩
  | .local _ .vmem, ⟨0, _⟩ => ⟨S32x128, .f32⟩
  | .local _ .vmem, ⟨1, _⟩ => ⟨S32x128, .f32⟩
  | .local _ .vmem, ⟨2, _⟩ => ⟨S128x2816, .i32⟩
  | .local _ .vmem, ⟨3, _⟩ => ⟨S128x2816, .i32⟩
  | .local _ .vmem, ⟨4, _⟩ => ⟨S32x2816, .i32⟩
  | .local _ .vmem, ⟨5, _⟩ => ⟨S32x2816, .i32⟩
  | .local _ .vmem, ⟨6, _⟩ => ⟨S32x2816, .f32⟩
  | .local _ .vmem, ⟨7, _⟩ => ⟨S32x2816, .f32⟩
  | .local _ .vmem, ⟨8, _⟩ => ⟨S32x2816, .f32⟩
  | .local _ .vmem, ⟨9, _⟩ => ⟨S32x2816, .f32⟩
  | .local _ .vmem, ⟨10, _⟩ => ⟨S1x2816, .f32⟩
  | .local _ .vmem, ⟨11, _⟩ => ⟨S1x2816, .f32⟩
  | .local _ .vmem, ⟨12, _⟩ => ⟨S1x2816, .f32⟩
  | .local _ .vmem, ⟨13, _⟩ => ⟨S1x2816, .f32⟩
  | .local _ .vmem, ⟨14, _⟩ => ⟨S32x2816, .f32⟩
  | .local _ .vmem, ⟨15, _⟩ => ⟨S32x2816, .f32⟩
  | .local _ .vmem, ⟨16, _⟩ => ⟨S32x2816, .f32⟩
  | .local _ .vmem, ⟨17, _⟩ => ⟨S32x2816, .f32⟩
  | .local _ .vmem, ⟨18, _⟩ => ⟨S32x2816, .f32⟩
  | .local _ .vmem, ⟨19, _⟩ => ⟨S32x2816, .f32⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg1 : BitVec 32 := BitVec.ofNat 32 (i 1).val
  let v12 : Index := Scalar.indexCast arg1
  let c0_3 : Index := 0#32
  ![v12.toNat, 0]
def k0_cond2 (i : grid0.Coords) : BitVec 1 :=
  let arg1 : BitVec 32 := BitVec.ofNat 32 (i 1).val
  let c31_i32 : BitVec 32 := 31#32
  let v58 : BitVec 1 := Scalar.cmpi .eq arg1 c31_i32
  let v59 : BitVec 32 := Scalar.extui v58
  let c0_i32_20 : BitVec 32 := 0#32
  let v60 : BitVec 1 := Scalar.cmpi .ne v59 c0_i32_20
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2816 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2816 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S32x1x4096_S32x4096 : S32x1x4096.ShapeCasts S32x4096
  shapeCasts_S32x11008_S32x5504x2 : S32x11008.ShapeCasts S32x5504x2
  slices_S32x5504x2_S32x5504x1_0_0_0 : S32x5504x2.Slices ![0, 0, 0] S32x5504x1
  shapeCasts_S32x5504x1_S32x5504 : S32x5504x1.ShapeCasts S32x5504
  slices_S32x5504x2_S32x5504x1_0_0_1 : S32x5504x2.Slices ![0, 0, 1] S32x5504x1
  shapeCasts_S11008_S5504x2 : S11008.ShapeCasts S5504x2
  slices_S5504x2_S5504x1_0_0 : S5504x2.Slices ![0, 0] S5504x1
  shapeCasts_S5504x1_S5504 : S5504x1.ShapeCasts S5504
  shapeCasts_S5504_S1x5504 : S5504.ShapeCasts S1x5504
  slices_S5504x2_S5504x1_0_1 : S5504x2.Slices ![0, 1] S5504x1
  inb_S32x2816_S32x2816_0_0 : ∀ a, (![0, 0] : Fin 2 → Nat) a + S32x2816.size a ≤ S32x2816.size a
  h_S32x2816 : 0 < S32x2816.numel
  shapeCasts_S32x2816_S32x2816 : S32x2816.ShapeCasts S32x2816
  inb_S128x2816_S128x2816_0_0 : ∀ a, (![0, 0] : Fin 2 → Nat) a + S128x2816.size a ≤ S128x2816.size a
  h_S128x2816 : 0 < S128x2816.numel
  h_S1x2816 : 0 < S1x2816.numel
  shapeCasts_S1x2816_S2816 : S1x2816.ShapeCasts S2816
  shapeCasts_S2816_S1x2816 : S2816.ShapeCasts S1x2816
  broadcasts_S1x2816_S128x2816 : S1x2816.Broadcasts S128x2816
  inb_S32x128_S32x128_0_0 : ∀ a, (![0, 0] : Fin 2 → Nat) a + S32x128.size a ≤ S32x128.size a
  h_S32x128 : 0 < S32x128.numel
  shapeCasts_S32x128_S32x128 : S32x128.ShapeCasts S32x128
  bitsLt_bf16_f32 : FTy.bits .bf16 < FTy.bits .f32
  inb_S1x2816_S1x2816_0_0 : ∀ a, (![0, 0] : Fin 2 → Nat) a + S1x2816.size a ≤ S1x2816.size a
  shapeCasts_S1x2816_S1x2816 : S1x2816.ShapeCasts S1x2816
  broadcasts_S1x2816_S32x2816 : S1x2816.Broadcasts S32x2816
  bcast_S32x5504_S32x5504x1_0_1 : S32x5504.BroadcastsInDim S32x5504x1 (![0, 1] : Fin 2 → Fin S32x5504x1.rank)
  concatenates_S32x5504x1_S32x5504x1_S32x5504x2_d2 : Shape.Concatenates [S32x5504x1, S32x5504x1] S32x5504x2 2
  shapeCasts_S32x5504x2_S32x11008 : S32x5504x2.ShapeCasts S32x11008
  bcast_S32x11008_S32x1x11008_0_2 : S32x11008.BroadcastsInDim S32x1x11008 (![0, 2] : Fin 2 → Fin S32x1x11008.rank)
  dot_S32x128_S128x2816_S32x2816_1_0_0_1_n_n_wf : DotDims.WF S32x128 S128x2816 S32x2816 [1] [0] [0] [1] [] []
  hrank0 : 0 < grid0.rank
  k0_off1_inb : ∀ i : grid0.Coords, ∀ a, (k0_off1 i) a + S1x2816.size a ≤ S32x2816.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x4096.size a
  hwx0_0 : ∀ i : grid0.Coords, EltTy.bits .f32 = 32 ∨ (Rect.block (s := S32x4096) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x2816.size a < S4096x5504.size a
  hwx0_1 : ∀ i : grid0.Coords, EltTy.bits .i32 = 32 ∨ (Rect.unit (s := S4096x5504) (fun a => cc0_transform_1 i a * S128x2816.size a) (fun a => (Pipeline.Clip.of (cc0_transform_1 i a) (S128x2816.size a) (S4096x5504.size a)).extent (S128x2816.size a)) fun a => Pipeline.Clip.inb (Pipeline.Clip.ok_of (hstart0_1 i a))).WholeWords (EltTy.packing .i32)
  hwxs0_1 : ∀ i : grid0.Coords, EltTy.bits .i32 = 32 ∨ (Rect.unit (s := S128x2816) (fun _ => 0) (fun a => (Pipeline.Clip.of (cc0_transform_1 i a) (S128x2816.size a) (S4096x5504.size a)).extent (S128x2816.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x2816.size a < S32x5504.size a
  hwx0_2 : ∀ i : grid0.Coords, EltTy.bits .i32 = 32 ∨ (Rect.unit (s := S32x5504) (fun a => cc0_transform_2 i a * S32x2816.size a) (fun a => (Pipeline.Clip.of (cc0_transform_2 i a) (S32x2816.size a) (S32x5504.size a)).extent (S32x2816.size a)) fun a => Pipeline.Clip.inb (Pipeline.Clip.ok_of (hstart0_2 i a))).WholeWords (EltTy.packing .i32)
  hwxs0_2 : ∀ i : grid0.Coords, EltTy.bits .i32 = 32 ∨ (Rect.unit (s := S32x2816) (fun _ => 0) (fun a => (Pipeline.Clip.of (cc0_transform_2 i a) (S32x2816.size a) (S32x5504.size a)).extent (S32x2816.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x2816.size a < S32x5504.size a
  hwx0_3 : ∀ i : grid0.Coords, EltTy.bits .f32 = 32 ∨ (Rect.unit (s := S32x5504) (fun a => cc0_transform_3 i a * S32x2816.size a) (fun a => (Pipeline.Clip.of (cc0_transform_3 i a) (S32x2816.size a) (S32x5504.size a)).extent (S32x2816.size a)) fun a => Pipeline.Clip.inb (Pipeline.Clip.ok_of (hstart0_3 i a))).WholeWords (EltTy.packing .f32)
  hwxs0_3 : ∀ i : grid0.Coords, EltTy.bits .f32 = 32 ∨ (Rect.unit (s := S32x2816) (fun _ => 0) (fun a => (Pipeline.Clip.of (cc0_transform_3 i a) (S32x2816.size a) (S32x5504.size a)).extent (S32x2816.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x2816.size a < S32x5504.size a
  hwx0_4 : ∀ i : grid0.Coords, EltTy.bits .f32 = 32 ∨ (Rect.unit (s := S32x5504) (fun a => cc0_transform_4 i a * S32x2816.size a) (fun a => (Pipeline.Clip.of (cc0_transform_4 i a) (S32x2816.size a) (S32x5504.size a)).extent (S32x2816.size a)) fun a => Pipeline.Clip.inb (Pipeline.Clip.ok_of (hstart0_4 i a))).WholeWords (EltTy.packing .f32)
  hwxs0_4 : ∀ i : grid0.Coords, EltTy.bits .f32 = 32 ∨ (Rect.unit (s := S32x2816) (fun _ => 0) (fun a => (Pipeline.Clip.of (cc0_transform_4 i a) (S32x2816.size a) (S32x5504.size a)).extent (S32x2816.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x2816.size a < S1x5504.size a
  hwx0_5 : ∀ i : grid0.Coords, EltTy.bits .f32 = 32 ∨ (Rect.unit (s := S1x5504) (fun a => cc0_transform_5 i a * S1x2816.size a) (fun a => (Pipeline.Clip.of (cc0_transform_5 i a) (S1x2816.size a) (S1x5504.size a)).extent (S1x2816.size a)) fun a => Pipeline.Clip.inb (Pipeline.Clip.ok_of (hstart0_5 i a))).WholeWords (EltTy.packing .f32)
  hwxs0_5 : ∀ i : grid0.Coords, EltTy.bits .f32 = 32 ∨ (Rect.unit (s := S1x2816) (fun _ => 0) (fun a => (Pipeline.Clip.of (cc0_transform_5 i a) (S1x2816.size a) (S1x5504.size a)).extent (S1x2816.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x2816.size a < S1x5504.size a
  hwx0_6 : ∀ i : grid0.Coords, EltTy.bits .f32 = 32 ∨ (Rect.unit (s := S1x5504) (fun a => cc0_transform_6 i a * S1x2816.size a) (fun a => (Pipeline.Clip.of (cc0_transform_6 i a) (S1x2816.size a) (S1x5504.size a)).extent (S1x2816.size a)) fun a => Pipeline.Clip.inb (Pipeline.Clip.ok_of (hstart0_6 i a))).WholeWords (EltTy.packing .f32)
  hwxs0_6 : ∀ i : grid0.Coords, EltTy.bits .f32 = 32 ∨ (Rect.unit (s := S1x2816) (fun _ => 0) (fun a => (Pipeline.Clip.of (cc0_transform_6 i a) (S1x2816.size a) (S1x5504.size a)).extent (S1x2816.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S32x2816.size a < S32x5504.size a
  hwx0_7 : ∀ i : grid0.Coords, EltTy.bits .f32 = 32 ∨ (Rect.unit (s := S32x5504) (fun a => cc0_transform_7 i a * S32x2816.size a) (fun a => (Pipeline.Clip.of (cc0_transform_7 i a) (S32x2816.size a) (S32x5504.size a)).extent (S32x2816.size a)) fun a => Pipeline.Clip.inb (Pipeline.Clip.ok_of (hstart0_7 i a))).WholeWords (EltTy.packing .f32)
  hwxs0_7 : ∀ i : grid0.Coords, EltTy.bits .f32 = 32 ∨ (Rect.unit (s := S32x2816) (fun _ => 0) (fun a => (Pipeline.Clip.of (cc0_transform_7 i a) (S32x2816.size a) (S32x5504.size a)).extent (S32x2816.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S32x2816.size a < S32x5504.size a
  hwx0_8 : ∀ i : grid0.Coords, EltTy.bits .f32 = 32 ∨ (Rect.unit (s := S32x5504) (fun a => cc0_transform_8 i a * S32x2816.size a) (fun a => (Pipeline.Clip.of (cc0_transform_8 i a) (S32x2816.size a) (S32x5504.size a)).extent (S32x2816.size a)) fun a => Pipeline.Clip.inb (Pipeline.Clip.ok_of (hstart0_8 i a))).WholeWords (EltTy.packing .f32)
  hwxs0_8 : ∀ i : grid0.Coords, EltTy.bits .f32 = 32 ∨ (Rect.unit (s := S32x2816) (fun _ => 0) (fun a => (Pipeline.Clip.of (cc0_transform_8 i a) (S32x2816.size a) (S32x5504.size a)).extent (S32x2816.size a)) fun a => (Nat.zero_add _).trans_le (Pipeline.Clip.extent_le (Pipeline.Clip.ok_of (hstart0_8 i a)))).WholeWords (EltTy.packing .f32)

variable [Facts₀]

def dot_S32x128_S128x2816_S32x2816_1_0_0_1_n_n : DotDims S32x128 S128x2816 S32x2816 where
  lhsContracting := [1]
  rhsContracting := [0]
  lhsNonContracting := [0]
  rhsNonContracting := [1]
  lhsBatch := []
  rhsBatch := []
  wf := dot_S32x128_S128x2816_S32x2816_1_0_0_1_n_n_wf

abbrev win0_0 : Pipeline.Window sig grid0 :=
  Pipeline.Window.ofSpec (Memref.whole main_v0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S128x2816.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg3) S32x2816.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3) S32x2816.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v5) S32x2816.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v9) S1x2816.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v12) S1x2816.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v13_0) S32x2816.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v13_1) S32x2816.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S32x1x4096 : Shape := ⟨3, ![32, 1, 4096]⟩
abbrev S4096x5504 : Shape := ⟨2, ![4096, 5504]⟩
abbrev S32x11008 : Shape := ⟨2, ![32, 11008]⟩
abbrev S32x5504 : Shape := ⟨2, ![32, 5504]⟩
abbrev S11008 : Shape := ⟨1, ![11008]⟩
abbrev S_ : Shape := ⟨0, ![]⟩
abbrev S4096x5504x1 : Shape := ⟨3, ![4096, 5504, 1]⟩
abbrev S4096x5504x2 : Shape := ⟨3, ![4096, 5504, 2]⟩
abbrev S4096x11008 : Shape := ⟨2, ![4096, 11008]⟩
abbrev S32x5504x1 : Shape := ⟨3, ![32, 5504, 1]⟩
abbrev S32x5504x2 : Shape := ⟨3, ![32, 5504, 2]⟩
abbrev S4096 : Shape := ⟨1, ![4096]⟩
abbrev S4096x1 : Shape := ⟨2, ![4096, 1]⟩
abbrev S32x1x11008 : Shape := ⟨3, ![32, 1, 11008]⟩
abbrev S1x1x11008 : Shape := ⟨3, ![1, 1, 11008]⟩

abbrev nBuf : Space → Nat
  | .hbm => 76
  | .vmem => 0
  | .smem => 0
  | _ => 0

abbrev bufTy : (tb : Table) → Fin (tcTables nBuf tb) → BufTy
  | .hbm, ⟨0, _⟩ => ⟨S32x1x4096, .f32⟩
  | .hbm, ⟨1, _⟩ => ⟨S4096x5504, .i32⟩
  | .hbm, ⟨2, _⟩ => ⟨S32x11008, .f32⟩
  | .hbm, ⟨3, _⟩ => ⟨S32x5504, .i32⟩
  | .hbm, ⟨4, _⟩ => ⟨S11008, .f32⟩
  | .hbm, ⟨5, _⟩ => ⟨S_, .i32⟩
  | .hbm, ⟨6, _⟩ => ⟨S4096x5504, .i32⟩
  | .hbm, ⟨7, _⟩ => ⟨S4096x5504, .i32⟩
  | .hbm, ⟨8, _⟩ => ⟨S_, .i32⟩
  | .hbm, ⟨9, _⟩ => ⟨S4096x5504, .i32⟩
  | .hbm, ⟨10, _⟩ => ⟨S4096x5504, .i32⟩
  | .hbm, ⟨11, _⟩ => ⟨S_, .i32⟩
  | .hbm, ⟨12, _⟩ => ⟨S4096x5504, .i32⟩
  | .hbm, ⟨13, _⟩ => ⟨S4096x5504, .i32⟩
  | .hbm, ⟨14, _⟩ => ⟨S4096x5504x1, .i32⟩
  | .hbm, ⟨15, _⟩ => ⟨S4096x5504x1, .i32⟩
  | .hbm, ⟨16, _⟩ => ⟨S4096x5504x2, .i32⟩
  | .hbm, ⟨17, _⟩ => ⟨S4096x11008, .i32⟩
  | .hbm, ⟨18, _⟩ => ⟨S4096x11008, .f32⟩
  | .hbm, ⟨19, _⟩ => ⟨S_, .i32⟩
  | .hbm, ⟨20, _⟩ => ⟨S32x5504, .i32⟩
  | .hbm, ⟨21, _⟩ => ⟨S32x5504, .i32⟩
  | .hbm, ⟨22, _⟩ => ⟨S_, .i32⟩
  | .hbm, ⟨23, _⟩ => ⟨S32x5504, .i32⟩
  | .hbm, ⟨24, _⟩ => ⟨S32x5504, .i32⟩
  | .hbm, ⟨25, _⟩ => ⟨S_, .i32⟩
  | .hbm, ⟨26, _⟩ => ⟨S32x5504, .i32⟩
  | .hbm, ⟨27, _⟩ => ⟨S32x5504, .i32⟩
  | .hbm, ⟨28, _⟩ => ⟨S32x5504x1, .i32⟩
  | .hbm, ⟨29, _⟩ => ⟨S32x5504x1, .i32⟩
  | .hbm, ⟨30, _⟩ => ⟨S32x5504x2, .i32⟩
  | .hbm, ⟨31, _⟩ => ⟨S32x11008, .i32⟩
  | .hbm, ⟨32, _⟩ => ⟨S32x11008, .f32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096x11008, .f32⟩
  | .hbm, ⟨61, _⟩ => ⟨S4096x11008, .f32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x11008, .f32⟩
  | .hbm, ⟨71, _⟩ => ⟨S4096x11008, .f32⟩
  | .hbm, ⟨72, _⟩ => ⟨S32x1x11008, .f32⟩
  | .hbm, ⟨73, _⟩ => ⟨S1x1x11008, .f32⟩
  | .hbm, ⟨74, _⟩ => ⟨S32x1x11008, .f32⟩
  | .hbm, ⟨75, _⟩ => ⟨S32x1x11008, .f32⟩
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_8 : Ref sig .tc := ⟨.hbm, 62, rfl⟩
abbrev main_v32 : Ref sig .tc := ⟨.hbm, 63, rfl⟩
abbrev main_v33 : Ref sig .tc := ⟨.hbm, 64, rfl⟩
abbrev main_c_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩

abbrev nD : Nat := 1
abbrev τ : Topo := Topo.v7x

variable {F : FTy → Type} [FloatOps F]

class Facts₀ : Prop where
  bcast_S_S4096x5504 : S_.BroadcastsInDim S4096x5504 (![] : Fin 0 → Fin S4096x5504.rank)
  bcast_S4096x5504_S4096x5504x1_0_1 : S4096x5504.BroadcastsInDim S4096x5504x1 (![0, 1] : Fin 2 → Fin S4096x5504x1.rank)
  concatenates_S4096x5504x1_S4096x5504x1_S4096x5504x2_d2 : Shape.Concatenates [S4096x5504x1, S4096x5504x1] S4096x5504x2 2
  shapeCasts_S4096x5504x2_S4096x11008 : S4096x5504x2.ShapeCasts S4096x11008
  bcast_S_S32x5504 : S_.BroadcastsInDim S32x5504 (![] : Fin 0 → Fin S32x5504.rank)
  bcast_S32x5504_S32x5504x1_0_1 : S32x5504.BroadcastsInDim S32x5504x1 (![0, 1] : Fin 2 → Fin S32x5504x1.rank)
  concatenates_S32x5504x1_S32x5504x1_S32x5504x2_d2 : Shape.Concatenates [S32x5504x1, S32x5504x1] S32x5504x2 2
  shapeCasts_S32x5504x2_S32x11008 : S32x5504x2.ShapeCasts S32x11008
  bcast_S_S4096 : S_.BroadcastsInDim S4096 (![] : Fin 0 → Fin S4096.rank)
  bcast_S4096_S4096x1_0 : S4096.BroadcastsInDim S4096x1 (![0] : Fin 1 → Fin S4096x1.rank)
  bcast_S11008_S1x1x11008_2 : S11008.BroadcastsInDim S1x1x11008 (![2] : Fin 1 → Fin S1x1x11008.rank)
  bcast_S1x1x11008_S32x1x11008_0_1_2 : S1x1x11008.BroadcastsInDim S32x1x11008 (![0, 1, 2] : Fin 3 → Fin S32x1x11008.rank)
  gather_S32x11008_S4096x1_S4096x11008_1_0_n_n_0_1_111008_wf : GatherDims.WF S32x11008 S4096x1 S4096x11008 [1] [0] [] [0] [] 1 ![1, 11008]
  dot_S32x1x4096_S4096x11008_S32x1x11008_2_0_01_1_n_n_wf : DotDims.WF S32x1x4096 S4096x11008 S32x1x11008 [2] [0] [0, 1] [1] [] []

variable [Facts₀]

def gather_S32x11008_S4096x1_S4096x11008_1_0_n_n_0_1_111008 : GatherDims S32x11008 S4096x1 S4096x11008 where
  offsetDims := [1]
  collapsedSliceDims := [0]
  operandBatchingDims := []
  startIndicesBatchingDims := []
  startIndexMap := [0]
  indexVectorDim := 1
  sliceSizes := ![1, 11008]
  wf := gather_S32x11008_S4096x1_S4096x11008_1_0_n_n_0_1_111008_wf
def dot_S32x1x4096_S4096x11008_S32x1x11008_2_0_01_1_n_n : DotDims S32x1x4096 S4096x11008 S32x1x11008 where
  lhsContracting := [2]
  rhsContracting := [0]
  lhsNonContracting := [0, 1]
  rhsNonContracting := [1]
  lhsBatch := []
  rhsBatch := []
  wf := dot_S32x1x4096_S4096x11008_S32x1x11008_2_0_01_1_n_n_wf

class Facts : Prop extends Facts₀ where

variable [Facts]
-- ==== Proof.KCommon.lean ====
/-
  What the frame and the value proofs of the kernel share, at any float instance: when each of the body's two
  conditionals is taken (the accumulators are reset at the first step of a column tile, k = 0, and the outputs are
  stored at its last, k = 31), where the two output windows are idle and where they are written back, the staging and
  scratch memrefs as the pipeline passes them, and the region's class invariant opened into the two scratch buffers.
-/
import proofs.«407691_j14783277433034_1_alg».proof.Proof.Gen.KernelIdeal.Frame
import proofs.«407691_j14783277433034_1_alg».proof.Proof.Gen.KernelIdeal.Skeleton

set_option maxRecDepth 16384

noncomputable section

namespace Cert.KernelIdeal.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional (reset the accumulators) is taken: the reduction coordinate is 0. -/
abbrev condFirst (i : grid0.Coords) : Prop :=
  (Scalar.cmpi .ne (Scalar.extui (Scalar.cmpi .eq (BitVec.ofNat 32 (i 1).val) 0#32)) 0#32) = 1#1
/-- It is taken at the points ≡ 0 (mod 32). -/
theorem hcondFirst : ∀ t : Fin cfg0.N, condFirst (grid0.coords t) ↔ t.val % 32 = 0 :=
  (by decide +kernel : ∀ t : Fin grid0.N, condFirst (grid0.coords t) ↔ t.val % 32 = 0)

/-- The second conditional (add the bias and store the outputs) is taken: the reduction coordinate is 31. -/
abbrev condLast (i : grid0.Coords) : Prop := k0_cond2 i = 1#1
/-- It is taken at the points ≡ 31 (mod 32). -/
theorem hcondLast : ∀ t : Fin cfg0.N, condLast (grid0.coords t) ↔ t.val % 32 = 31 :=
  (by decide +kernel : ∀ t : Fin grid0.N, condLast (grid0.coords t) ↔ t.val % 32 = 31)

/-! ## Idle and live points of the windows -/

theorem live_in : ∀ (w : Fin 9), w.val < 7 → ∀ i : grid0.Coords, cfg0.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl
/-- Away from a tile's last step the output windows are idle and not written back; -/
theorem idle7 : ∀ t : Fin cfg0.N, ¬condLast (grid0.coords t) → cfg0.idle 7 (grid0.coords t) = true := by decide +kernel
theorem idle8 : ∀ t : Fin cfg0.N, ¬condLast (grid0.coords t) → cfg0.idle 8 (grid0.coords t) = true := by decide +kernel
theorem noFlush7 : ∀ t : Fin cfg0.N, ¬condLast (grid0.coords t) → (cfg0.win 7).flush t = false := by decide +kernel
theorem noFlush8 : ∀ t : Fin cfg0.N, ¬condLast (grid0.coords t) → (cfg0.win 8).flush t = false := by decide +kernel
/-- at it they are live and written back. -/
theorem live7 : ∀ t : Fin cfg0.N, condLast (grid0.coords t) → cfg0.idle 7 (grid0.coords t) = false := by decide +kernel
theorem live8 : ∀ t : Fin cfg0.N, condLast (grid0.coords t) → cfg0.idle 8 (grid0.coords t) = false := by decide +kernel

/-! ## The memrefs the body is called with -/

abbrev ms0 (t : Fin cfg0.N) : Memref sig .tc .vmem S32x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2816 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x2816 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x2816 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x2816 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2816 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2816 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x2816 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x2816 .f32 := win0_8.stage (cfg0.slots t 8)
abbrev hs8 (t : Fin cfg0.N) : (ms8 t).IsWhole := hstage0_8 ((cfg0.slots t 8).cast nbuf0_8)
/-- The two accumulators: whole scoped buffers of the kernel's own. -/
abbrev scLo : Memref sig .tc .vmem S32x2816 .f32 := Memref.whole cc0_scratch0
abbrev scHi : Memref sig .tc .vmem S32x2816 .f32 := Memref.whole cc0_scratch1

/-- The class invariant opened: the two accumulators at some contents, and the generator register at some state. -/
theorem PhiA_eq (c : Dev nD) :
    (Pipeline.ΦA spec0 c : sProp 𝕄)
      = iprop(iprop((∃ d, owns (c : Thread nD τ) scLo fullShare d) ∗ (∃ d, owns (c : Thread nD τ) scHi fullShare d)) ∗ (∃ r, prngReg c r)) := by
  unfold Pipeline.ΦA; rw [scopedRest0_eq]; simp only [scLo, scHi, owns_whole]; try rfl

/-! ## One step of the two accumulators, as the body computes it -/

/-- Row k (the point's reduction coordinate) of a 32-row staging block, as the body's row load reads it. -/
def rowOf {e : EltTy} (i : grid0.Coords) (X : S32x2816.Idx → Elt F e) : S1x2816.Idx → Elt F e :=
  View.ld X (Rect.unit (s := S32x2816) (k0_off1 i) S1x2816.size (k0_off1_inb i))

/-- The low-nibble accumulator after the step, from the staging blocks and the accumulator before it. -/
def stepLo (i : grid0.Coords) (x0 : Vec F S32x128 .f32) (x1 : Vec F S128x2816 .i32) (x2 : Vec F S32x2816 .i32)
    (x3 : Vec F S32x2816 .f32) (s : Vec F S32x2816 .f32) : Vec F S32x2816 .f32 :=
  k0_pay2 (k0_pay9 x1 (rowOf i x2) (rowOf i x3)) x0 s
/-- The high-nibble accumulator likewise. -/
def stepHi (i : grid0.Coords) (x0 : Vec F S32x128 .f32) (x1 : Vec F S128x2816 .i32) (x2 : Vec F S32x2816 .i32)
    (x4 : Vec F S32x2816 .f32) (s : Vec F S32x2816 .f32) : Vec F S32x2816 .f32 :=
  k0_pay3 (k0_pay10 x1 (rowOf i x2) (rowOf i x4)) x0 s

end Cert.KernelIdeal.KProof

end
-- ==== Proof.KRun.lean ====
/-
  The kernel body run once, at any float instance, in each of the three situations the grid meets. On whole staging
  buffers holding x0 (the activations' block), x1 (the packed weights' block), x2 (the packed zero points), x3 and x4
  (the two halves of the scales), x5 and x6 (the two halves of the bias), the body
    · at a tile's first step overwrites both accumulators with one step from zero and leaves the outputs as found;
    · at a middle step advances both accumulators by one step and leaves the outputs as found;
    · at a tile's last step advances both accumulators and stores accumulator + bias into the two outputs.
  The inputs' buffers are handed back unchanged. Nothing is said of what the values mean: that is read off the
  payloads elsewhere.
-/
import proofs.«407691_j14783277433034_1_alg».proof.Proof.KCommon
import Idealize.ShloMosaic.Lib.Pipeline.Value

set_option maxRecDepth 16384

noncomputable section

namespace Cert.KernelIdeal.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores, read back -/

/-- The zero offsets of a rank-2 rectangle, as a constant function. -/
private theorem hz2 : (![0, 0] : Fin 2 → Nat) = fun _ => 0 := funext fun a => by fin_cases a <;> rfl

section Whole

variable {κ : Kind} {sp : Space} {S : Shape} {e : EltTy}

/-- After a store through the whole rectangle, made last, the buffer reads that store's payload, whatever it held
    and whatever was stored before. -/
private theorem read_writes_whole (v : View sig κ sp S e) {off : Fin S.rank → Nat} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

end Whole

/-- First step of a tile: the accumulators are reset, then advanced; the outputs are not touched. -/
theorem run_first (c : Dev nD) (i : grid0.Coords) (arg2 : Memref sig .tc .vmem S32x128 .f32) (harg2 : arg2.IsWhole) (arg3 : Memref sig .tc .vmem S128x2816 .i32) (harg3 : arg3.IsWhole) (arg4 : Memref sig .tc .vmem S32x2816 .i32) (harg4 : arg4.IsWhole) (arg5 : Memref sig .tc .vmem S32x2816 .f32) (harg5 : arg5.IsWhole) (arg6 : Memref sig .tc .vmem S32x2816 .f32) (harg6 : arg6.IsWhole) (arg7 : Memref sig .tc .vmem S1x2816 .f32) (harg7 : arg7.IsWhole) (arg8 : Memref sig .tc .vmem S1x2816 .f32) (harg8 : arg8.IsWhole) (arg9 : Memref sig .tc .vmem S32x2816 .f32) (harg9 : arg9.IsWhole) (arg10 : Memref sig .tc .vmem S32x2816 .f32) (harg10 : arg10.IsWhole) (arg11 : Memref sig .tc .vmem S32x2816 .f32) (harg11 : arg11.IsWhole) (arg12 : Memref sig .tc .vmem S32x2816 .f32) (harg12 : arg12.IsWhole)
    (hF : condFirst i) (hL : ¬condLast i) (x0 : Vec F S32x128 .f32) (x1 : Vec F S128x2816 .i32) (x2 : Vec F S32x2816 .i32) (x3 x4 : Vec F S32x2816 .f32) (x5 x6 : Vec F S1x2816 .f32) (x7 x8 : Vec F S32x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare x7 ∗ owns (c : Thread nD τ) arg10 fullShare x8
        ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare x7 ∗ owns (c : Thread nD τ) arg10 fullShare x8
            ∗ owns (c : Thread nD τ) arg11 fullShare (stepLo i x0 x1 x2 x3 k0_pay6) ∗ owns (c : Thread nD τ) arg12 fullShare (stepHi i x0 x1 x2 x4 k0_pay7)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  sl_exec (disch := first | exact hF | exact hL)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    rotate_left
    · iexact H9
    · ipureintro
      sl_unfold_run_names
      rw [read_writes_whole _ hz2]
      subst hf0 hf1 hf2 hf3
      unfold stepLo rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  · iexists _; isplitr
    rotate_left
    · iexact H10
    · ipureintro
      sl_unfold_run_names
      rw [read_writes_whole _ hz2]
      subst hf0 hf1 hf2 hf4
      unfold stepHi rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]

/-- A middle step: both accumulators advanced from what they held; the outputs are not touched. -/
theorem run_mid (c : Dev nD) (i : grid0.Coords) (arg2 : Memref sig .tc .vmem S32x128 .f32) (harg2 : arg2.IsWhole) (arg3 : Memref sig .tc .vmem S128x2816 .i32) (harg3 : arg3.IsWhole) (arg4 : Memref sig .tc .vmem S32x2816 .i32) (harg4 : arg4.IsWhole) (arg5 : Memref sig .tc .vmem S32x2816 .f32) (harg5 : arg5.IsWhole) (arg6 : Memref sig .tc .vmem S32x2816 .f32) (harg6 : arg6.IsWhole) (arg7 : Memref sig .tc .vmem S1x2816 .f32) (harg7 : arg7.IsWhole) (arg8 : Memref sig .tc .vmem S1x2816 .f32) (harg8 : arg8.IsWhole) (arg9 : Memref sig .tc .vmem S32x2816 .f32) (harg9 : arg9.IsWhole) (arg10 : Memref sig .tc .vmem S32x2816 .f32) (harg10 : arg10.IsWhole) (arg11 : Memref sig .tc .vmem S32x2816 .f32) (harg11 : arg11.IsWhole) (arg12 : Memref sig .tc .vmem S32x2816 .f32) (harg12 : arg12.IsWhole)
    (hF : ¬condFirst i) (hL : ¬condLast i) (x0 : Vec F S32x128 .f32) (x1 : Vec F S128x2816 .i32) (x2 : Vec F S32x2816 .i32) (x3 x4 : Vec F S32x2816 .f32) (x5 x6 : Vec F S1x2816 .f32) (x7 x8 s0 s1 : Vec F S32x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare x7 ∗ owns (c : Thread nD τ) arg10 fullShare x8
        ∗ owns (c : Thread nD τ) arg11 fullShare s0 ∗ owns (c : Thread nD τ) arg12 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare x7 ∗ owns (c : Thread nD τ) arg10 fullShare x8
            ∗ owns (c : Thread nD τ) arg11 fullShare (stepLo i x0 x1 x2 x3 s0) ∗ owns (c : Thread nD τ) arg12 fullShare (stepHi i x0 x1 x2 x4 s1)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | exact hF | exact hL)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    rotate_left
    · iexact H9
    · ipureintro
      sl_unfold_run_names
      rw [read_writes_whole _ hz2]
      subst hf0 hf1 hf2 hf3 hf9
      unfold stepLo rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  · iexists _; isplitr
    rotate_left
    · iexact H10
    · ipureintro
      sl_unfold_run_names
      rw [read_writes_whole _ hz2]
      subst hf0 hf1 hf2 hf4 hf10
      unfold stepHi rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]

/-- Last step of a tile: both accumulators advanced, and each output stored whole as accumulator + bias. -/
theorem run_last (c : Dev nD) (i : grid0.Coords) (arg2 : Memref sig .tc .vmem S32x128 .f32) (harg2 : arg2.IsWhole) (arg3 : Memref sig .tc .vmem S128x2816 .i32) (harg3 : arg3.IsWhole) (arg4 : Memref sig .tc .vmem S32x2816 .i32) (harg4 : arg4.IsWhole) (arg5 : Memref sig .tc .vmem S32x2816 .f32) (harg5 : arg5.IsWhole) (arg6 : Memref sig .tc .vmem S32x2816 .f32) (harg6 : arg6.IsWhole) (arg7 : Memref sig .tc .vmem S1x2816 .f32) (harg7 : arg7.IsWhole) (arg8 : Memref sig .tc .vmem S1x2816 .f32) (harg8 : arg8.IsWhole) (arg9 : Memref sig .tc .vmem S32x2816 .f32) (harg9 : arg9.IsWhole) (arg10 : Memref sig .tc .vmem S32x2816 .f32) (harg10 : arg10.IsWhole) (arg11 : Memref sig .tc .vmem S32x2816 .f32) (harg11 : arg11.IsWhole) (arg12 : Memref sig .tc .vmem S32x2816 .f32) (harg12 : arg12.IsWhole)
    (hF : ¬condFirst i) (hL : condLast i) (x0 : Vec F S32x128 .f32) (x1 : Vec F S128x2816 .i32) (x2 : Vec F S32x2816 .i32) (x3 x4 : Vec F S32x2816 .f32) (x5 x6 : Vec F S1x2816 .f32) (s0 s1 : Vec F S32x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay4 (stepLo i x0 x1 x2 x3 s0) x5) ∗ owns (c : Thread nD τ) arg10 fullShare (k0_pay5 (stepHi i x0 x1 x2 x4 s1) x6)
            ∗ owns (c : Thread nD τ) arg11 fullShare (stepLo i x0 x1 x2 x3 s0) ∗ owns (c : Thread nD τ) arg12 fullShare (stepHi i x0 x1 x2 x4 s1)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  sl_exec (disch := first | exact hF | exact hL)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    rotate_left
    · iexact H7
    · ipureintro
      sl_unfold_run_names
      rw [read_writes_whole _ hz2]
      subst hf0 hf1 hf2 hf3 hf5 hf9
      unfold stepLo rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  isplitl [H8]
  · iexists _; isplitr
    rotate_left
    · iexact H8
    · ipureintro
      sl_unfold_run_names
      rw [read_writes_whole _ hz2]
      subst hf0 hf1 hf2 hf4 hf6 hf10
      unfold stepHi rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  isplitl [H9]
  · iexists _; isplitr
    rotate_left
    · iexact H9
    · ipureintro
      sl_unfold_run_names
      rw [read_writes_whole _ hz2]
      subst hf0 hf1 hf2 hf3 hf9
      unfold stepLo rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  · iexists _; isplitr
    rotate_left
    · iexact H10
    · ipureintro
      sl_unfold_run_names
      rw [read_writes_whole _ hz2]
      subst hf0 hf1 hf2 hf4 hf10
      unfold stepHi rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]

end Cert.KernelIdeal.KProof

end
-- ==== Proof.KFrame.lean ====
/-
  The frame of the kernel's program at ANY float instance: every weakly fair execution of @main terminates, faults
  nowhere, and leaves the five argument arrays as it found them.

  Nothing is said here of what the kernel computes. The second column tile's blocks overhang the arrays: the cut
  fetches leave words nothing names in the staging buffers' tails, the matrix product carries them into the
  accumulators and from there into the output buffers. So the proof data forgets the two output windows (their
  buffers are handed to the body and taken back at arbitrary contents) and the invariant holds the two accumulators at
  arbitrary contents; the inputs' buffers hold their blocks on the part the fetch fills and are handed back as found.
  No branch, address, trip count or wait of the body depends on any of those words: the two conditionals read the grid
  point only, and the row loads read row "k" of the point. The arguments are unchanged because two of them are input
  arrays of the pipeline, which writes back outputs only, and the other three are read by host operations only.
-/
import proofs.«407691_j14783277433034_1_alg».proof.Proof.KCommon
import proofs.«407691_j14783277433034_1_alg».proof.Proof.KRun

set_option maxRecDepth 16384

noncomputable section

namespace Cert.KernelIdeal.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: the two output windows forgotten -/

/-- The windows the proof data says nothing of: the two outputs. -/
abbrev fgtF : Fin 9 → Bool := fun | 0 => false | 1 => false | 2 => false | 3 => false | 4 => false | 5 => false | 6 => false | 7 => true | 8 => true | ⟨_ + 9, h⟩ => absurd h (Nat.not_lt.2 (Nat.le_add_left _ _))

/-- The proof data of the one pipeline on core c: the arrays as the region finds them; after the body at point t the
    activations' buffer at its block, each cut input's buffer at its block on the part the fetch fills (and at an
    unnamed word elsewhere), the two outputs' buffers unnamed; the invariant the class's throughout (the two
    accumulators at some contents, the generator register at some state); nothing owed; full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => win0_5.fill (grid0.coords t) (fun _ => Classical.arbitrary _) (iblk m c 5 t)
    | ⟨6, _⟩ => win0_6.fill (grid0.coords t) (fun _ => Classical.arbitrary _) (iblk m c 6 t)
    | ⟨7, _⟩ => fun _ => Classical.arbitrary _
    | ⟨8, _⟩ => fun _ => Classical.arbitrary _
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) :
    (datsF m 0 c).after 1 t = win0_1.fill (grid0.coords t) (fun _ => Classical.arbitrary _) (iblk m c 1 t) := by dsimp only [datsF]
theorem afterF_2 (c : Dev nD) (t : Fin cfg0.N) :
    (datsF m 0 c).after 2 t = win0_2.fill (grid0.coords t) (fun _ => Classical.arbitrary _) (iblk m c 2 t) := by dsimp only [datsF]
theorem afterF_3 (c : Dev nD) (t : Fin cfg0.N) :
    (datsF m 0 c).after 3 t = win0_3.fill (grid0.coords t) (fun _ => Classical.arbitrary _) (iblk m c 3 t) := by dsimp only [datsF]
theorem afterF_4 (c : Dev nD) (t : Fin cfg0.N) :
    (datsF m 0 c).after 4 t = win0_4.fill (grid0.coords t) (fun _ => Classical.arbitrary _) (iblk m c 4 t) := by dsimp only [datsF]
theorem afterF_5 (c : Dev nD) (t : Fin cfg0.N) :
    (datsF m 0 c).after 5 t = win0_5.fill (grid0.coords t) (fun _ => Classical.arbitrary _) (iblk m c 5 t) := by dsimp only [datsF]
theorem afterF_6 (c : Dev nD) (t : Fin cfg0.N) :
    (datsF m 0 c).after 6 t = win0_6.fill (grid0.coords t) (fun _ => Classical.arbitrary _) (iblk m c 6 t) := by dsimp only [datsF]

/-- The part of a cut input's buffer that the transfers move is its block, after the body as before it. -/
theorem cut_afterF_1 (c : Dev nD) (t : Fin cfg0.N) :
    (cfg0.win 1).cut (grid0.coords t) ((datsF m 0 c).after 1 t) = iblk m c 1 t := by
  rw [afterF_1]; exact win0_1.cut_fill _ _ _
theorem cut_afterF_2 (c : Dev nD) (t : Fin cfg0.N) :
    (cfg0.win 2).cut (grid0.coords t) ((datsF m 0 c).after 2 t) = iblk m c 2 t := by
  rw [afterF_2]; exact win0_2.cut_fill _ _ _
theorem cut_afterF_3 (c : Dev nD) (t : Fin cfg0.N) :
    (cfg0.win 3).cut (grid0.coords t) ((datsF m 0 c).after 3 t) = iblk m c 3 t := by
  rw [afterF_3]; exact win0_3.cut_fill _ _ _
theorem cut_afterF_4 (c : Dev nD) (t : Fin cfg0.N) :
    (cfg0.win 4).cut (grid0.coords t) ((datsF m 0 c).after 4 t) = iblk m c 4 t := by
  rw [afterF_4]; exact win0_4.cut_fill _ _ _
theorem cut_afterF_5 (c : Dev nD) (t : Fin cfg0.N) :
    (cfg0.win 5).cut (grid0.coords t) ((datsF m 0 c).after 5 t) = iblk m c 5 t := by
  rw [afterF_5]; exact win0_5.cut_fill _ _ _
theorem cut_afterF_6 (c : Dev nD) (t : Fin cfg0.N) :
    (cfg0.win 6).cut (grid0.coords t) ((datsF m 0 c).after 6 t) = iblk m c 6 t := by
  rw [afterF_6]; exact win0_6.cut_fill _ _ _

/-! ## What the body finds in the inputs' buffers -/

/-- The activations' window is uncut: its buffer holds its block at every point. -/
theorem beforeF_0 (c : Dev nD) (t : Fin cfg0.N) (d) : (datsF m 0 c).before 0 t d = iblk m c 0 t :=
  before0_0_of m (datsF m 0 c) (A_eqF m c 0) (afterF_0 m c) t d

/-- A cut input's buffer holds its block on the part the fetch fills, fetched at this point or not: an unfetched
    window's block index has not moved, equal block indices are cut alike, and the body leaves the moved part in place. -/
theorem beforeF_1 (c : Dev nD) (t : Fin cfg0.N) (d) :
    (datsF m 0 c).before 1 t d = win0_1.fill (grid0.coords t) d (iblk m c 1 t) :=
  ((datsF m 0 c).before_in_eq_fetched 1 rfl (live_in 1 (by decide))
    (fun t t' h => funext fun a => congrArg (fun n => Pipeline.Clip.of n (win0_1.size a) (win0_1.shape.size a)) (congrFun h a))
    (fun t => by rw [cut_afterF_1]; unfold Dat.blockOf iblk; rw [A_eqF]) t d).trans
    (by unfold Dat.fetched Dat.blockOf iblk; rw [A_eqF])
theorem beforeF_2 (c : Dev nD) (t : Fin cfg0.N) (d) :
    (datsF m 0 c).before 2 t d = win0_2.fill (grid0.coords t) d (iblk m c 2 t) :=
  ((datsF m 0 c).before_in_eq_fetched 2 rfl (live_in 2 (by decide))
    (fun t t' h => funext fun a => congrArg (fun n => Pipeline.Clip.of n (win0_2.size a) (win0_2.shape.size a)) (congrFun h a))
    (fun t => by rw [cut_afterF_2]; unfold Dat.blockOf iblk; rw [A_eqF]) t d).trans
    (by unfold Dat.fetched Dat.blockOf iblk; rw [A_eqF])
theorem beforeF_3 (c : Dev nD) (t : Fin cfg0.N) (d) :
    (datsF m 0 c).before 3 t d = win0_3.fill (grid0.coords t) d (iblk m c 3 t) :=
  ((datsF m 0 c).before_in_eq_fetched 3 rfl (live_in 3 (by decide))
    (fun t t' h => funext fun a => congrArg (fun n => Pipeline.Clip.of n (win0_3.size a) (win0_3.shape.size a)) (congrFun h a))
    (fun t => by rw [cut_afterF_3]; unfold Dat.blockOf iblk; rw [A_eqF]) t d).trans
    (by unfold Dat.fetched Dat.blockOf iblk; rw [A_eqF])
theorem beforeF_4 (c : Dev nD) (t : Fin cfg0.N) (d) :
    (datsF m 0 c).before 4 t d = win0_4.fill (grid0.coords t) d (iblk m c 4 t) :=
  ((datsF m 0 c).before_in_eq_fetched 4 rfl (live_in 4 (by decide))
    (fun t t' h => funext fun a => congrArg (fun n => Pipeline.Clip.of n (win0_4.size a) (win0_4.shape.size a)) (congrFun h a))
    (fun t => by rw [cut_afterF_4]; unfold Dat.blockOf iblk; rw [A_eqF]) t d).trans
    (by unfold Dat.fetched Dat.blockOf iblk; rw [A_eqF])
theorem beforeF_5 (c : Dev nD) (t : Fin cfg0.N) (d) :
    (datsF m 0 c).before 5 t d = win0_5.fill (grid0.coords t) d (iblk m c 5 t) :=
  ((datsF m 0 c).before_in_eq_fetched 5 rfl (live_in 5 (by decide))
    (fun t t' h => funext fun a => congrArg (fun n => Pipeline.Clip.of n (win0_5.size a) (win0_5.shape.size a)) (congrFun h a))
    (fun t => by rw [cut_afterF_5]; unfold Dat.blockOf iblk; rw [A_eqF]) t d).trans
    (by unfold Dat.fetched Dat.blockOf iblk; rw [A_eqF])
theorem beforeF_6 (c : Dev nD) (t : Fin cfg0.N) (d) :
    (datsF m 0 c).before 6 t d = win0_6.fill (grid0.coords t) d (iblk m c 6 t) :=
  ((datsF m 0 c).before_in_eq_fetched 6 rfl (live_in 6 (by decide))
    (fun t t' h => funext fun a => congrArg (fun n => Pipeline.Clip.of n (win0_6.size a) (win0_6.shape.size a)) (congrFun h a))
    (fun t => by rw [cut_afterF_6]; unfold Dat.blockOf iblk; rw [A_eqF]) t d).trans
    (by unfold Dat.fetched Dat.blockOf iblk; rw [A_eqF])

/-! ## The body obligation, at a generic point -/

/-- What the body is called with at point t: the invariant, nothing owed, each input's buffer at what the pipeline
    left there, each output's at anything. -/
def bodyPreF (c : Dev nD) (t : Fin cfg0.N) : sProp 𝕄 :=
  iprop((datsF m 0 c).Φ t.castSucc ∗ (datsF m 0 c).owesAt () t.castSucc
    ∗ (∃ d, owns (c : Thread nD τ) (ms0 t) fullShare ((datsF m 0 c).before 0 t d))
    ∗ (∃ d, owns (c : Thread nD τ) (ms1 t) fullShare ((datsF m 0 c).before 1 t d))
    ∗ (∃ d, owns (c : Thread nD τ) (ms2 t) fullShare ((datsF m 0 c).before 2 t d))
    ∗ (∃ d, owns (c : Thread nD τ) (ms3 t) fullShare ((datsF m 0 c).before 3 t d))
    ∗ (∃ d, owns (c : Thread nD τ) (ms4 t) fullShare ((datsF m 0 c).before 4 t d))
    ∗ (∃ d, owns (c : Thread nD τ) (ms5 t) fullShare ((datsF m 0 c).before 5 t d))
    ∗ (∃ d, owns (c : Thread nD τ) (ms6 t) fullShare ((datsF m 0 c).before 6 t d))
    ∗ (∃ X, owns (c : Thread nD τ) (ms7 t) fullShare X)
    ∗ (∃ X, owns (c : Thread nD τ) (ms8 t) fullShare X))

/-- What it returns: the invariant, nothing owed, the activations' buffer at its block, each cut input's buffer at
    its block on the moved part, each output's at anything. -/
def bodyPostF (c : Dev nD) (t : Fin cfg0.N) : sProp 𝕄 :=
  iprop((datsF m 0 c).Φ t.succ ∗ (datsF m 0 c).owesAt () t.succ
    ∗ owns (c : Thread nD τ) (ms0 t) fullShare ((datsF m 0 c).after 0 t)
    ∗ (∃ d, owns (c : Thread nD τ) (ms1 t) fullShare ((cfg0.win 1).fill (grid0.coords t) d ((cfg0.win 1).cut (grid0.coords t) ((datsF m 0 c).after 1 t))))
    ∗ (∃ d, owns (c : Thread nD τ) (ms2 t) fullShare ((cfg0.win 2).fill (grid0.coords t) d ((cfg0.win 2).cut (grid0.coords t) ((datsF m 0 c).after 2 t))))
    ∗ (∃ d, owns (c : Thread nD τ) (ms3 t) fullShare ((cfg0.win 3).fill (grid0.coords t) d ((cfg0.win 3).cut (grid0.coords t) ((datsF m 0 c).after 3 t))))
    ∗ (∃ d, owns (c : Thread nD τ) (ms4 t) fullShare ((cfg0.win 4).fill (grid0.coords t) d ((cfg0.win 4).cut (grid0.coords t) ((datsF m 0 c).after 4 t))))
    ∗ (∃ d, owns (c : Thread nD τ) (ms5 t) fullShare ((cfg0.win 5).fill (grid0.coords t) d ((cfg0.win 5).cut (grid0.coords t) ((datsF m 0 c).after 5 t))))
    ∗ (∃ d, owns (c : Thread nD τ) (ms6 t) fullShare ((cfg0.win 6).fill (grid0.coords t) d ((cfg0.win 6).cut (grid0.coords t) ((datsF m 0 c).after 6 t))))
    ∗ (∃ X, owns (c : Thread nD τ) (ms7 t) fullShare X)
    ∗ (∃ X, owns (c : Thread nD τ) (ms8 t) fullShare X))

set_option maxHeartbeats 1600000 in
/-- The body at any point. The point is a tile's first step, a middle step or its last step; in each the whole-body
    run applies to the inputs' buffers at what they hold, the outputs' buffers and the accumulators at whatever they
    hold, and hands the inputs' buffers back as found; what it leaves in the outputs' buffers and the accumulators is
    forgotten. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5, beforeF_6]
  rw [afterF_0, cut_afterF_1, cut_afterF_2, cut_afterF_3, cut_afterF_4, cut_afterF_5, cut_afterF_6]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%X7, H7⟩, ⟨%X8, H8⟩⟩
  by_cases hF : t.val % 32 = 0
  · iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _)
      ((hcondFirst t).mpr hF) (fun h => by have := (hcondLast t).mp h; omega)
      (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) X7 X8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    iintro ⟨H0, H1, H2, H3, H4, H5, H6, H7, H8, HS0, HS1⟩
    isplitl [HS0 HS1 Hg]
    · isplitl [HS0 HS1]
      · isplitl [HS0]
        · iexists _; iexact HS0
        · iexists _; iexact HS1
      · iexact Hg
    isplitl [Ho]; · iexact Ho
    isplitl [H0]; · iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexists _; iexact H7
    iexists _; iexact H8
  · by_cases hL : t.val % 32 = 31
    · iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _)
        (fun h => hF ((hcondFirst t).mp h)) ((hcondLast t).mpr hL)
        (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; iexact HS0
          · iexists _; iexact HS1
        · iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexists _; iexact H7
      iexists _; iexact H8
    · iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _)
        (fun h => hF ((hcondFirst t).mp h)) (fun h => hL ((hcondLast t).mp h))
        (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) X7 X8 s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; iexact HS0
          · iexists _; iexact HS1
        · iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexists _; iexact H7
      iexists _; iexact H8

/-- The library's body obligation (its loose form, the outputs forgotten), at every point. -/
theorem body_obligationF (c : Dev nD) :
    Pipeline.BodyObligationLoose (datsF (F := F) m 0 c) (defs₀ (F := F)) Variants.none () Set.univ fgtF := fun t => by
  rw [bigSep_W0, bigSep_W0]
  exact sound_bodyF m c t

/-! ## The run and the frame -/

/-- The buffers the five host operations after the region write: their own results. -/
abbrev tailT : Finset (Ref sig .tc) := {main_v14, main_v15, main_v16, main_v17, main_v18}

/-- Each of them writes its own result buffer only. -/
theorem tail_writes : ∀ ops ∈ ([hostOps1] : List (List (HloOp τ sig (Elt F)))), ∀ op ∈ ops,
    ∀ b : Ref sig .tc, Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl | rfl | rfl | rfl | rfl
  all_goals
    simp only [StableHlo.unary_writes, StableHlo.binary_writes, StableHlo.reshape_writes, Finset.mem_singleton] at hb
    obtain rfl := Proc.devRef_injective (τ := τ) _ hb
    decide

set_option backward.isDefEq.respectTransparency.types false in
/-- At the compiled mesh, for any values, from any memory with zero counters: every weakly fair execution of @main
    terminates, every array of the pipeline ends at contents its write-backs allow (an input's: its contents at the
    region's entry), and every other unscoped buffer the later host operations do not write ends as the region
    found it. -/
theorem run_mainF : θ_run defs (onTc (τ := τ) (main (F := F))) (s₀ m ρ)
    (Pipeline.RDat.FramePostR cfg0 (fun c => (datsF m 0 c).toRForget fgtF) tailT (fun c b => V0 m c (Proc.devRef .tc b))) :=
  Pipeline.RDat.θ_run_frame_around_T_track cfgs (0 : Fin 1) launch0 defs₀ Variants.none
    (fun c => (datsF m 0 c).toRForget fgtF) tailT m ρ main
    (hbody := fun c => (body_obligationF m c).toRForget) (hshare := fun c => (datsF m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eqF m)
    (hin := fun c => Idealize.SL.BI.Entails.refl _) (hout := fun c => Idealize.SL.BI.Entails.refl _)

/-- THE FRAME, at any float instance (Defs.lean's frame claim is this at the program's instance). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), by decide⟩)).trans (V_main_arg0 m c),
      (h.arr_in c 1 rfl).trans ((A_eqF m c 1).trans (V_main_arg1 m c)),
      ((h c).2 main_arg2 (Finset.mem_sdiff.mpr ⟨Pipeline.mem_restRefs_of main_arg2 (by decide) (by decide), by decide⟩)).trans (V_main_arg2 m c),
      (h.arr_in c 2 rfl).trans ((A_eqF m c 2).trans (V_main_arg3 m c)),
      ((h c).2 main_arg4 (Finset.mem_sdiff.mpr ⟨Pipeline.mem_restRefs_of main_arg4 (by decide) (by decide), by decide⟩)).trans (V_main_arg4 m c)⟩)
    (run_mainF m ρ)

end Cert.KernelIdeal.KProof

end
-- ==== Proof.KCommonBits.lean ====
/-
  What the frame and the value proofs of the kernel share, at any float instance: when each of the body's two
  conditionals is taken (the accumulators are reset at the first step of a column tile, k = 0, and the outputs are
  stored at its last, k = 31), where the two output windows are idle and where they are written back, the staging and
  scratch memrefs as the pipeline passes them, and the region's class invariant opened into the two scratch buffers.
-/
import proofs.«407691_j14783277433034_1_alg».proof.Proof.Gen.Kernel.Frame
import proofs.«407691_j14783277433034_1_alg».proof.Proof.Gen.Kernel.Skeleton

set_option maxRecDepth 16384

noncomputable section

namespace Cert.Kernel.KProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional (reset the accumulators) is taken: the reduction coordinate is 0. -/
abbrev condFirst (i : grid0.Coords) : Prop :=
  (Scalar.cmpi .ne (Scalar.extui (Scalar.cmpi .eq (BitVec.ofNat 32 (i 1).val) 0#32)) 0#32) = 1#1
/-- It is taken at the points ≡ 0 (mod 32). -/
theorem hcondFirst : ∀ t : Fin cfg0.N, condFirst (grid0.coords t) ↔ t.val % 32 = 0 :=
  (by decide +kernel : ∀ t : Fin grid0.N, condFirst (grid0.coords t) ↔ t.val % 32 = 0)

/-- The second conditional (add the bias and store the outputs) is taken: the reduction coordinate is 31. -/
abbrev condLast (i : grid0.Coords) : Prop := k0_cond2 i = 1#1
/-- It is taken at the points ≡ 31 (mod 32). -/
theorem hcondLast : ∀ t : Fin cfg0.N, condLast (grid0.coords t) ↔ t.val % 32 = 31 :=
  (by decide +kernel : ∀ t : Fin grid0.N, condLast (grid0.coords t) ↔ t.val % 32 = 31)

/-! ## Idle and live points of the windows -/

theorem live_in : ∀ (w : Fin 9), w.val < 7 → ∀ i : grid0.Coords, cfg0.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl
/-- Away from a tile's last step the output windows are idle and not written back; -/
theorem idle7 : ∀ t : Fin cfg0.N, ¬condLast (grid0.coords t) → cfg0.idle 7 (grid0.coords t) = true := by decide +kernel
theorem idle8 : ∀ t : Fin cfg0.N, ¬condLast (grid0.coords t) → cfg0.idle 8 (grid0.coords t) = true := by decide +kernel
theorem noFlush7 : ∀ t : Fin cfg0.N, ¬condLast (grid0.coords t) → (cfg0.win 7).flush t = false := by decide +kernel
theorem noFlush8 : ∀ t : Fin cfg0.N, ¬condLast (grid0.coords t) → (cfg0.win 8).flush t = false := by decide +kernel
/-- at it they are live and written back. -/
theorem live7 : ∀ t : Fin cfg0.N, condLast (grid0.coords t) → cfg0.idle 7 (grid0.coords t) = false := by decide +kernel
theorem live8 : ∀ t : Fin cfg0.N, condLast (grid0.coords t) → cfg0.idle 8 (grid0.coords t) = false := by decide +kernel

/-! ## The memrefs the body is called with -/

abbrev ms0 (t : Fin cfg0.N) : Memref sig .tc .vmem S32x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2816 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x2816 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x2816 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x2816 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2816 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2816 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x2816 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x2816 .f32 := win0_8.stage (cfg0.slots t 8)
abbrev hs8 (t : Fin cfg0.N) : (ms8 t).IsWhole := hstage0_8 ((cfg0.slots t 8).cast nbuf0_8)
/-- The two accumulators: whole scoped buffers of the kernel's own. -/
abbrev scLo : Memref sig .tc .vmem S32x2816 .f32 := Memref.whole cc0_scratch0
abbrev scHi : Memref sig .tc .vmem S32x2816 .f32 := Memref.whole cc0_scratch1

/-- The class invariant opened: the two accumulators at some contents, and the generator register at some state. -/
theorem PhiA_eq (c : Dev nD) :
    (Pipeline.ΦA spec0 c : sProp 𝕄)
      = iprop(iprop((∃ d, owns (c : Thread nD τ) scLo fullShare d) ∗ (∃ d, owns (c : Thread nD τ) scHi fullShare d)) ∗ (∃ r, prngReg c r)) := by
  unfold Pipeline.ΦA; rw [scopedRest0_eq]; simp only [scLo, scHi, owns_whole]; try rfl

/-! ## One step of the two accumulators, as the body computes it -/

/-- Row k (the point's reduction coordinate) of a 32-row staging block, as the body's row load reads it. -/
def rowOf {e : EltTy} (i : grid0.Coords) (X : S32x2816.Idx → Elt F e) : S1x2816.Idx → Elt F e :=
  View.ld X (Rect.unit (s := S32x2816) (k0_off1 i) S1x2816.size (k0_off1_inb i))

/-- The low-nibble accumulator after the step, from the staging blocks and the accumulator before it. -/
def stepLo (i : grid0.Coords) (x0 : Vec F S32x128 .f32) (x1 : Vec F S128x2816 .i32) (x2 : Vec F S32x2816 .i32)
    (x3 : Vec F S32x2816 .f32) (s : Vec F S32x2816 .f32) : Vec F S32x2816 .f32 :=
  k0_pay2 (k0_pay9 x1 (rowOf i x2) (rowOf i x3)) x0 s
/-- The high-nibble accumulator likewise. -/
def stepHi (i : grid0.Coords) (x0 : Vec F S32x128 .f32) (x1 : Vec F S128x2816 .i32) (x2 : Vec F S32x2816 .i32)
    (x4 : Vec F S32x2816 .f32) (s : Vec F S32x2816 .f32) : Vec F S32x2816 .f32 :=
  k0_pay3 (k0_pay10 x1 (rowOf i x2) (rowOf i x4)) x0 s

end Cert.Kernel.KProof

end
-- ==== Proof.KRunBits.lean ====
/-
  The kernel body run once, at any float instance, in each of the three situations the grid meets. On whole staging
  buffers holding x0 (the activations' block), x1 (the packed weights' block), x2 (the packed zero points), x3 and x4
  (the two halves of the scales), x5 and x6 (the two halves of the bias), the body
    · at a tile's first step overwrites both accumulators with one step from zero and leaves the outputs as found;
    · at a middle step advances both accumulators by one step and leaves the outputs as found;
    · at a tile's last step advances both accumulators and stores accumulator + bias into the two outputs.
  The inputs' buffers are handed back unchanged. Nothing is said of what the values mean: that is read off the
  payloads elsewhere.
-/
import proofs.«407691_j14783277433034_1_alg».proof.Proof.KCommonBits
import Idealize.ShloMosaic.Lib.Pipeline.Value

set_option maxRecDepth 16384

noncomputable section

namespace Cert.Kernel.KProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores, read back -/

/-- The zero offsets of a rank-2 rectangle, as a constant function. -/
private theorem hz2 : (![0, 0] : Fin 2 → Nat) = fun _ => 0 := funext fun a => by fin_cases a <;> rfl

section Whole

variable {κ : Kind} {sp : Space} {S : Shape} {e : EltTy}

/-- After a store through the whole rectangle, made last, the buffer reads that store's payload, whatever it held
    and whatever was stored before. -/
private theorem read_writes_whole (v : View sig κ sp S e) {off : Fin S.rank → Nat} (h : off = fun _ => 0)
    (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

end Whole

/-- First step of a tile: the accumulators are reset, then advanced; the outputs are not touched. -/
theorem run_first (c : Dev nD) (i : grid0.Coords) (arg2 : Memref sig .tc .vmem S32x128 .f32) (harg2 : arg2.IsWhole) (arg3 : Memref sig .tc .vmem S128x2816 .i32) (harg3 : arg3.IsWhole) (arg4 : Memref sig .tc .vmem S32x2816 .i32) (harg4 : arg4.IsWhole) (arg5 : Memref sig .tc .vmem S32x2816 .f32) (harg5 : arg5.IsWhole) (arg6 : Memref sig .tc .vmem S32x2816 .f32) (harg6 : arg6.IsWhole) (arg7 : Memref sig .tc .vmem S1x2816 .f32) (harg7 : arg7.IsWhole) (arg8 : Memref sig .tc .vmem S1x2816 .f32) (harg8 : arg8.IsWhole) (arg9 : Memref sig .tc .vmem S32x2816 .f32) (harg9 : arg9.IsWhole) (arg10 : Memref sig .tc .vmem S32x2816 .f32) (harg10 : arg10.IsWhole) (arg11 : Memref sig .tc .vmem S32x2816 .f32) (harg11 : arg11.IsWhole) (arg12 : Memref sig .tc .vmem S32x2816 .f32) (harg12 : arg12.IsWhole)
    (hF : condFirst i) (hL : ¬condLast i) (x0 : Vec F S32x128 .f32) (x1 : Vec F S128x2816 .i32) (x2 : Vec F S32x2816 .i32) (x3 x4 : Vec F S32x2816 .f32) (x5 x6 : Vec F S1x2816 .f32) (x7 x8 : Vec F S32x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare x7 ∗ owns (c : Thread nD τ) arg10 fullShare x8
        ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare x7 ∗ owns (c : Thread nD τ) arg10 fullShare x8
            ∗ owns (c : Thread nD τ) arg11 fullShare (stepLo i x0 x1 x2 x3 k0_pay6) ∗ owns (c : Thread nD τ) arg12 fullShare (stepHi i x0 x1 x2 x4 k0_pay7)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  sl_exec (disch := first | exact hF | exact hL)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    rotate_left
    · iexact H9
    · ipureintro
      sl_unfold_run_names
      rw [read_writes_whole _ hz2]
      subst hf0 hf1 hf2 hf3
      unfold stepLo rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  · iexists _; isplitr
    rotate_left
    · iexact H10
    · ipureintro
      sl_unfold_run_names
      rw [read_writes_whole _ hz2]
      subst hf0 hf1 hf2 hf4
      unfold stepHi rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]

/-- A middle step: both accumulators advanced from what they held; the outputs are not touched. -/
theorem run_mid (c : Dev nD) (i : grid0.Coords) (arg2 : Memref sig .tc .vmem S32x128 .f32) (harg2 : arg2.IsWhole) (arg3 : Memref sig .tc .vmem S128x2816 .i32) (harg3 : arg3.IsWhole) (arg4 : Memref sig .tc .vmem S32x2816 .i32) (harg4 : arg4.IsWhole) (arg5 : Memref sig .tc .vmem S32x2816 .f32) (harg5 : arg5.IsWhole) (arg6 : Memref sig .tc .vmem S32x2816 .f32) (harg6 : arg6.IsWhole) (arg7 : Memref sig .tc .vmem S1x2816 .f32) (harg7 : arg7.IsWhole) (arg8 : Memref sig .tc .vmem S1x2816 .f32) (harg8 : arg8.IsWhole) (arg9 : Memref sig .tc .vmem S32x2816 .f32) (harg9 : arg9.IsWhole) (arg10 : Memref sig .tc .vmem S32x2816 .f32) (harg10 : arg10.IsWhole) (arg11 : Memref sig .tc .vmem S32x2816 .f32) (harg11 : arg11.IsWhole) (arg12 : Memref sig .tc .vmem S32x2816 .f32) (harg12 : arg12.IsWhole)
    (hF : ¬condFirst i) (hL : ¬condLast i) (x0 : Vec F S32x128 .f32) (x1 : Vec F S128x2816 .i32) (x2 : Vec F S32x2816 .i32) (x3 x4 : Vec F S32x2816 .f32) (x5 x6 : Vec F S1x2816 .f32) (x7 x8 s0 s1 : Vec F S32x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare x7 ∗ owns (c : Thread nD τ) arg10 fullShare x8
        ∗ owns (c : Thread nD τ) arg11 fullShare s0 ∗ owns (c : Thread nD τ) arg12 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare x7 ∗ owns (c : Thread nD τ) arg10 fullShare x8
            ∗ owns (c : Thread nD τ) arg11 fullShare (stepLo i x0 x1 x2 x3 s0) ∗ owns (c : Thread nD τ) arg12 fullShare (stepHi i x0 x1 x2 x4 s1)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | exact hF | exact hL)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    · ipureintro; exact hf8
    · iexact H8
  isplitl [H9]
  · iexists _; isplitr
    rotate_left
    · iexact H9
    · ipureintro
      sl_unfold_run_names
      rw [read_writes_whole _ hz2]
      subst hf0 hf1 hf2 hf3 hf9
      unfold stepLo rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  · iexists _; isplitr
    rotate_left
    · iexact H10
    · ipureintro
      sl_unfold_run_names
      rw [read_writes_whole _ hz2]
      subst hf0 hf1 hf2 hf4 hf10
      unfold stepHi rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]

/-- Last step of a tile: both accumulators advanced, and each output stored whole as accumulator + bias. -/
theorem run_last (c : Dev nD) (i : grid0.Coords) (arg2 : Memref sig .tc .vmem S32x128 .f32) (harg2 : arg2.IsWhole) (arg3 : Memref sig .tc .vmem S128x2816 .i32) (harg3 : arg3.IsWhole) (arg4 : Memref sig .tc .vmem S32x2816 .i32) (harg4 : arg4.IsWhole) (arg5 : Memref sig .tc .vmem S32x2816 .f32) (harg5 : arg5.IsWhole) (arg6 : Memref sig .tc .vmem S32x2816 .f32) (harg6 : arg6.IsWhole) (arg7 : Memref sig .tc .vmem S1x2816 .f32) (harg7 : arg7.IsWhole) (arg8 : Memref sig .tc .vmem S1x2816 .f32) (harg8 : arg8.IsWhole) (arg9 : Memref sig .tc .vmem S32x2816 .f32) (harg9 : arg9.IsWhole) (arg10 : Memref sig .tc .vmem S32x2816 .f32) (harg10 : arg10.IsWhole) (arg11 : Memref sig .tc .vmem S32x2816 .f32) (harg11 : arg11.IsWhole) (arg12 : Memref sig .tc .vmem S32x2816 .f32) (harg12 : arg12.IsWhole)
    (hF : ¬condFirst i) (hL : condLast i) (x0 : Vec F S32x128 .f32) (x1 : Vec F S128x2816 .i32) (x2 : Vec F S32x2816 .i32) (x3 x4 : Vec F S32x2816 .f32) (x5 x6 : Vec F S1x2816 .f32) (s0 s1 : Vec F S32x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ owns (c : Thread nD τ) arg11 fullShare s0 ∗ owns (c : Thread nD τ) arg12 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay4 (stepLo i x0 x1 x2 x3 s0) x5) ∗ owns (c : Thread nD τ) arg10 fullShare (k0_pay5 (stepHi i x0 x1 x2 x4 s1) x6)
            ∗ owns (c : Thread nD τ) arg11 fullShare (stepLo i x0 x1 x2 x3 s0) ∗ owns (c : Thread nD τ) arg12 fullShare (stepHi i x0 x1 x2 x4 s1)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  sl_exec (disch := first | exact hF | exact hL)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    rotate_left
    · iexact H7
    · ipureintro
      sl_unfold_run_names
      rw [read_writes_whole _ hz2]
      subst hf0 hf1 hf2 hf3 hf5 hf9
      unfold stepLo rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  isplitl [H8]
  · iexists _; isplitr
    rotate_left
    · iexact H8
    · ipureintro
      sl_unfold_run_names
      rw [read_writes_whole _ hz2]
      subst hf0 hf1 hf2 hf4 hf6 hf10
      unfold stepHi rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  isplitl [H9]
  · iexists _; isplitr
    rotate_left
    · iexact H9
    · ipureintro
      sl_unfold_run_names
      rw [read_writes_whole _ hz2]
      subst hf0 hf1 hf2 hf3 hf9
      unfold stepLo rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]
  · iexists _; isplitr
    rotate_left
    · iexact H10
    · ipureintro
      sl_unfold_run_names
      rw [read_writes_whole _ hz2]
      subst hf0 hf1 hf2 hf4 hf10
      unfold stepHi rowOf
      dsimp only
      simp only [View.readAt_eq_ld, View.readCov_unit_zero (S := S32x2816) _ hz2, View.ld_unit_zero (S := S32x2816) hz2,
        View.ld_unit_zero (S := S128x2816) hz2, View.ld_unit_zero (S := S32x128) hz2, View.ld_unit_zero (S := S1x2816) hz2]

end Cert.Kernel.KProof

end
-- ==== Proof.KFrameBits.lean ====
/-
  The frame of the kernel's program at ANY float instance: every weakly fair execution of @main terminates, faults
  nowhere, and leaves the five argument arrays as it found them.

  Nothing is said here of what the kernel computes. The second column tile's blocks overhang the arrays: the cut
  fetches leave words nothing names in the staging buffers' tails, the matrix product carries them into the
  accumulators and from there into the output buffers. So the proof data forgets the two output windows (their
  buffers are handed to the body and taken back at arbitrary contents) and the invariant holds the two accumulators at
  arbitrary contents; the inputs' buffers hold their blocks on the part the fetch fills and are handed back as found.
  No branch, address, trip count or wait of the body depends on any of those words: the two conditionals read the grid
  point only, and the row loads read row "k" of the point. The arguments are unchanged because two of them are input
  arrays of the pipeline, which writes back outputs only, and the other three are read by host operations only.
-/
import proofs.«407691_j14783277433034_1_alg».proof.Proof.KCommonBits
import proofs.«407691_j14783277433034_1_alg».proof.Proof.KRunBits

set_option maxRecDepth 16384

noncomputable section

namespace Cert.Kernel.KProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: the two output windows forgotten -/

/-- The windows the proof data says nothing of: the two outputs. -/
abbrev fgtF : Fin 9 → Bool := fun | 0 => false | 1 => false | 2 => false | 3 => false | 4 => false | 5 => false | 6 => false | 7 => true | 8 => true | ⟨_ + 9, h⟩ => absurd h (Nat.not_lt.2 (Nat.le_add_left _ _))

/-- The proof data of the one pipeline on core c: the arrays as the region finds them; after the body at point t the
    activations' buffer at its block, each cut input's buffer at its block on the part the fetch fills (and at an
    unnamed word elsewhere), the two outputs' buffers unnamed; the invariant the class's throughout (the two
    accumulators at some contents, the generator register at some state); nothing owed; full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.arbitrary _) (iblk m c 1 t)
    | ⟨2, _⟩ => win0_2.fill (grid0.coords t) (fun _ => Classical.arbitrary _) (iblk m c 2 t)
    | ⟨3, _⟩ => win0_3.fill (grid0.coords t) (fun _ => Classical.arbitrary _) (iblk m c 3 t)
    | ⟨4, _⟩ => win0_4.fill (grid0.coords t) (fun _ => Classical.arbitrary _) (iblk m c 4 t)
    | ⟨5, _⟩ => win0_5.fill (grid0.coords t) (fun _ => Classical.arbitrary _) (iblk m c 5 t)
    | ⟨6, _⟩ => win0_6.fill (grid0.coords t) (fun _ => Classical.arbitrary _) (iblk m c 6 t)
    | ⟨7, _⟩ => fun _ => Classical.arbitrary _
    | ⟨8, _⟩ => fun _ => Classical.arbitrary _
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) :
    (datsF m 0 c).after 1 t = win0_1.fill (grid0.coords t) (fun _ => Classical.arbitrary _) (iblk m c 1 t) := by dsimp only [datsF]
theorem afterF_2 (c : Dev nD) (t : Fin cfg0.N) :
    (datsF m 0 c).after 2 t = win0_2.fill (grid0.coords t) (fun _ => Classical.arbitrary _) (iblk m c 2 t) := by dsimp only [datsF]
theorem afterF_3 (c : Dev nD) (t : Fin cfg0.N) :
    (datsF m 0 c).after 3 t = win0_3.fill (grid0.coords t) (fun _ => Classical.arbitrary _) (iblk m c 3 t) := by dsimp only [datsF]
theorem afterF_4 (c : Dev nD) (t : Fin cfg0.N) :
    (datsF m 0 c).after 4 t = win0_4.fill (grid0.coords t) (fun _ => Classical.arbitrary _) (iblk m c 4 t) := by dsimp only [datsF]
theorem afterF_5 (c : Dev nD) (t : Fin cfg0.N) :
    (datsF m 0 c).after 5 t = win0_5.fill (grid0.coords t) (fun _ => Classical.arbitrary _) (iblk m c 5 t) := by dsimp only [datsF]
theorem afterF_6 (c : Dev nD) (t : Fin cfg0.N) :
    (datsF m 0 c).after 6 t = win0_6.fill (grid0.coords t) (fun _ => Classical.arbitrary _) (iblk m c 6 t) := by dsimp only [datsF]

/-- The part of a cut input's buffer that the transfers move is its block, after the body as before it. -/
theorem cut_afterF_1 (c : Dev nD) (t : Fin cfg0.N) :
    (cfg0.win 1).cut (grid0.coords t) ((datsF m 0 c).after 1 t) = iblk m c 1 t := by
  rw [afterF_1]; exact win0_1.cut_fill _ _ _
theorem cut_afterF_2 (c : Dev nD) (t : Fin cfg0.N) :
    (cfg0.win 2).cut (grid0.coords t) ((datsF m 0 c).after 2 t) = iblk m c 2 t := by
  rw [afterF_2]; exact win0_2.cut_fill _ _ _
theorem cut_afterF_3 (c : Dev nD) (t : Fin cfg0.N) :
    (cfg0.win 3).cut (grid0.coords t) ((datsF m 0 c).after 3 t) = iblk m c 3 t := by
  rw [afterF_3]; exact win0_3.cut_fill _ _ _
theorem cut_afterF_4 (c : Dev nD) (t : Fin cfg0.N) :
    (cfg0.win 4).cut (grid0.coords t) ((datsF m 0 c).after 4 t) = iblk m c 4 t := by
  rw [afterF_4]; exact win0_4.cut_fill _ _ _
theorem cut_afterF_5 (c : Dev nD) (t : Fin cfg0.N) :
    (cfg0.win 5).cut (grid0.coords t) ((datsF m 0 c).after 5 t) = iblk m c 5 t := by
  rw [afterF_5]; exact win0_5.cut_fill _ _ _
theorem cut_afterF_6 (c : Dev nD) (t : Fin cfg0.N) :
    (cfg0.win 6).cut (grid0.coords t) ((datsF m 0 c).after 6 t) = iblk m c 6 t := by
  rw [afterF_6]; exact win0_6.cut_fill _ _ _

/-! ## What the body finds in the inputs' buffers -/

/-- The activations' window is uncut: its buffer holds its block at every point. -/
theorem beforeF_0 (c : Dev nD) (t : Fin cfg0.N) (d) : (datsF m 0 c).before 0 t d = iblk m c 0 t :=
  before0_0_of m (datsF m 0 c) (A_eqF m c 0) (afterF_0 m c) t d

/-- A cut input's buffer holds its block on the part the fetch fills, fetched at this point or not: an unfetched
    window's block index has not moved, equal block indices are cut alike, and the body leaves the moved part in place. -/
theorem beforeF_1 (c : Dev nD) (t : Fin cfg0.N) (d) :
    (datsF m 0 c).before 1 t d = win0_1.fill (grid0.coords t) d (iblk m c 1 t) :=
  ((datsF m 0 c).before_in_eq_fetched 1 rfl (live_in 1 (by decide))
    (fun t t' h => funext fun a => congrArg (fun n => Pipeline.Clip.of n (win0_1.size a) (win0_1.shape.size a)) (congrFun h a))
    (fun t => by rw [cut_afterF_1]; unfold Dat.blockOf iblk; rw [A_eqF]) t d).trans
    (by unfold Dat.fetched Dat.blockOf iblk; rw [A_eqF])
theorem beforeF_2 (c : Dev nD) (t : Fin cfg0.N) (d) :
    (datsF m 0 c).before 2 t d = win0_2.fill (grid0.coords t) d (iblk m c 2 t) :=
  ((datsF m 0 c).before_in_eq_fetched 2 rfl (live_in 2 (by decide))
    (fun t t' h => funext fun a => congrArg (fun n => Pipeline.Clip.of n (win0_2.size a) (win0_2.shape.size a)) (congrFun h a))
    (fun t => by rw [cut_afterF_2]; unfold Dat.blockOf iblk; rw [A_eqF]) t d).trans
    (by unfold Dat.fetched Dat.blockOf iblk; rw [A_eqF])
theorem beforeF_3 (c : Dev nD) (t : Fin cfg0.N) (d) :
    (datsF m 0 c).before 3 t d = win0_3.fill (grid0.coords t) d (iblk m c 3 t) :=
  ((datsF m 0 c).before_in_eq_fetched 3 rfl (live_in 3 (by decide))
    (fun t t' h => funext fun a => congrArg (fun n => Pipeline.Clip.of n (win0_3.size a) (win0_3.shape.size a)) (congrFun h a))
    (fun t => by rw [cut_afterF_3]; unfold Dat.blockOf iblk; rw [A_eqF]) t d).trans
    (by unfold Dat.fetched Dat.blockOf iblk; rw [A_eqF])
theorem beforeF_4 (c : Dev nD) (t : Fin cfg0.N) (d) :
    (datsF m 0 c).before 4 t d = win0_4.fill (grid0.coords t) d (iblk m c 4 t) :=
  ((datsF m 0 c).before_in_eq_fetched 4 rfl (live_in 4 (by decide))
    (fun t t' h => funext fun a => congrArg (fun n => Pipeline.Clip.of n (win0_4.size a) (win0_4.shape.size a)) (congrFun h a))
    (fun t => by rw [cut_afterF_4]; unfold Dat.blockOf iblk; rw [A_eqF]) t d).trans
    (by unfold Dat.fetched Dat.blockOf iblk; rw [A_eqF])
theorem beforeF_5 (c : Dev nD) (t : Fin cfg0.N) (d) :
    (datsF m 0 c).before 5 t d = win0_5.fill (grid0.coords t) d (iblk m c 5 t) :=
  ((datsF m 0 c).before_in_eq_fetched 5 rfl (live_in 5 (by decide))
    (fun t t' h => funext fun a => congrArg (fun n => Pipeline.Clip.of n (win0_5.size a) (win0_5.shape.size a)) (congrFun h a))
    (fun t => by rw [cut_afterF_5]; unfold Dat.blockOf iblk; rw [A_eqF]) t d).trans
    (by unfold Dat.fetched Dat.blockOf iblk; rw [A_eqF])
theorem beforeF_6 (c : Dev nD) (t : Fin cfg0.N) (d) :
    (datsF m 0 c).before 6 t d = win0_6.fill (grid0.coords t) d (iblk m c 6 t) :=
  ((datsF m 0 c).before_in_eq_fetched 6 rfl (live_in 6 (by decide))
    (fun t t' h => funext fun a => congrArg (fun n => Pipeline.Clip.of n (win0_6.size a) (win0_6.shape.size a)) (congrFun h a))
    (fun t => by rw [cut_afterF_6]; unfold Dat.blockOf iblk; rw [A_eqF]) t d).trans
    (by unfold Dat.fetched Dat.blockOf iblk; rw [A_eqF])

/-! ## The body obligation, at a generic point -/

/-- What the body is called with at point t: the invariant, nothing owed, each input's buffer at what the pipeline
    left there, each output's at anything. -/
def bodyPreF (c : Dev nD) (t : Fin cfg0.N) : sProp 𝕄 :=
  iprop((datsF m 0 c).Φ t.castSucc ∗ (datsF m 0 c).owesAt () t.castSucc
    ∗ (∃ d, owns (c : Thread nD τ) (ms0 t) fullShare ((datsF m 0 c).before 0 t d))
    ∗ (∃ d, owns (c : Thread nD τ) (ms1 t) fullShare ((datsF m 0 c).before 1 t d))
    ∗ (∃ d, owns (c : Thread nD τ) (ms2 t) fullShare ((datsF m 0 c).before 2 t d))
    ∗ (∃ d, owns (c : Thread nD τ) (ms3 t) fullShare ((datsF m 0 c).before 3 t d))
    ∗ (∃ d, owns (c : Thread nD τ) (ms4 t) fullShare ((datsF m 0 c).before 4 t d))
    ∗ (∃ d, owns (c : Thread nD τ) (ms5 t) fullShare ((datsF m 0 c).before 5 t d))
    ∗ (∃ d, owns (c : Thread nD τ) (ms6 t) fullShare ((datsF m 0 c).before 6 t d))
    ∗ (∃ X, owns (c : Thread nD τ) (ms7 t) fullShare X)
    ∗ (∃ X, owns (c : Thread nD τ) (ms8 t) fullShare X))

/-- What it returns: the invariant, nothing owed, the activations' buffer at its block, each cut input's buffer at
    its block on the moved part, each output's at anything. -/
def bodyPostF (c : Dev nD) (t : Fin cfg0.N) : sProp 𝕄 :=
  iprop((datsF m 0 c).Φ t.succ ∗ (datsF m 0 c).owesAt () t.succ
    ∗ owns (c : Thread nD τ) (ms0 t) fullShare ((datsF m 0 c).after 0 t)
    ∗ (∃ d, owns (c : Thread nD τ) (ms1 t) fullShare ((cfg0.win 1).fill (grid0.coords t) d ((cfg0.win 1).cut (grid0.coords t) ((datsF m 0 c).after 1 t))))
    ∗ (∃ d, owns (c : Thread nD τ) (ms2 t) fullShare ((cfg0.win 2).fill (grid0.coords t) d ((cfg0.win 2).cut (grid0.coords t) ((datsF m 0 c).after 2 t))))
    ∗ (∃ d, owns (c : Thread nD τ) (ms3 t) fullShare ((cfg0.win 3).fill (grid0.coords t) d ((cfg0.win 3).cut (grid0.coords t) ((datsF m 0 c).after 3 t))))
    ∗ (∃ d, owns (c : Thread nD τ) (ms4 t) fullShare ((cfg0.win 4).fill (grid0.coords t) d ((cfg0.win 4).cut (grid0.coords t) ((datsF m 0 c).after 4 t))))
    ∗ (∃ d, owns (c : Thread nD τ) (ms5 t) fullShare ((cfg0.win 5).fill (grid0.coords t) d ((cfg0.win 5).cut (grid0.coords t) ((datsF m 0 c).after 5 t))))
    ∗ (∃ d, owns (c : Thread nD τ) (ms6 t) fullShare ((cfg0.win 6).fill (grid0.coords t) d ((cfg0.win 6).cut (grid0.coords t) ((datsF m 0 c).after 6 t))))
    ∗ (∃ X, owns (c : Thread nD τ) (ms7 t) fullShare X)
    ∗ (∃ X, owns (c : Thread nD τ) (ms8 t) fullShare X))

set_option maxHeartbeats 1600000 in
/-- The body at any point. The point is a tile's first step, a middle step or its last step; in each the whole-body
    run applies to the inputs' buffers at what they hold, the outputs' buffers and the accumulators at whatever they
    hold, and hands the inputs' buffers back as found; what it leaves in the outputs' buffers and the accumulators is
    forgotten. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3, beforeF_4, beforeF_5, beforeF_6]
  rw [afterF_0, cut_afterF_1, cut_afterF_2, cut_afterF_3, cut_afterF_4, cut_afterF_5, cut_afterF_6]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%X7, H7⟩, ⟨%X8, H8⟩⟩
  by_cases hF : t.val % 32 = 0
  · iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _)
      ((hcondFirst t).mpr hF) (fun h => by have := (hcondLast t).mp h; omega)
      (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) X7 X8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexists _; iexact HS0
    isplitl [HS1]; · iexists _; iexact HS1
    iintro ⟨H0, H1, H2, H3, H4, H5, H6, H7, H8, HS0, HS1⟩
    isplitl [HS0 HS1 Hg]
    · isplitl [HS0 HS1]
      · isplitl [HS0]
        · iexists _; iexact HS0
        · iexists _; iexact HS1
      · iexact Hg
    isplitl [Ho]; · iexact Ho
    isplitl [H0]; · iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexists _; iexact H7
    iexists _; iexact H8
  · by_cases hL : t.val % 32 = 31
    · iapply (run_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _)
        (fun h => hF ((hcondFirst t).mp h)) ((hcondLast t).mpr hL)
        (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; iexact HS0
          · iexists _; iexact HS1
        · iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexists _; iexact H7
      iexists _; iexact H8
    · iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _)
        (fun h => hF ((hcondFirst t).mp h)) (fun h => hL ((hcondLast t).mp h))
        (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) X7 X8 s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexists _; iexact HS0
          · iexists _; iexact HS1
        · iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexists _; iexact H7
      iexists _; iexact H8

/-- The library's body obligation (its loose form, the outputs forgotten), at every point. -/
theorem body_obligationF (c : Dev nD) :
    Pipeline.BodyObligationLoose (datsF (F := F) m 0 c) (defs₀ (F := F)) Variants.none () Set.univ fgtF := fun t => by
  rw [bigSep_W0, bigSep_W0]
  exact sound_bodyF m c t

/-! ## The run and the frame -/

/-- The buffers the five host operations after the region write: their own results. -/
abbrev tailT : Finset (Ref sig .tc) := {main_v14, main_v15, main_v16, main_v17, main_v18}

/-- Each of them writes its own result buffer only. -/
theorem tail_writes : ∀ ops ∈ ([hostOps1] : List (List (HloOp τ sig (Elt F)))), ∀ op ∈ ops,
    ∀ b : Ref sig .tc, Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl | rfl | rfl | rfl | rfl
  all_goals
    simp only [StableHlo.unary_writes, StableHlo.binary_writes, StableHlo.reshape_writes, Finset.mem_singleton] at hb
    obtain rfl := Proc.devRef_injective (τ := τ) _ hb
    decide

set_option backward.isDefEq.respectTransparency.types false in
/-- At the compiled mesh, for any values, from any memory with zero counters: every weakly fair execution of @main
    terminates, every array of the pipeline ends at contents its write-backs allow (an input's: its contents at the
    region's entry), and every other unscoped buffer the later host operations do not write ends as the region
    found it. -/
theorem run_mainF : θ_run defs (onTc (τ := τ) (main (F := F))) (s₀ m ρ)
    (Pipeline.RDat.FramePostR cfg0 (fun c => (datsF m 0 c).toRForget fgtF) tailT (fun c b => V0 m c (Proc.devRef .tc b))) :=
  Pipeline.RDat.θ_run_frame_around_T_track cfgs (0 : Fin 1) launch0 defs₀ Variants.none
    (fun c => (datsF m 0 c).toRForget fgtF) tailT m ρ main
    (hbody := fun c => (body_obligationF m c).toRForget) (hshare := fun c => (datsF m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eqF m)
    (hin := fun c => Idealize.SL.BI.Entails.refl _) (hout := fun c => Idealize.SL.BI.Entails.refl _)

/-- THE FRAME, at any float instance (Defs.lean's frame claim is this at the program's instance). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), by decide⟩)).trans (V_main_arg0 m c),
      (h.arr_in c 1 rfl).trans ((A_eqF m c 1).trans (V_main_arg1 m c)),
      ((h c).2 main_arg2 (Finset.mem_sdiff.mpr ⟨Pipeline.mem_restRefs_of main_arg2 (by decide) (by decide), by decide⟩)).trans (V_main_arg2 m c),
      (h.arr_in c 2 rfl).trans ((A_eqF m c 2).trans (V_main_arg3 m c)),
      ((h c).2 main_arg4 (Finset.mem_sdiff.mpr ⟨Pipeline.mem_restRefs_of main_arg4 (by decide) (by decide), by decide⟩)).trans (V_main_arg4 m c)⟩)
    (run_mainF m ρ)

end Cert.Kernel.KProof

end
-- ==== Proof.RefTerm.lean ====
/-
  The reference program's result as one pure term of its five argument arrays: each of @main's operations is applied,
  in @main's order and with @main's own evidence, to the terms of its operands.

  The two packed arrays are unpacked the same way: the low nibble (the word and 15) and the next nibble (the word
  shifted right by 4, and 15) are laid side by side along a new last axis of size two, that axis is merged into the
  column axis (column n = 2 J + h holds nibble h of packed column J), and the result is converted to a float. The
  group index of input channel k is the floored quotient of k by 128 as the callee computes it — the truncated quotient,
  lowered by one where the signs of dividend and divisor differ and the remainder is not zero — and a negative value
  would be raised by 32. Each channel's row of zero points and of scales is gathered by that index, the weight is
  (value − zero point) · scale, and the result is the contraction of the input with the weights over the 4096 channels
  plus the bias.
-/
import proofs.«407691_j14783277433034_1_alg».proof.ReferenceIdeal

noncomputable section

namespace Cert.ReferenceIdeal.RefTerm

open Idealize.ShloMosaic
open Cert.ReferenceIdeal Cert.ReferenceIdeal.Facts₀ Cert.ReferenceIdeal.Facts

variable {F : FTy → Type} [FloatOps F]
variable [Cert.ReferenceIdeal.Facts]

/-- The callee's result on the channel counter and the constant 128: the truncated quotient q = k / 128, or q − 1
    where the sign of k differs from the sign of 128 and the remainder of k by 128 is not zero. -/
def gidxRaw : IVec S4096 32 :=
  select
    (andi
      (cmpi .ne (signi (iotaInDim S4096 32 0))
        (broadcastInDim S4096 ![] bcast_S_S4096 (signi (id (constantI S_ 32 128#32)))))
      (cmpi .ne
        (Host.remsi (iotaInDim S4096 32 0) (broadcastInDim S4096 ![] bcast_S_S4096 (id (constantI S_ 32 128#32))))
        (broadcastInDim S4096 ![] bcast_S_S4096 (constantI S_ 32 0#32))))
    (subi
      (Host.divsi (iotaInDim S4096 32 0) (broadcastInDim S4096 ![] bcast_S_S4096 (id (constantI S_ 32 128#32))))
      (broadcastInDim S4096 ![] bcast_S_S4096 (constantI S_ 32 1#32)))
    (Host.divsi (iotaInDim S4096 32 0) (broadcastInDim S4096 ![] bcast_S_S4096 (id (constantI S_ 32 128#32))))

/-- The group index as the gathers read it: a negative quotient raised by 32, any other kept. -/
def gidx : IVec S4096 32 :=
  select
    (cmpi .slt gidxRaw (broadcastInDim S4096 ![] bcast_S_S4096 (constantI S_ 32 0#32)))
    (addi gidxRaw (broadcastInDim S4096 ![] bcast_S_S4096 (constantI S_ 32 32#32)))
    gidxRaw

/-- The unpacked weights as floats: column 2 J + h of row k is nibble h of the packed word (k, J). -/
def qf (qw : IVec S4096x5504 32) : FVec F S4096x11008 .f32 :=
  sitofp .f32
    (shapeCast S4096x11008
      (concatenate S4096x5504x2 2
        [⟨S4096x5504x1, broadcastInDim S4096x5504x1 ![0, 1] bcast_S4096x5504_S4096x5504x1_0_1
            (andi qw (broadcastInDim S4096x5504 ![] bcast_S_S4096x5504 (constantI S_ 32 15#32)))⟩,
         ⟨S4096x5504x1, broadcastInDim S4096x5504x1 ![0, 1] bcast_S4096x5504_S4096x5504x1_0_1
            (andi (Host.shrsi qw (broadcastInDim S4096x5504 ![] bcast_S_S4096x5504 (constantI S_ 32 4#32)))
              (broadcastInDim S4096x5504 ![] bcast_S_S4096x5504 (constantI S_ 32 15#32)))⟩]
        concatenates_S4096x5504x1_S4096x5504x1_S4096x5504x2_d2)
      shapeCasts_S4096x5504x2_S4096x11008)

/-- The unpacked zero points as floats: column 2 J + h of group g is nibble h of the packed word (g, J). -/
def zf (qz : IVec S32x5504 32) : FVec F S32x11008 .f32 :=
  sitofp .f32
    (shapeCast S32x11008
      (concatenate S32x5504x2 2
        [⟨S32x5504x1, broadcastInDim S32x5504x1 ![0, 1] bcast_S32x5504_S32x5504x1_0_1
            (andi qz (broadcastInDim S32x5504 ![] bcast_S_S32x5504 (constantI S_ 32 15#32)))⟩,
         ⟨S32x5504x1, broadcastInDim S32x5504x1 ![0, 1] bcast_S32x5504_S32x5504x1_0_1
            (andi (Host.shrsi qz (broadcastInDim S32x5504 ![] bcast_S_S32x5504 (constantI S_ 32 4#32)))
              (broadcastInDim S32x5504 ![] bcast_S_S32x5504 (constantI S_ 32 15#32)))⟩]
        concatenates_S32x5504x1_S32x5504x1_S32x5504x2_d2)
      shapeCasts_S32x5504x2_S32x11008)

/-- The dequantised weights: (value − the zero point of the channel's group) · the scale of the channel's group. -/
def wf (qw : IVec S4096x5504 32) (sc : FVec F S32x11008 .f32) (qz : IVec S32x5504 32) : FVec F S4096x11008 .f32 :=
  mulf
    (subf (qf qw)
      (Host.gather gather_S32x11008_S4096x1_S4096x11008_1_0_n_n_0_1_111008 (zf qz)
        (broadcastInDim S4096x1 ![0] bcast_S4096_S4096x1_0 gidx)))
    (Host.gather gather_S32x11008_S4096x1_S4096x11008_1_0_n_n_0_1_111008 sc
      (broadcastInDim S4096x1 ![0] bcast_S4096_S4096x1_0 gidx))

/-- The result: the input contracted with the dequantised weights over the channels, plus the bias on every row. -/
def refTerm (x : FVec F S32x1x4096 .f32) (qw : IVec S4096x5504 32) (sc : FVec F S32x11008 .f32)
    (qz : IVec S32x5504 32) (bias : FVec F S11008 .f32) : FVec F S32x1x11008 .f32 :=
  addf
    (Host.dotGeneral dot_S32x1x4096_S4096x11008_S32x1x11008_2_0_01_1_n_n none x (wf qw sc qz))
    (broadcastInDim S32x1x11008 ![0, 1, 2] bcast_S1x1x11008_S32x1x11008_0_1_2
      (broadcastInDim S1x1x11008 ![2] bcast_S11008_S1x1x11008_2 bias))

end Cert.ReferenceIdeal.RefTerm

end
-- ==== Proof.RefRun.lean ====
/-
  The run of the reference program. @main is a straight line of host operations: fifty-four of its own and one call of
  the floored-division function, whose body (sixteen operations, then a call of the selection function: one operation)
  runs on the call's own buffers. With the two bodies put in place of the calls it is one list of seventy-one operations,
  and every weakly fair execution of it terminates with each buffer at the fold of the operations' results over the
  launch contents.

  The fold is read in eight consecutive stretches. Each stretch yields one value that later stretches read, as a
  function of the values it reads itself, and keeps every buffer it does not write: the unpacked weights; the unpacked
  zero points; the group index as the division leaves it; that index normalised (a negative one raised by 32); the
  weights less their group's zero point; the index normalised once more for the second gather; the product with the
  group's scale; the contraction with the input, plus the bias. Put together, the result buffer holds the reference
  term of the five argument arrays. No operation writes an argument array, so each ends as it began.
-/
import proofs.«407691_j14783277433034_1_alg».proof.Proof.Gen.ReferenceIdeal
import proofs.«407691_j14783277433034_1_alg».proof.Proof.RefTerm
import Idealize.ShloMosaic.Lib.StableHlo.Run
import Idealize.ShloMosaic.PureOps.Ideal

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- @main's seventy-one operations in order, the calls unfolded: thirty of its own (the two unpackings, the channel
    counter and the constant 128), the floored division's sixteen and the selection's one on the call's buffers, then
    twenty-four of its own (the two normalisations, the two gathers, the weights, the contraction, the bias). -/
abbrev ops : List (HloOp τ sig (Elt F)) :=
  [ nullary main_c (constantI S_ 32 15#32),
    unary main_c main_v0 (broadcastInDim S4096x5504 ![] bcast_S_S4096x5504 : (⟨S_, .i32⟩ : BufTy).Contents (Elt F) → (⟨S4096x5504, .i32⟩ : BufTy).Contents (Elt F)),
    binary main_arg1 main_v0 main_v1 (andi : (⟨S4096x5504, .i32⟩ : BufTy).Contents (Elt F) → (⟨S4096x5504, .i32⟩ : BufTy).Contents (Elt F) → (⟨S4096x5504, .i32⟩ : BufTy).Contents (Elt F)),
    nullary main_c_0 (constantI S_ 32 4#32),
    unary main_c_0 main_v2 (broadcastInDim S4096x5504 ![] bcast_S_S4096x5504 : (⟨S_, .i32⟩ : BufTy).Contents (Elt F) → (⟨S4096x5504, .i32⟩ : BufTy).Contents (Elt F)),
    binary main_arg1 main_v2 main_v3 (Host.shrsi : (⟨S4096x5504, .i32⟩ : BufTy).Contents (Elt F) → (⟨S4096x5504, .i32⟩ : BufTy).Contents (Elt F) → (⟨S4096x5504, .i32⟩ : BufTy).Contents (Elt F)),
    nullary main_c_1 (constantI S_ 32 15#32),
    unary main_c_1 main_v4 (broadcastInDim S4096x5504 ![] bcast_S_S4096x5504 : (⟨S_, .i32⟩ : BufTy).Contents (Elt F) → (⟨S4096x5504, .i32⟩ : BufTy).Contents (Elt F)),
    binary main_v3 main_v4 main_v5 (andi : (⟨S4096x5504, .i32⟩ : BufTy).Contents (Elt F) → (⟨S4096x5504, .i32⟩ : BufTy).Contents (Elt F) → (⟨S4096x5504, .i32⟩ : BufTy).Contents (Elt F)),
    unary main_v1 main_v6 (broadcastInDim S4096x5504x1 ![0, 1] bcast_S4096x5504_S4096x5504x1_0_1 : (⟨S4096x5504, .i32⟩ : BufTy).Contents (Elt F) → (⟨S4096x5504x1, .i32⟩ : BufTy).Contents (Elt F)),
    unary main_v5 main_v7 (broadcastInDim S4096x5504x1 ![0, 1] bcast_S4096x5504_S4096x5504x1_0_1 : (⟨S4096x5504, .i32⟩ : BufTy).Contents (Elt F) → (⟨S4096x5504x1, .i32⟩ : BufTy).Contents (Elt F)),
    binary main_v6 main_v7 main_v8 ((fun a b => concatenate S4096x5504x2 2 [⟨S4096x5504x1, a⟩, ⟨S4096x5504x1, b⟩] concatenates_S4096x5504x1_S4096x5504x1_S4096x5504x2_d2) : (⟨S4096x5504x1, .i32⟩ : BufTy).Contents (Elt F) → (⟨S4096x5504x1, .i32⟩ : BufTy).Contents (Elt F) → (⟨S4096x5504x2, .i32⟩ : BufTy).Contents (Elt F)),
    reshape main_v8 main_v9 rfl shapeCasts_S4096x5504x2_S4096x11008,
    unary main_v9 main_v10 (sitofp .f32 : (⟨S4096x11008, .i32⟩ : BufTy).Contents (Elt F) → (⟨S4096x11008, .f32⟩ : BufTy).Contents (Elt F)),
    nullary main_c_2 (constantI S_ 32 15#32),
    unary main_c_2 main_v11 (broadcastInDim S32x5504 ![] bcast_S_S32x5504 : (⟨S_, .i32⟩ : BufTy).Contents (Elt F) → (⟨S32x5504, .i32⟩ : BufTy).Contents (Elt F)),
    binary main_arg3 main_v11 main_v12 (andi : (⟨S32x5504, .i32⟩ : BufTy).Contents (Elt F) → (⟨S32x5504, .i32⟩ : BufTy).Contents (Elt F) → (⟨S32x5504, .i32⟩ : BufTy).Contents (Elt F)),
    nullary main_c_3 (constantI S_ 32 4#32),
    unary main_c_3 main_v13 (broadcastInDim S32x5504 ![] bcast_S_S32x5504 : (⟨S_, .i32⟩ : BufTy).Contents (Elt F) → (⟨S32x5504, .i32⟩ : BufTy).Contents (Elt F)),
    binary main_arg3 main_v13 main_v14 (Host.shrsi : (⟨S32x5504, .i32⟩ : BufTy).Contents (Elt F) → (⟨S32x5504, .i32⟩ : BufTy).Contents (Elt F) → (⟨S32x5504, .i32⟩ : BufTy).Contents (Elt F)),
    nullary main_c_4 (constantI S_ 32 15#32),
    unary main_c_4 main_v15 (broadcastInDim S32x5504 ![] bcast_S_S32x5504 : (⟨S_, .i32⟩ : BufTy).Contents (Elt F) → (⟨S32x5504, .i32⟩ : BufTy).Contents (Elt F)),
    binary main_v14 main_v15 main_v16 (andi : (⟨S32x5504, .i32⟩ : BufTy).Contents (Elt F) → (⟨S32x5504, .i32⟩ : BufTy).Contents (Elt F) → (⟨S32x5504, .i32⟩ : BufTy).Contents (Elt F)),
    unary main_v12 main_v17 (broadcastInDim S32x5504x1 ![0, 1] bcast_S32x5504_S32x5504x1_0_1 : (⟨S32x5504, .i32⟩ : BufTy).Contents (Elt F) → (⟨S32x5504x1, .i32⟩ : BufTy).Contents (Elt F)),
    unary main_v16 main_v18 (broadcastInDim S32x5504x1 ![0, 1] bcast_S32x5504_S32x5504x1_0_1 : (⟨S32x5504, .i32⟩ : BufTy).Contents (Elt F) → (⟨S32x5504x1, .i32⟩ : BufTy).Contents (Elt F)),
    binary main_v17 main_v18 main_v19 ((fun a b => concatenate S32x5504x2 2 [⟨S32x5504x1, a⟩, ⟨S32x5504x1, b⟩] concatenates_S32x5504x1_S32x5504x1_S32x5504x2_d2) : (⟨S32x5504x1, .i32⟩ : BufTy).Contents (Elt F) → (⟨S32x5504x1, .i32⟩ : BufTy).Contents (Elt F) → (⟨S32x5504x2, .i32⟩ : BufTy).Contents (Elt F)),
    reshape main_v19 main_v20 rfl shapeCasts_S32x5504x2_S32x11008,
    unary main_v20 main_v21 (sitofp .f32 : (⟨S32x11008, .i32⟩ : BufTy).Contents (Elt F) → (⟨S32x11008, .f32⟩ : BufTy).Contents (Elt F)),
    nullary main_v22 (iotaInDim S4096 32 0),
    nullary main_c_5 (constantI S_ 32 128#32),
    TRef.unary (.of main_c_5) main_call0.v0 id,
    TRef.unary main_call0.v0 main_call0.v1 (broadcastInDim S4096 ![] bcast_S_S4096),
    TRef.binary (.of main_v22) main_call0.v1 main_call0.v2 Host.divsi,
    TRef.unary (.of main_v22) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v22) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_6 (constantI S_ 32 0#32),
    unary main_c_6 main_v24 (broadcastInDim S4096 ![] bcast_S_S4096 : (⟨S_, .i32⟩ : BufTy).Contents (Elt F) → (⟨S4096, .i32⟩ : BufTy).Contents (Elt F)),
    binary main_v23 main_v24 main_v25 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32#32),
    unary main_c_7 main_v26 (broadcastInDim S4096 ![] bcast_S_S4096 : (⟨S_, .i32⟩ : BufTy).Contents (Elt F) → (⟨S4096, .i32⟩ : BufTy).Contents (Elt F)),
    binary main_v23 main_v26 main_v27 (addi : (⟨S4096, .i32⟩ : BufTy).Contents (Elt F) → (⟨S4096, .i32⟩ : BufTy).Contents (Elt F) → (⟨S4096, .i32⟩ : BufTy).Contents (Elt F)),
    ternary main_v25 main_v27 main_v23 main_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v28 main_v29 (broadcastInDim S4096x1 ![0] bcast_S4096_S4096x1_0 : (⟨S4096, .i32⟩ : BufTy).Contents (Elt F) → (⟨S4096x1, .i32⟩ : BufTy).Contents (Elt F)),
    binary main_v21 main_v29 main_v30 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    binary main_v10 main_v30 main_v31 (subf : (⟨S4096x11008, .f32⟩ : BufTy).Contents (Elt F) → (⟨S4096x11008, .f32⟩ : BufTy).Contents (Elt F) → (⟨S4096x11008, .f32⟩ : BufTy).Contents (Elt F)),
    nullary main_c_8 (constantI S_ 32 0#32),
    unary main_c_8 main_v32 (broadcastInDim S4096 ![] bcast_S_S4096 : (⟨S_, .i32⟩ : BufTy).Contents (Elt F) → (⟨S4096, .i32⟩ : BufTy).Contents (Elt F)),
    binary main_v23 main_v32 main_v33 (cmpi .slt : (⟨S4096, .i32⟩ : BufTy).Contents (Elt F) → (⟨S4096, .i32⟩ : BufTy).Contents (Elt F) → (⟨S4096, .i1⟩ : BufTy).Contents (Elt F)),
    nullary main_c_9 (constantI S_ 32 32#32),
    unary main_c_9 main_v34 (broadcastInDim S4096 ![] bcast_S_S4096 : (⟨S_, .i32⟩ : BufTy).Contents (Elt F) → (⟨S4096, .i32⟩ : BufTy).Contents (Elt F)),
    binary main_v23 main_v34 main_v35 (addi : (⟨S4096, .i32⟩ : BufTy).Contents (Elt F) → (⟨S4096, .i32⟩ : BufTy).Contents (Elt F) → (⟨S4096, .i32⟩ : BufTy).Contents (Elt F)),
    ternary main_v33 main_v35 main_v23 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v36 main_v37 (broadcastInDim S4096x1 ![0] bcast_S4096_S4096x1_0 : (⟨S4096, .i32⟩ : BufTy).Contents (Elt F) → (⟨S4096x1, .i32⟩ : BufTy).Contents (Elt F)),
    binary main_arg2 main_v37 main_v38 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    binary main_v31 main_v38 main_v39 (mulf : (⟨S4096x11008, .f32⟩ : BufTy).Contents (Elt F) → (⟨S4096x11008, .f32⟩ : BufTy).Contents (Elt F) → (⟨S4096x11008, .f32⟩ : BufTy).Contents (Elt F)),
    binary main_arg0 main_v39 main_v40 ((fun l r => Host.dotGeneral dot_S32x1x4096_S4096x11008_S32x1x11008_2_0_01_1_n_n none l r) : (⟨S32x1x4096, .f32⟩ : BufTy).Contents (Elt F) → (⟨S4096x11008, .f32⟩ : BufTy).Contents (Elt F) → (⟨S32x1x11008, .f32⟩ : BufTy).Contents (Elt F)),
    unary main_arg4 main_v41 (broadcastInDim S1x1x11008 ![2] bcast_S11008_S1x1x11008_2 : (⟨S11008, .f32⟩ : BufTy).Contents (Elt F) → (⟨S1x1x11008, .f32⟩ : BufTy).Contents (Elt F)),
    unary main_v41 main_v42 (broadcastInDim S32x1x11008 ![0, 1, 2] bcast_S1x1x11008_S32x1x11008_0_1_2 : (⟨S1x1x11008, .f32⟩ : BufTy).Contents (Elt F) → (⟨S32x1x11008, .f32⟩ : BufTy).Contents (Elt F)),
    binary main_v40 main_v42 main_v43 (addf : (⟨S32x1x11008, .f32⟩ : BufTy).Contents (Elt F) → (⟨S32x1x11008, .f32⟩ : BufTy).Contents (Elt F) → (⟨S32x1x11008, .f32⟩ : BufTy).Contents (Elt F)) ]

set_option maxRecDepth 8192 in
/-- @main is that straight line: sequencing grafts the rest of the program onto each operation's continuation, so with
    the two functions' bodies in place of their calls both sides are the same tree of operation steps. -/
theorem main_eq (c : Dev nD) : main (F := F) c = seq ops := rfl

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., binary_bufs_sub ..,
    reshape_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., unary_bufs_sub ..,
    unary_bufs_sub .., binary_bufs_sub .., reshape_bufs_sub .., unary_bufs_sub .., nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., binary_bufs_sub ..⟩

/-! ## The stretches -/

/-- A single written buffer lies among a list that names it. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The weights unpacked: the low nibble of each packed word and the next one, side by side on a new last axis, that axis merged into the columns, converted to floats. -/
abbrev S1 : List (HloOp τ sig (Elt F)) :=
  [ nullary main_c (constantI S_ 32 15#32),
    unary main_c main_v0 (broadcastInDim S4096x5504 ![] bcast_S_S4096x5504 : (⟨S_, .i32⟩ : BufTy).Contents (Elt F) → (⟨S4096x5504, .i32⟩ : BufTy).Contents (Elt F)),
    binary main_arg1 main_v0 main_v1 (andi : (⟨S4096x5504, .i32⟩ : BufTy).Contents (Elt F) → (⟨S4096x5504, .i32⟩ : BufTy).Contents (Elt F) → (⟨S4096x5504, .i32⟩ : BufTy).Contents (Elt F)),
    nullary main_c_0 (constantI S_ 32 4#32),
    unary main_c_0 main_v2 (broadcastInDim S4096x5504 ![] bcast_S_S4096x5504 : (⟨S_, .i32⟩ : BufTy).Contents (Elt F) → (⟨S4096x5504, .i32⟩ : BufTy).Contents (Elt F)),
    binary main_arg1 main_v2 main_v3 (Host.shrsi : (⟨S4096x5504, .i32⟩ : BufTy).Contents (Elt F) → (⟨S4096x5504, .i32⟩ : BufTy).Contents (Elt F) → (⟨S4096x5504, .i32⟩ : BufTy).Contents (Elt F)),
    nullary main_c_1 (constantI S_ 32 15#32),
    unary main_c_1 main_v4 (broadcastInDim S4096x5504 ![] bcast_S_S4096x5504 : (⟨S_, .i32⟩ : BufTy).Contents (Elt F) → (⟨S4096x5504, .i32⟩ : BufTy).Contents (Elt F)),
    binary main_v3 main_v4 main_v5 (andi : (⟨S4096x5504, .i32⟩ : BufTy).Contents (Elt F) → (⟨S4096x5504, .i32⟩ : BufTy).Contents (Elt F) → (⟨S4096x5504, .i32⟩ : BufTy).Contents (Elt F)),
    unary main_v1 main_v6 (broadcastInDim S4096x5504x1 ![0, 1] bcast_S4096x5504_S4096x5504x1_0_1 : (⟨S4096x5504, .i32⟩ : BufTy).Contents (Elt F) → (⟨S4096x5504x1, .i32⟩ : BufTy).Contents (Elt F)),
    unary main_v5 main_v7 (broadcastInDim S4096x5504x1 ![0, 1] bcast_S4096x5504_S4096x5504x1_0_1 : (⟨S4096x5504, .i32⟩ : BufTy).Contents (Elt F) → (⟨S4096x5504x1, .i32⟩ : BufTy).Contents (Elt F)),
    binary main_v6 main_v7 main_v8 ((fun a b => concatenate S4096x5504x2 2 [⟨S4096x5504x1, a⟩, ⟨S4096x5504x1, b⟩] concatenates_S4096x5504x1_S4096x5504x1_S4096x5504x2_d2) : (⟨S4096x5504x1, .i32⟩ : BufTy).Contents (Elt F) → (⟨S4096x5504x1, .i32⟩ : BufTy).Contents (Elt F) → (⟨S4096x5504x2, .i32⟩ : BufTy).Contents (Elt F)),
    reshape main_v8 main_v9 rfl shapeCasts_S4096x5504x2_S4096x11008,
    unary main_v9 main_v10 (sitofp .f32 : (⟨S4096x11008, .i32⟩ : BufTy).Contents (Elt F) → (⟨S4096x11008, .f32⟩ : BufTy).Contents (Elt F)) ]

/-- The buffers stretch 1 writes. -/
abbrev S1w : List (Ref sig .tc) := [main_c, main_v0, main_v1, main_c_0, main_v2, main_v3, main_c_1, main_v4, main_v5, main_v6, main_v7, main_v8, main_v9, main_v10]

/-- Stretch 1 keeps every buffer it does not write. -/
theorem S1_keep (W : Valuation τ sig (Elt F)) (r : Ref sig .tc) (hr : r ∉ S1w := by decide) :
    after S1 W (Proc.devRef .tc r) = W (Proc.devRef .tc r) :=
  after_of_writes_sub S1 W
    ⟨wsub (by decide), wsub (by decide), wsub (by decide), wsub (by decide), wsub (by decide), wsub (by decide),
      wsub (by decide), wsub (by decide), wsub (by decide), wsub (by decide), wsub (by decide), wsub (by decide),
      wsub (by decide), wsub (by decide)⟩ hr

/-- The zero points unpacked, in the same way. -/
abbrev S2 : List (HloOp τ sig (Elt F)) :=
  [ nullary main_c_2 (constantI S_ 32 15#32),
    unary main_c_2 main_v11 (broadcastInDim S32x5504 ![] bcast_S_S32x5504 : (⟨S_, .i32⟩ : BufTy).Contents (Elt F) → (⟨S32x5504, .i32⟩ : BufTy).Contents (Elt F)),
    binary main_arg3 main_v11 main_v12 (andi : (⟨S32x5504, .i32⟩ : BufTy).Contents (Elt F) → (⟨S32x5504, .i32⟩ : BufTy).Contents (Elt F) → (⟨S32x5504, .i32⟩ : BufTy).Contents (Elt F)),
    nullary main_c_3 (constantI S_ 32 4#32),
    unary main_c_3 main_v13 (broadcastInDim S32x5504 ![] bcast_S_S32x5504 : (⟨S_, .i32⟩ : BufTy).Contents (Elt F) → (⟨S32x5504, .i32⟩ : BufTy).Contents (Elt F)),
    binary main_arg3 main_v13 main_v14 (Host.shrsi : (⟨S32x5504, .i32⟩ : BufTy).Contents (Elt F) → (⟨S32x5504, .i32⟩ : BufTy).Contents (Elt F) → (⟨S32x5504, .i32⟩ : BufTy).Contents (Elt F)),
    nullary main_c_4 (constantI S_ 32 15#32),
    unary main_c_4 main_v15 (broadcastInDim S32x5504 ![] bcast_S_S32x5504 : (⟨S_, .i32⟩ : BufTy).Contents (Elt F) → (⟨S32x5504, .i32⟩ : BufTy).Contents (Elt F)),
    binary main_v14 main_v15 main_v16 (andi : (⟨S32x5504, .i32⟩ : BufTy).Contents (Elt F) → (⟨S32x5504, .i32⟩ : BufTy).Contents (Elt F) → (⟨S32x5504, .i32⟩ : BufTy).Contents (Elt F)),
    unary main_v12 main_v17 (broadcastInDim S32x5504x1 ![0, 1] bcast_S32x5504_S32x5504x1_0_1 : (⟨S32x5504, .i32⟩ : BufTy).Contents (Elt F) → (⟨S32x5504x1, .i32⟩ : BufTy).Contents (Elt F)),
    unary main_v16 main_v18 (broadcastInDim S32x5504x1 ![0, 1] bcast_S32x5504_S32x5504x1_0_1 : (⟨S32x5504, .i32⟩ : BufTy).Contents (Elt F) → (⟨S32x5504x1, .i32⟩ : BufTy).Contents (Elt F)),
    binary main_v17 main_v18 main_v19 ((fun a b => concatenate S32x5504x2 2 [⟨S32x5504x1, a⟩, ⟨S32x5504x1, b⟩] concatenates_S32x5504x1_S32x5504x1_S32x5504x2_d2) : (⟨S32x5504x1, .i32⟩ : BufTy).Contents (Elt F) → (⟨S32x5504x1, .i32⟩ : BufTy).Contents (Elt F) → (⟨S32x5504x2, .i32⟩ : BufTy).Contents (Elt F)),
    reshape main_v19 main_v20 rfl shapeCasts_S32x5504x2_S32x11008,
    unary main_v20 main_v21 (sitofp .f32 : (⟨S32x11008, .i32⟩ : BufTy).Contents (Elt F) → (⟨S32x11008, .f32⟩ : BufTy).Contents (Elt F)) ]

/-- The buffers stretch 2 writes. -/
abbrev S2w : List (Ref sig .tc) := [main_c_2, main_v11, main_v12, main_c_3, main_v13, main_v14, main_c_4, main_v15, main_v16, main_v17, main_v18, main_v19, main_v20, main_v21]

/-- Stretch 2 keeps every buffer it does not write. -/
theorem S2_keep (W : Valuation τ sig (Elt F)) (r : Ref sig .tc) (hr : r ∉ S2w := by decide) :
    after S2 W (Proc.devRef .tc r) = W (Proc.devRef .tc r) :=
  after_of_writes_sub S2 W
    ⟨wsub (by decide), wsub (by decide), wsub (by decide), wsub (by decide), wsub (by decide), wsub (by decide),
      wsub (by decide), wsub (by decide), wsub (by decide), wsub (by decide), wsub (by decide), wsub (by decide),
      wsub (by decide), wsub (by decide)⟩ hr

/-- The channel counter, the constant 128, and the floored division of the one by the other: the callee's sixteen operations on the call's buffers, then the selection its own callee makes. -/
abbrev S3 : List (HloOp τ sig (Elt F)) :=
  [ nullary main_v22 (iotaInDim S4096 32 0),
    nullary main_c_5 (constantI S_ 32 128#32),
    TRef.unary (.of main_c_5) main_call0.v0 id,
    TRef.unary main_call0.v0 main_call0.v1 (broadcastInDim S4096 ![] bcast_S_S4096),
    TRef.binary (.of main_v22) main_call0.v1 main_call0.v2 Host.divsi,
    TRef.unary (.of main_v22) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v22) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select ]

/-- The buffers stretch 3 writes. -/
abbrev S3w : List (Ref sig .tc) := [main_v22, main_c_5, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v23]

/-- Stretch 3 keeps every buffer it does not write. -/
theorem S3_keep (W : Valuation τ sig (Elt F)) (r : Ref sig .tc) (hr : r ∉ S3w := by decide) :
    after S3 W (Proc.devRef .tc r) = W (Proc.devRef .tc r) :=
  after_of_writes_sub S3 W
    ⟨wsub (by decide), wsub (by decide), wsub (by decide), wsub (by decide), wsub (by decide), wsub (by decide),
      wsub (by decide), wsub (by decide), wsub (by decide), wsub (by decide), wsub (by decide), wsub (by decide),
      wsub (by decide), wsub (by decide), wsub (by decide), wsub (by decide), wsub (by decide), wsub (by decide),
      wsub (by decide)⟩ hr

/-- The group index of the first gather: the quotient, raised by 32 where it is negative. -/
abbrev S4 : List (HloOp τ sig (Elt F)) :=
  [ nullary main_c_6 (constantI S_ 32 0#32),
    unary main_c_6 main_v24 (broadcastInDim S4096 ![] bcast_S_S4096 : (⟨S_, .i32⟩ : BufTy).Contents (Elt F) → (⟨S4096, .i32⟩ : BufTy).Contents (Elt F)),
    binary main_v23 main_v24 main_v25 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32#32),
    unary main_c_7 main_v26 (broadcastInDim S4096 ![] bcast_S_S4096 : (⟨S_, .i32⟩ : BufTy).Contents (Elt F) → (⟨S4096, .i32⟩ : BufTy).Contents (Elt F)),
    binary main_v23 main_v26 main_v27 (addi : (⟨S4096, .i32⟩ : BufTy).Contents (Elt F) → (⟨S4096, .i32⟩ : BufTy).Contents (Elt F) → (⟨S4096, .i32⟩ : BufTy).Contents (Elt F)),
    ternary main_v25 main_v27 main_v23 main_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

/-- The buffers stretch 4 writes. -/
abbrev S4w : List (Ref sig .tc) := [main_c_6, main_v24, main_v25, main_c_7, main_v26, main_v27, main_v28]

/-- Stretch 4 keeps every buffer it does not write. -/
theorem S4_keep (W : Valuation τ sig (Elt F)) (r : Ref sig .tc) (hr : r ∉ S4w := by decide) :
    after S4 W (Proc.devRef .tc r) = W (Proc.devRef .tc r) :=
  after_of_writes_sub S4 W
    ⟨wsub (by decide), wsub (by decide), wsub (by decide), wsub (by decide), wsub (by decide), wsub (by decide),
      wsub (by decide)⟩ hr

/-- The zero points gathered by group and taken from the weights. -/
abbrev S5 : List (HloOp τ sig (Elt F)) :=
  [ unary main_v28 main_v29 (broadcastInDim S4096x1 ![0] bcast_S4096_S4096x1_0 : (⟨S4096, .i32⟩ : BufTy).Contents (Elt F) → (⟨S4096x1, .i32⟩ : BufTy).Contents (Elt F)),
    binary main_v21 main_v29 main_v30 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    binary main_v10 main_v30 main_v31 (subf : (⟨S4096x11008, .f32⟩ : BufTy).Contents (Elt F) → (⟨S4096x11008, .f32⟩ : BufTy).Contents (Elt F) → (⟨S4096x11008, .f32⟩ : BufTy).Contents (Elt F)) ]

/-- The buffers stretch 5 writes. -/
abbrev S5w : List (Ref sig .tc) := [main_v29, main_v30, main_v31]

/-- Stretch 5 keeps every buffer it does not write. -/
theorem S5_keep (W : Valuation τ sig (Elt F)) (r : Ref sig .tc) (hr : r ∉ S5w := by decide) :
    after S5 W (Proc.devRef .tc r) = W (Proc.devRef .tc r) :=
  after_of_writes_sub S5 W
    ⟨wsub (by decide), wsub (by decide), wsub (by decide)⟩ hr

/-- The group index of the second gather, computed again from the quotient. -/
abbrev S6 : List (HloOp τ sig (Elt F)) :=
  [ nullary main_c_8 (constantI S_ 32 0#32),
    unary main_c_8 main_v32 (broadcastInDim S4096 ![] bcast_S_S4096 : (⟨S_, .i32⟩ : BufTy).Contents (Elt F) → (⟨S4096, .i32⟩ : BufTy).Contents (Elt F)),
    binary main_v23 main_v32 main_v33 (cmpi .slt : (⟨S4096, .i32⟩ : BufTy).Contents (Elt F) → (⟨S4096, .i32⟩ : BufTy).Contents (Elt F) → (⟨S4096, .i1⟩ : BufTy).Contents (Elt F)),
    nullary main_c_9 (constantI S_ 32 32#32),
    unary main_c_9 main_v34 (broadcastInDim S4096 ![] bcast_S_S4096 : (⟨S_, .i32⟩ : BufTy).Contents (Elt F) → (⟨S4096, .i32⟩ : BufTy).Contents (Elt F)),
    binary main_v23 main_v34 main_v35 (addi : (⟨S4096, .i32⟩ : BufTy).Contents (Elt F) → (⟨S4096, .i32⟩ : BufTy).Contents (Elt F) → (⟨S4096, .i32⟩ : BufTy).Contents (Elt F)),
    ternary main_v33 main_v35 main_v23 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

/-- The buffers stretch 6 writes. -/
abbrev S6w : List (Ref sig .tc) := [main_c_8, main_v32, main_v33, main_c_9, main_v34, main_v35, main_v36]

/-- Stretch 6 keeps every buffer it does not write. -/
theorem S6_keep (W : Valuation τ sig (Elt F)) (r : Ref sig .tc) (hr : r ∉ S6w := by decide) :
    after S6 W (Proc.devRef .tc r) = W (Proc.devRef .tc r) :=
  after_of_writes_sub S6 W
    ⟨wsub (by decide), wsub (by decide), wsub (by decide), wsub (by decide), wsub (by decide), wsub (by decide),
      wsub (by decide)⟩ hr

/-- The scales gathered by group and multiplied in. -/
abbrev S7 : List (HloOp τ sig (Elt F)) :=
  [ unary main_v36 main_v37 (broadcastInDim S4096x1 ![0] bcast_S4096_S4096x1_0 : (⟨S4096, .i32⟩ : BufTy).Contents (Elt F) → (⟨S4096x1, .i32⟩ : BufTy).Contents (Elt F)),
    binary main_arg2 main_v37 main_v38 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    binary main_v31 main_v38 main_v39 (mulf : (⟨S4096x11008, .f32⟩ : BufTy).Contents (Elt F) → (⟨S4096x11008, .f32⟩ : BufTy).Contents (Elt F) → (⟨S4096x11008, .f32⟩ : BufTy).Contents (Elt F)) ]

/-- The buffers stretch 7 writes. -/
abbrev S7w : List (Ref sig .tc) := [main_v37, main_v38, main_v39]

/-- Stretch 7 keeps every buffer it does not write. -/
theorem S7_keep (W : Valuation τ sig (Elt F)) (r : Ref sig .tc) (hr : r ∉ S7w := by decide) :
    after S7 W (Proc.devRef .tc r) = W (Proc.devRef .tc r) :=
  after_of_writes_sub S7 W
    ⟨wsub (by decide), wsub (by decide), wsub (by decide)⟩ hr

/-- The contraction of the input with the weights over the channels, and the bias added on every row. -/
abbrev S8 : List (HloOp τ sig (Elt F)) :=
  [ binary main_arg0 main_v39 main_v40 ((fun l r => Host.dotGeneral dot_S32x1x4096_S4096x11008_S32x1x11008_2_0_01_1_n_n none l r) : (⟨S32x1x4096, .f32⟩ : BufTy).Contents (Elt F) → (⟨S4096x11008, .f32⟩ : BufTy).Contents (Elt F) → (⟨S32x1x11008, .f32⟩ : BufTy).Contents (Elt F)),
    unary main_arg4 main_v41 (broadcastInDim S1x1x11008 ![2] bcast_S11008_S1x1x11008_2 : (⟨S11008, .f32⟩ : BufTy).Contents (Elt F) → (⟨S1x1x11008, .f32⟩ : BufTy).Contents (Elt F)),
    unary main_v41 main_v42 (broadcastInDim S32x1x11008 ![0, 1, 2] bcast_S1x1x11008_S32x1x11008_0_1_2 : (⟨S1x1x11008, .f32⟩ : BufTy).Contents (Elt F) → (⟨S32x1x11008, .f32⟩ : BufTy).Contents (Elt F)),
    binary main_v40 main_v42 main_v43 (addf : (⟨S32x1x11008, .f32⟩ : BufTy).Contents (Elt F) → (⟨S32x1x11008, .f32⟩ : BufTy).Contents (Elt F) → (⟨S32x1x11008, .f32⟩ : BufTy).Contents (Elt F)) ]

/-- The buffers stretch 8 writes. -/
abbrev S8w : List (Ref sig .tc) := [main_v40, main_v41, main_v42, main_v43]

/-- Stretch 8 keeps every buffer it does not write. -/
theorem S8_keep (W : Valuation τ sig (Elt F)) (r : Ref sig .tc) (hr : r ∉ S8w := by decide) :
    after S8 W (Proc.devRef .tc r) = W (Proc.devRef .tc r) :=
  after_of_writes_sub S8 W
    ⟨wsub (by decide), wsub (by decide), wsub (by decide), wsub (by decide)⟩ hr

/-! ## What each stretch computes -/

/-- After stretch 1 the buffer of the converted weights holds the unpacking of the packed weights read at the start. -/
theorem S1_out (W : Valuation τ sig (Elt F)) :
    after S1 W (Proc.devRef .tc main_v10) = RefTerm.qf (W (Proc.devRef .tc main_arg1)) := by
  unfold RefTerm.qf
  after_results
  rfl

/-- After stretch 2 the buffer of the converted zero points holds the unpacking of the packed zero points. -/
theorem S2_out (W : Valuation τ sig (Elt F)) :
    after S2 W (Proc.devRef .tc main_v21) = RefTerm.zf (W (Proc.devRef .tc main_arg3)) := by
  unfold RefTerm.zf
  after_results
  rfl

/-- After stretch 3 the call's result buffer holds the floored quotient of the channel counter by 128, whatever the
    buffers held before: the stretch reads nothing it has not written (a value written through a typed reference and
    read back through it is the value). -/
theorem S3_out (W : Valuation τ sig (Elt F)) :
    after S3 W (Proc.devRef .tc main_v23) = RefTerm.gidxRaw := by
  unfold RefTerm.gidxRaw
  after_results_simp
  rfl

/-- After stretch 4: the quotient, raised by 32 where negative. -/
theorem S4_out (W : Valuation τ sig (Elt F)) :
    after S4 W (Proc.devRef .tc main_v28)
      = select (cmpi .slt (W (Proc.devRef .tc main_v23)) (broadcastInDim S4096 ![] bcast_S_S4096 (constantI S_ 32 0#32)))
        (addi (W (Proc.devRef .tc main_v23)) (broadcastInDim S4096 ![] bcast_S_S4096 (constantI S_ 32 32#32)))
        (W (Proc.devRef .tc main_v23)) := by
  after_results

/-- After stretch 5: the weights less the zero points gathered by the first index. -/
theorem S5_out (W : Valuation τ sig (Elt F)) :
    after S5 W (Proc.devRef .tc main_v31)
      = subf (W (Proc.devRef .tc main_v10))
          (Host.gather gather_S32x11008_S4096x1_S4096x11008_1_0_n_n_0_1_111008 (W (Proc.devRef .tc main_v21))
            (broadcastInDim S4096x1 ![0] bcast_S4096_S4096x1_0 (W (Proc.devRef .tc main_v28)))) := by
  after_results

/-- After stretch 6: the quotient normalised again, into the second index's buffer. -/
theorem S6_out (W : Valuation τ sig (Elt F)) :
    after S6 W (Proc.devRef .tc main_v36)
      = select (cmpi .slt (W (Proc.devRef .tc main_v23)) (broadcastInDim S4096 ![] bcast_S_S4096 (constantI S_ 32 0#32)))
        (addi (W (Proc.devRef .tc main_v23)) (broadcastInDim S4096 ![] bcast_S_S4096 (constantI S_ 32 32#32)))
        (W (Proc.devRef .tc main_v23)) := by
  after_results

/-- After stretch 7: the centred weights times the scales gathered by the second index. -/
theorem S7_out (W : Valuation τ sig (Elt F)) :
    after S7 W (Proc.devRef .tc main_v39)
      = mulf (W (Proc.devRef .tc main_v31))
          (Host.gather gather_S32x11008_S4096x1_S4096x11008_1_0_n_n_0_1_111008 (W (Proc.devRef .tc main_arg2))
            (broadcastInDim S4096x1 ![0] bcast_S4096_S4096x1_0 (W (Proc.devRef .tc main_v36)))) := by
  after_results

/-- After stretch 8: the contraction of the input with the weights, plus the bias broadcast over the rows. -/
theorem S8_out (W : Valuation τ sig (Elt F)) :
    after S8 W (Proc.devRef .tc main_v43)
      = addf (Host.dotGeneral dot_S32x1x4096_S4096x11008_S32x1x11008_2_0_01_1_n_n none (W (Proc.devRef .tc main_arg0)) (W (Proc.devRef .tc main_v39)))
          (broadcastInDim S32x1x11008 ![0, 1, 2] bcast_S1x1x11008_S32x1x11008_0_1_2
            (broadcastInDim S1x1x11008 ![2] bcast_S11008_S1x1x11008_2 (W (Proc.devRef .tc main_arg4)))) := by
  after_results

/-! ## The whole line -/

/-- The fold over the whole list is the stretches' folds one after the other. -/
theorem ops_split (V : Valuation τ sig (Elt F)) :
    after ops V = after S8 (after S7 (after S6 (after S5 (after S4 (after S3 (after S2 (after S1 V))))))) := by
  simp only [after_cons, after_nil]

/-- The result buffer after the whole line: from the last stretch backwards, each value read is the stretch's own result
    or a buffer the stretch keeps, down to the argument arrays at the start; what is left is the reference term with its
    named parts written out. -/
theorem out_eq (V : Valuation τ sig (Elt F)) :
    after ops V (Proc.devRef .tc main_v43)
      = RefTerm.refTerm (V (Proc.devRef .tc main_arg0)) (V (Proc.devRef .tc main_arg1)) (V (Proc.devRef .tc main_arg2))
          (V (Proc.devRef .tc main_arg3)) (V (Proc.devRef .tc main_arg4)) := by
  rw [ops_split, S8_out]
  rw [S7_out, S7_keep _ main_arg0, S7_keep _ main_arg4]
  rw [S6_out, S6_keep _ main_v31, S6_keep _ main_arg2, S6_keep _ main_arg0, S6_keep _ main_arg4]
  rw [S5_out, S5_keep _ main_v23, S5_keep _ main_arg2, S5_keep _ main_arg0, S5_keep _ main_arg4]
  rw [S4_out, S4_keep _ main_v10, S4_keep _ main_v21, S4_keep _ main_v23, S4_keep _ main_arg2, S4_keep _ main_arg0,
    S4_keep _ main_arg4]
  rw [S3_out, S3_keep _ main_v10, S3_keep _ main_v21, S3_keep _ main_arg2, S3_keep _ main_arg0, S3_keep _ main_arg4]
  rw [S2_out, S2_keep _ main_v10, S2_keep _ main_arg2, S2_keep _ main_arg0, S2_keep _ main_arg4]
  rw [S1_out, S1_keep _ main_arg3, S1_keep _ main_arg2, S1_keep _ main_arg0, S1_keep _ main_arg4]
  rfl

/-- A buffer no stretch writes (an argument array) holds at the end what it held at the start. -/
theorem arg_eq (V : Valuation τ sig (Elt F)) (r : Ref sig .tc)
    (h1 : r ∉ S1w := by decide) (h2 : r ∉ S2w := by decide) (h3 : r ∉ S3w := by decide) (h4 : r ∉ S4w := by decide)
    (h5 : r ∉ S5w := by decide) (h6 : r ∉ S6w := by decide) (h7 : r ∉ S7w := by decide) (h8 : r ∉ S8w := by decide) :
    after ops V (Proc.devRef .tc r) = V (Proc.devRef .tc r) := by
  rw [ops_split, S8_keep _ r h8, S7_keep _ r h7, S6_keep _ r h6, S5_keep _ r h5, S4_keep _ r h4, S3_keep _ r h3,
    S2_keep _ r h2, S1_keep _ r h1]

/-! ## The run -/

/-- For any float values, from any memory with zero counters: every weakly fair execution of @main terminates with the
    result at the reference term of the argument arrays' launch contents, and the argument arrays unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = RefTerm.refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v43).trans (out_eq _),
      (h c main_arg0).trans (arg_eq _ main_arg0),
      (h c main_arg1).trans (arg_eq _ main_arg1),
      (h c main_arg2).trans (arg_eq _ main_arg2),
      (h c main_arg3).trans (arg_eq _ main_arg3),
      (h c main_arg4).trans (arg_eq _ main_arg4)⟩)
    (run_seq scopedRefs_eq scopedSems_eq defs main (fun _ => ops) main_eq (fun _ => ops_sub) m ρ)

/-- The same at the ideal instance, in the shape the equivalence claim states it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = RefTerm.refTerm (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_gen m ρ

end Cert.ReferenceIdeal.RefRun

end
-- ==== Proof.Spec.lean ====
/-
  The mathematics both programs compute, stated once over the five argument arrays and free of either program:
  a grouped 4-bit dequantisation followed by a contraction over the 4096 input channels.

  A packed word holds two 4-bit values: its low nibble belongs to the even output column, its high nibble to the odd
  one. Output column n = 2·J + h (h the parity) of batch row b is

      Σ_k  x[b, 0, k] · ((nib h qw[k, J]) − (nib h qz[k / 128, J])) · sc[k / 128, n]   +   bias[n],

  the nibbles read as signed words converted to reals. The reference contracts all 4096 channels at once
  ("outAt"); the kernel contracts one group of 128 channels per grid step and adds the groups into an accumulator that
  starts at zero ("kOutAt"). The two agree because addition of extended reals is associative and commutative
  ("kOut_eq_out"): no distributivity and hence no finiteness of the inputs is used.
-/
import Idealize.ShloMosaic.PureOps.Ideal
import Idealize.ShloMosaic.Lib.ValueIdx

noncomputable section

open scoped BigOperators

namespace Cert.Spec

open Idealize.ShloMosaic Idealize.ShloMosaic.ValueIdx

/-- The five argument arrays' shapes and the result's. -/
abbrev SX : Shape := ⟨3, ![32, 1, 4096]⟩
abbrev SQW : Shape := ⟨2, ![4096, 5504]⟩
abbrev SSC : Shape := ⟨2, ![32, 11008]⟩
abbrev SQZ : Shape := ⟨2, ![32, 5504]⟩
abbrev SB : Shape := ⟨1, ![11008]⟩
abbrev SOUT : Shape := ⟨3, ![32, 1, 11008]⟩

/-- Nibble "h" of a packed word: the low four bits (h = 0), or the next four (h = 1), as a word. -/
def nib (h : Fin 2) (q : BitVec 32) : BitVec 32 :=
  if h.val = 0 then q &&& 15#32 else (q.sshiftRight' 4#32) &&& 15#32

/-- A word read as a signed integer, as an extended real. -/
def toR (q : BitVec 32) : EReal := ((q.toInt : ℝ) : EReal)

/-- One dequantised weight: (value − zero point) · scale. -/
def wq (h : Fin 2) (q z : BitVec 32) (s : EReal) : EReal := (toR (nib h q) - toR (nib h z)) * s

/-- The group (of 128 input channels) of channel "k". -/
def grpOf (k : Fin 4096) : Fin 32 := ⟨k.val / 128, by have := k.isLt; omega⟩

/-- The output column of packed column "J" and parity "h". -/
def colOf (J : Fin 5504) (h : Fin 2) : Fin 11008 := ⟨2 * J.val + h.val, by have := J.isLt; have := h.isLt; omega⟩

/-- Channel k's term of output (b, 2J + h). -/
def term (x : SX.Idx → EReal) (qw : SQW.Idx → BitVec 32) (sc : SSC.Idx → EReal) (qz : SQZ.Idx → BitVec 32)
    (b : Fin 32) (J : Fin 5504) (h : Fin 2) (k : Fin 4096) : EReal :=
  x (ix3 b (0 : Fin 1) k) * wq h (qw (ix2 k J)) (qz (ix2 (grpOf k) J)) (sc (ix2 (grpOf k) (colOf J h)))

/-- The reference's value at batch row b, packed column J, parity h: all channels contracted at once, plus the bias. -/
def outAt (x : SX.Idx → EReal) (qw : SQW.Idx → BitVec 32) (sc : SSC.Idx → EReal) (qz : SQZ.Idx → BitVec 32)
    (bias : SB.Idx → EReal) (b : Fin 32) (J : Fin 5504) (h : Fin 2) : EReal :=
  (∑ k : Fin 4096, term x qw sc qz b J h k) + bias (ix1 (colOf J h))

/-- Channel kk of group g. -/
def chan (g : Fin 32) (kk : Fin 128) : Fin 4096 := ⟨128 * g.val + kk.val, by have := g.isLt; have := kk.isLt; omega⟩

/-- One group's partial contraction: what one grid step's matrix product contributes. -/
def grp (x : SX.Idx → EReal) (qw : SQW.Idx → BitVec 32) (sc : SSC.Idx → EReal) (qz : SQZ.Idx → BitVec 32)
    (b : Fin 32) (J : Fin 5504) (h : Fin 2) (g : Fin 32) : EReal :=
  ∑ kk : Fin 128, term x qw sc qz b J h (chan g kk)

/-- The kernel's accumulator after the first "n" groups: zero, then one group added per step. -/
def accK (x : SX.Idx → EReal) (qw : SQW.Idx → BitVec 32) (sc : SSC.Idx → EReal) (qz : SQZ.Idx → BitVec 32)
    (b : Fin 32) (J : Fin 5504) (h : Fin 2) : ℕ → EReal
  | 0 => 0
  | n + 1 => accK x qw sc qz b J h n + (if hn : n < 32 then grp x qw sc qz b J h ⟨n, hn⟩ else 0)

/-- The kernel's value: the accumulator after all 32 groups, plus the bias. -/
def kOutAt (x : SX.Idx → EReal) (qw : SQW.Idx → BitVec 32) (sc : SSC.Idx → EReal) (qz : SQZ.Idx → BitVec 32)
    (bias : SB.Idx → EReal) (b : Fin 32) (J : Fin 5504) (h : Fin 2) : EReal :=
  accK x qw sc qz b J h 32 + bias (ix1 (colOf J h))

/-- Packed column and parity of an output column. -/
def packOf (n : Fin 11008) : Fin 5504 := ⟨n.val / 2, by have := n.isLt; omega⟩
def parOf (n : Fin 11008) : Fin 2 := ⟨n.val % 2, by omega⟩

/-- The result array, as the reference computes it … -/
def out (x : SX.Idx → EReal) (qw : SQW.Idx → BitVec 32) (sc : SSC.Idx → EReal) (qz : SQZ.Idx → BitVec 32)
    (bias : SB.Idx → EReal) : SOUT.Idx → EReal :=
  fun i => outAt x qw sc qz bias (i 0) (packOf (i 2)) (parOf (i 2))

/-- … and as the kernel does. -/
def kOut (x : SX.Idx → EReal) (qw : SQW.Idx → BitVec 32) (sc : SSC.Idx → EReal) (qz : SQZ.Idx → BitVec 32)
    (bias : SB.Idx → EReal) : SOUT.Idx → EReal :=
  fun i => kOutAt x qw sc qz bias (i 0) (packOf (i 2)) (parOf (i 2))

end Cert.Spec

end
-- ==== Proof.KData.lean ====
/-
  The proof data of the kernel's run at the exact instance, where a float is an extended real.

  The grid has 64 points: point t works on column tile t / 32 (2816 packed columns; the second tile overhangs the
  5504-column arrays by 128 columns, which the transfers cut off) and on group t % 32 of 128 input channels. After
  point t the two accumulators hold, on the columns inside the arrays, the contraction over the groups 0 … t % 32 of
  the dequantised weights of the low and of the high nibbles ("accSpec": Cert.Spec.accK); what they hold past the
  arrays' end is whatever the cut fetches left there and is never written back. At a tile's last point the two output
  buffers receive accumulator + bias ("outSpec": Cert.Spec.kOutAt) on the columns inside the arrays.
-/
import proofs.«407691_j14783277433034_1_alg».proof.Proof.KCommon
import proofs.«407691_j14783277433034_1_alg».proof.Proof.Spec

set_option maxRecDepth 16384

noncomputable section

namespace Cert.KernelIdeal.KProof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The five argument arrays of core c -/

abbrev aX (c : Dev nD) : Cert.Spec.SX.Idx → EReal := m ((c : Thread nD τ).loc main_arg0)
abbrev aQW (c : Dev nD) : Cert.Spec.SQW.Idx → BitVec 32 := m ((c : Thread nD τ).loc main_arg1)
abbrev aSC (c : Dev nD) : Cert.Spec.SSC.Idx → EReal := m ((c : Thread nD τ).loc main_arg2)
abbrev aQZ (c : Dev nD) : Cert.Spec.SQZ.Idx → BitVec 32 := m ((c : Thread nD τ).loc main_arg3)
abbrev aB (c : Dev nD) : Cert.Spec.SB.Idx → EReal := m ((c : Thread nD τ).loc main_arg4)

/-! ## Points, tiles and groups -/

/-- The grid's 64 points in row-major order: the tile is the quotient by 32, the group the remainder. -/
theorem coords_tile : ∀ t : Fin cfg0.N, (grid0.coords t 0).val = t.val / 32 :=
  (by decide +kernel : ∀ t : Fin grid0.N, (grid0.coords t 0).val = t.val / 32)
theorem coords_grp : ∀ t : Fin cfg0.N, (grid0.coords t 1).val = t.val % 32 :=
  (by decide +kernel : ∀ t : Fin grid0.N, (grid0.coords t 1).val = t.val % 32)

/-- The packed column of the arrays that column j of point t's blocks is (when it is below 5504). -/
abbrev gcol (t : Fin cfg0.N) (j : Fin 2816) : ℕ := 2816 * (t.val / 32) + j.val
/-- The group point t works on. -/
def grpPt (t : Fin cfg0.N) : Fin 32 := ⟨t.val % 32, Nat.mod_lt _ (by decide)⟩

/-! ## What the accumulators and the outputs hold -/

/-- The accumulator of parity h after point t, on the columns inside the arrays (zero elsewhere: a placeholder). -/
def accSpec (c : Dev nD) (h : Fin 2) (t : Fin cfg0.N) : S32x2816.Idx → EReal := fun y =>
  if hJ : gcol t (y 1) < 5504 then
    Cert.Spec.accK (aX m c) (aQW m c) (aSC m c) (aQZ m c) (y 0) ⟨gcol t (y 1), hJ⟩ h (t.val % 32 + 1)
  else 0

/-- The output block of parity h stored at a tile's last point, on the columns inside the arrays. -/
def outSpec (c : Dev nD) (h : Fin 2) (t : Fin cfg0.N) : S32x2816.Idx → EReal := fun y =>
  if hJ : gcol t (y 1) < 5504 then
    Cert.Spec.kOutAt (aX m c) (aQW m c) (aSC m c) (aQZ m c) (aB m c) (y 0) ⟨gcol t (y 1), hJ⟩ h
  else 0

/-- Two contents of a 32 × 2816 buffer agree on the columns of point t's tile that lie inside the arrays. -/
def AgreeOn (t : Fin cfg0.N) (S G : S32x2816.Idx → EReal) : Prop :=
  ∀ (b : Fin 32) (j : Fin 2816), gcol t j < 5504 → S (ix2 b j) = G (ix2 b j)

/-- The region's invariant before position n: the class's before the first point; afterwards the two accumulators at
    contents that agree with "accSpec" of the point before on the columns inside the arrays. -/
def PhiV (c : Dev nD) : (n : ℕ) → n ≤ cfg0.N → sProp 𝕄
  | 0, _ => Pipeline.ΦA spec0 c
  | n + 1, hn => iprop(iprop(∃ S0 S1 : S32x2816.Idx → EReal, ⌜AgreeOn ⟨n, hn⟩ S0 (accSpec m c 0 ⟨n, hn⟩) ∧ AgreeOn ⟨n, hn⟩ S1 (accSpec m c 1 ⟨n, hn⟩)⌝
      ∗ owns (c : Thread nD τ) scLo fullShare S0 ∗ owns (c : Thread nD τ) scHi fullShare S1) ∗ (∃ r, prngReg c r))

theorem PhiV_zero (c : Dev nD) (n : ℕ) (h : n ≤ cfg0.N) (hz : n = 0) : PhiV m c n h = Pipeline.ΦA spec0 c := by
  subst hz; rfl

theorem PhiV_succ (c : Dev nD) (n : ℕ) (hn : n < cfg0.N) :
    PhiV m c (n + 1) hn = iprop(iprop(∃ S0 S1 : S32x2816.Idx → EReal, ⌜AgreeOn ⟨n, hn⟩ S0 (accSpec m c 0 ⟨n, hn⟩) ∧ AgreeOn ⟨n, hn⟩ S1 (accSpec m c 1 ⟨n, hn⟩)⌝
      ∗ owns (c : Thread nD τ) scLo fullShare S0 ∗ owns (c : Thread nD τ) scHi fullShare S1) ∗ (∃ r, prngReg c r)) := rfl

/-! ## The proof data -/

/-- After the body at point t: each input's buffer holds its block (on the part its fetch fills; zero past it), the
    outputs' "outSpec"; the invariant is "PhiV"; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : BitVec 32)) (iblk m c 1 t)
    | ⟨2, _⟩ => win0_2.fill (grid0.coords t) (fun _ => (0 : BitVec 32)) (iblk m c 2 t)
    | ⟨3, _⟩ => win0_3.fill (grid0.coords t) (fun _ => (0 : EReal)) (iblk m c 3 t)
    | ⟨4, _⟩ => win0_4.fill (grid0.coords t) (fun _ => (0 : EReal)) (iblk m c 4 t)
    | ⟨5, _⟩ => win0_5.fill (grid0.coords t) (fun _ => (0 : EReal)) (iblk m c 5 t)
    | ⟨6, _⟩ => win0_6.fill (grid0.coords t) (fun _ => (0 : EReal)) (iblk m c 6 t)
    | ⟨7, _⟩ => outSpec m c 0 t
    | ⟨8, _⟩ => outSpec m c 1 t
  Φ t := PhiV m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = win0_1.fill (grid0.coords t) (fun _ => (0 : BitVec 32)) (iblk m c 1 t) := by dsimp only [dats]
theorem after_2 (c : Dev nD) (t : Fin cfg0.N) : (dats m 0 c).after 2 t = win0_2.fill (grid0.coords t) (fun _ => (0 : BitVec 32)) (iblk m c 2 t) := by dsimp only [dats]
theorem after_3 (c : Dev nD) (t : Fin cfg0.N) : (dats m 0 c).after 3 t = win0_3.fill (grid0.coords t) (fun _ => (0 : EReal)) (iblk m c 3 t) := by dsimp only [dats]
theorem after_4 (c : Dev nD) (t : Fin cfg0.N) : (dats m 0 c).after 4 t = win0_4.fill (grid0.coords t) (fun _ => (0 : EReal)) (iblk m c 4 t) := by dsimp only [dats]
theorem after_5 (c : Dev nD) (t : Fin cfg0.N) : (dats m 0 c).after 5 t = win0_5.fill (grid0.coords t) (fun _ => (0 : EReal)) (iblk m c 5 t) := by dsimp only [dats]
theorem after_6 (c : Dev nD) (t : Fin cfg0.N) : (dats m 0 c).after 6 t = win0_6.fill (grid0.coords t) (fun _ => (0 : EReal)) (iblk m c 6 t) := by dsimp only [dats]
theorem after_7 (c : Dev nD) (t : Fin cfg0.N) : (dats m 0 c).after 7 t = outSpec m c 0 t := by dsimp only [dats]
theorem after_8 (c : Dev nD) (t : Fin cfg0.N) : (dats m 0 c).after 8 t = outSpec m c 1 t := by dsimp only [dats]

theorem Phi_castSucc (c : Dev nD) (t : Fin cfg0.N) :
    (dats m 0 c).Φ t.castSucc = PhiV m c t.val (Nat.le_of_lt t.isLt) := by
  dsimp only [dats]; simp only [Fin.coe_castSucc]

end Cert.KernelIdeal.KProof

end
-- ==== Proof.KPay.lean ====
/-
  The body's arithmetic read at one element, where a float is an extended real (format changes are the identity and
  the matrix product into a zero accumulator is the plain sum over the contracted axis).

  One step adds to the accumulator, at batch row b and block column j, the sum over the 128 channels kk of the block of
  activation(b, kk) · ((nibble of weight word (kk, j)) − (nibble of the group's zero-point word at column j)) ·
  (the group's scale at column j): only column j of the weights, zero points and scales enters. The final store adds
  the bias of column j.
-/
import proofs.«407691_j14783277433034_1_alg».proof.Proof.KCommon
import proofs.«407691_j14783277433034_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KProof

open Cert.KernelIdeal Cert.KernelIdeal.Gen
open Idealize.ShloMosaic Idealize.ShloMosaic.ValueIdx

/-! ## The row loads -/

/-- The row the body's row loads read is row "i 1" (the reduction coordinate) of the buffer. -/
theorem rowOf_apply {e : EltTy} (i : grid0.Coords) (X : S32x2816.Idx → Elt Ideal e) (j : Fin 2816) :
    rowOf (F := Ideal) i X (ix2 (0 : Fin 1) j) = X (ix2 (⟨(i 1).val, (i 1).isLt⟩ : Fin 32) j) := by
  unfold rowOf
  show X ((Rect.unit (s := S32x2816) (k0_off1 i) S1x2816.size (k0_off1_inb i)).idx (ix2 (0 : Fin 1) j)) = _
  refine congrArg X (funext fun a => Fin.ext ?_)
  have hi : (i 1).val < 32 := (i 1).isLt
  match a with
  | ⟨0, _⟩ =>
    -- the row offset is the reduction coordinate as a 32-bit word read back as a number: below 32, it is itself
    show (Scalar.indexCast (BitVec.ofNat 32 (i 1).val)).toNat + 1 * 0 = (i 1).val
    unfold Scalar.indexCast
    rw [BitVec.toNat_ofNat, Nat.mod_eq_of_lt (by omega : (i 1).val < 2 ^ 32)]
    omega
  | ⟨1, _⟩ =>
    show 0 + 1 * j.val = j.val
    omega

/-! ## The dequantised weights at an element -/

/-- The zero-point row as a vector: entry j of the one row. -/
theorem pay8_apply (v13 : Vec Ideal S1x2816 .i32) (j : Fin 2816) :
    k0_pay8 (F := Ideal) v13 (ix1 j) = v13 (ix2 (0 : Fin 1) j) := by
  unfold k0_pay8
  exact shapeCast_1a_a_apply v13 _ j

/-- The low-nibble weights at channel kk and column j: (low nibble of the weight word − low nibble of the zero-point
    word of column j) · the scale of column j; the zero-point and scale rows are broadcast down the 128 channels. -/
theorem pay9_apply (x1 : Vec Ideal S128x2816 .i32) (r2 : Vec Ideal S1x2816 .i32) (r3 : Vec Ideal S1x2816 .f32)
    (kk : Fin 128) (j : Fin 2816) :
    k0_pay9 (F := Ideal) x1 r2 r3 (ix2 kk j)
      = Cert.Spec.wq 0 (x1 (ix2 kk j)) (r2 (ix2 (0 : Fin 1) j)) (r3 (ix2 (0 : Fin 1) j)) := by
  unfold k0_pay9
  rw [mulf_apply, subf_apply, broadcastTo_1b_ab_apply, broadcastTo_1b_ab_apply, shapeCast_a_1a_apply,
    shapeCast_a_1a_apply, shapeCast_1a_a_apply, sitofp_apply, sitofp_apply]
  show (FloatOps.sitofp (F := Ideal) .f32 (IntOp.andi (x1 (ix2 kk j)) 15#32)
      - FloatOps.sitofp (F := Ideal) .f32 (IntOp.andi (k0_pay8 (F := Ideal) r2 (ix1 j)) 15#32)) * r3 (ix2 (0 : Fin 1) j) = _
  rw [pay8_apply]
  rfl

/-- An arithmetic shift right by four places is in range of the 32-bit shifter. -/
theorem shrsi_four (x : BitVec 32) : IntOp.shrsi .vector x 4#32 = x.sshiftRight' 4#32 :=
  if_pos (by decide)

/-- The high-nibble weights likewise, the nibble taken after an arithmetic shift right by four. -/
theorem pay10_apply (x1 : Vec Ideal S128x2816 .i32) (r2 : Vec Ideal S1x2816 .i32) (r4 : Vec Ideal S1x2816 .f32)
    (kk : Fin 128) (j : Fin 2816) :
    k0_pay10 (F := Ideal) x1 r2 r4 (ix2 kk j)
      = Cert.Spec.wq 1 (x1 (ix2 kk j)) (r2 (ix2 (0 : Fin 1) j)) (r4 (ix2 (0 : Fin 1) j)) := by
  unfold k0_pay10
  rw [mulf_apply, subf_apply, broadcastTo_1b_ab_apply, broadcastTo_1b_ab_apply, shapeCast_a_1a_apply,
    shapeCast_a_1a_apply, shapeCast_1a_a_apply, sitofp_apply, sitofp_apply]
  show (FloatOps.sitofp (F := Ideal) .f32 (IntOp.andi (IntOp.shrsi .vector (x1 (ix2 kk j)) 4#32) 15#32)
      - FloatOps.sitofp (F := Ideal) .f32 (IntOp.andi (IntOp.shrsi .vector (k0_pay8 (F := Ideal) r2 (ix1 j)) 4#32) 15#32))
        * r4 (ix2 (0 : Fin 1) j) = _
  rw [pay8_apply, shrsi_four, shrsi_four]
  rfl

/-! ## The matrix product at an element -/

/-- The product's dimension numbers: 32 rows by the 128 contracted channels, times channels by 2816 columns. -/
abbrev DD : DotDims S32x128 S128x2816 S32x2816 := dot_S32x128_S128x2816_S32x2816_1_0_0_1_n_n

/-- The left operand is read at (row of the result, contracted channel) … -/
theorem lhs_DD_0 (y : S32x2816.Idx) (k : DD.contr.Idx) : (DD.lhsIdx y k 0).val = (y 0).val := by
  unfold DotDims.lhsIdx
  rw [dif_neg (show ¬(0 : Fin S32x128.rank) ∈ DD.lhsBatch by decide),
    dif_pos (show (0 : Fin S32x128.rank) ∈ DD.lhsNonContracting by decide)]
  rfl
theorem lhs_DD_1 (y : S32x2816.Idx) (k : DD.contr.Idx) : (DD.lhsIdx y k 1).val = (k ⟨0, by decide⟩).val :=
  DotDims.lhsIdx_val_of_single DD (cl := 1) rfl y k
/-- … and the right operand at (contracted channel, column of the result). -/
theorem rhs_DD_0 (y : S32x2816.Idx) (k : DD.contr.Idx) : (DD.rhsIdx y k 0).val = (k ⟨0, by decide⟩).val :=
  DotDims.rhsIdx_val_of_single DD (cr := 0) rfl y k
theorem rhs_DD_1 (y : S32x2816.Idx) (k : DD.contr.Idx) : (DD.rhsIdx y k 1).val = (y 1).val := by
  unfold DotDims.rhsIdx
  rw [dif_neg (show ¬(1 : Fin S128x2816.rank) ∈ DD.rhsBatch by decide),
    dif_pos (show (1 : Fin S128x2816.rank) ∈ DD.rhsNonContracting by decide)]
  rfl

/-- The product into the zero accumulator, at row b and column j: the sum over the 128 channels of the products. -/
theorem matmul_zero_apply (L : FVec Ideal S32x128 .bf16) (R : FVec Ideal S128x2816 .bf16) (b : Fin 32) (j : Fin 2816) :
    matmul DD none L R (constant (F := Ideal) S32x2816 .f32 0x00000000#32) (ix2 b j)
      = ∑ kk : Fin 128, L (ix2 b kk) * R (ix2 kk j) := by
  refine (Ideal.matmul_constant_zero_apply DD none L R (ix2 b j)).trans ?_
  -- the contraction index has one axis of extent 128: sum over its coordinate instead
  rw [← Equiv.sum_comp (contrEquiv1 DD 128 rfl rfl).symm]
  refine Finset.sum_congr rfl fun kk _ => ?_
  have hk := contrEquiv1_symm_val DD 128 rfl rfl kk
  congr 2
  · funext a; refine Fin.ext ?_
    match a with
    | ⟨0, _⟩ => exact lhs_DD_0 _ _
    | ⟨1, _⟩ => exact (lhs_DD_1 _ _).trans hk
  · funext a; refine Fin.ext ?_
    match a with
    | ⟨0, _⟩ => exact (rhs_DD_0 _ _).trans hk
    | ⟨1, _⟩ => exact rhs_DD_1 _ _

/-- The low accumulator's update at an element: the accumulator plus the product of the activations with the weights
    (the narrowing of both operands is the identity on extended reals). -/
theorem pay2_apply (v34 : FVec Ideal S128x2816 .f32) (v41 : Vec Ideal S32x128 .f32) (v46 : Vec Ideal S32x2816 .f32)
    (b : Fin 32) (j : Fin 2816) :
    k0_pay2 (F := Ideal) v34 v41 v46 (ix2 b j) = v46 (ix2 b j) + ∑ kk : Fin 128, v41 (ix2 b kk) * v34 (ix2 kk j) := by
  unfold k0_pay2 k0_pay1
  rw [shapeCast_self, addf_apply]
  refine congrArg (v46 (ix2 b j) + ·) ?_
  refine (matmul_zero_apply _ _ b j).trans ?_
  refine Finset.sum_congr rfl fun kk _ => ?_
  rw [truncf_apply, truncf_apply, shapeCast_self]

/-- The high accumulator's update likewise. -/
theorem pay3_apply (v40 : FVec Ideal S128x2816 .f32) (v41 : Vec Ideal S32x128 .f32) (v52 : Vec Ideal S32x2816 .f32)
    (b : Fin 32) (j : Fin 2816) :
    k0_pay3 (F := Ideal) v40 v41 v52 (ix2 b j) = v52 (ix2 b j) + ∑ kk : Fin 128, v41 (ix2 b kk) * v40 (ix2 kk j) := by
  unfold k0_pay3 k0_pay1
  rw [shapeCast_self, addf_apply]
  refine congrArg (v52 (ix2 b j) + ·) ?_
  refine (matmul_zero_apply _ _ b j).trans ?_
  refine Finset.sum_congr rfl fun kk _ => ?_
  rw [truncf_apply, truncf_apply, shapeCast_self]

/-! ## One step of the accumulators -/

/-- One step of the low-nibble accumulator at an element. -/
theorem stepLo_apply (i : grid0.Coords) (x0 : Vec Ideal S32x128 .f32) (x1 : Vec Ideal S128x2816 .i32) (x2 : Vec Ideal S32x2816 .i32)
    (x3 s : Vec Ideal S32x2816 .f32) (b : Fin 32) (j : Fin 2816) :
    stepLo (F := Ideal) i x0 x1 x2 x3 s (ix2 b j)
      = s (ix2 b j) + ∑ kk : Fin 128, x0 (ix2 b kk) *
          Cert.Spec.wq 0 (x1 (ix2 kk j)) (x2 (ix2 (⟨(i 1).val, (i 1).isLt⟩ : Fin 32) j)) (x3 (ix2 (⟨(i 1).val, (i 1).isLt⟩ : Fin 32) j)) := by
  unfold stepLo
  refine (pay2_apply _ x0 s b j).trans ?_
  refine congrArg (s (ix2 b j) + ·) (Finset.sum_congr rfl fun kk _ => ?_)
  rw [pay9_apply, rowOf_apply, rowOf_apply]

/-- One step of the high-nibble accumulator at an element. -/
theorem stepHi_apply (i : grid0.Coords) (x0 : Vec Ideal S32x128 .f32) (x1 : Vec Ideal S128x2816 .i32) (x2 : Vec Ideal S32x2816 .i32)
    (x4 s : Vec Ideal S32x2816 .f32) (b : Fin 32) (j : Fin 2816) :
    stepHi (F := Ideal) i x0 x1 x2 x4 s (ix2 b j)
      = s (ix2 b j) + ∑ kk : Fin 128, x0 (ix2 b kk) *
          Cert.Spec.wq 1 (x1 (ix2 kk j)) (x2 (ix2 (⟨(i 1).val, (i 1).isLt⟩ : Fin 32) j)) (x4 (ix2 (⟨(i 1).val, (i 1).isLt⟩ : Fin 32) j)) := by
  unfold stepHi
  refine (pay3_apply _ x0 s b j).trans ?_
  refine congrArg (s (ix2 b j) + ·) (Finset.sum_congr rfl fun kk _ => ?_)
  rw [pay10_apply, rowOf_apply, rowOf_apply]

/-! ## The reset and the final store -/

/-- The reset value of the accumulators is zero. -/
theorem pay6_apply (y : S32x2816.Idx) : k0_pay6 (F := Ideal) y = 0 := by
  unfold k0_pay6
  rw [shapeCast_self, broadcast_apply]
  exact Ideal.ofBits_zero_f32
theorem pay7_apply (y : S32x2816.Idx) : k0_pay7 (F := Ideal) y = 0 := by
  unfold k0_pay7
  rw [shapeCast_self, broadcast_apply]
  exact Ideal.ofBits_zero_f32

/-- The stored outputs: accumulator plus the bias row, broadcast over the batch rows. -/
theorem pay4_apply (a : Vec Ideal S32x2816 .f32) (x5 : Vec Ideal S1x2816 .f32) (b : Fin 32) (j : Fin 2816) :
    k0_pay4 (F := Ideal) a x5 (ix2 b j) = a (ix2 b j) + x5 (ix2 (0 : Fin 1) j) := by
  unfold k0_pay4
  rw [addf_apply, broadcastTo_1b_ab_apply, shapeCast_self]
theorem pay5_apply (a : Vec Ideal S32x2816 .f32) (x6 : Vec Ideal S1x2816 .f32) (b : Fin 32) (j : Fin 2816) :
    k0_pay5 (F := Ideal) a x6 (ix2 b j) = a (ix2 b j) + x6 (ix2 (0 : Fin 1) j) := by
  unfold k0_pay5
  rw [addf_apply, broadcastTo_1b_ab_apply, shapeCast_self]

end Cert.KernelIdeal.KProof

end
-- ==== Proof.KBefore.lean ====
/-
  What the body finds in the seven input windows' staging buffers at point t: each holds, on the part its (possibly
  cut) fetch fills, its block of the array the region finds, whether or not it was fetched at this very point — an
  unfetched window's block index has not moved since the point before, and the body leaves the inputs' buffers as it
  finds them. Past the filled part a cut window's buffer holds words nothing names. Handing such a buffer back
  unchanged is what the obligation asks of an input: its block on the moved part.
-/
import proofs.«407691_j14783277433034_1_alg».proof.Proof.KData
import Idealize.ShloMosaic.Lib.Pipeline.Value
import Idealize.ShloMosaic.Lib.ValueLayout

set_option maxRecDepth 16384

noncomputable section

open scoped BigOperators

namespace Cert.KernelIdeal.KProof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Cuts that follow the block index -/

/-- A window whose cut on each axis is computed from its block index there (and the block's and the array's sizes)
    is cut alike at two points with one block index. -/
private theorem clip_congr (w : Window sig grid0)
    (hc : ∀ i a, w.clip i a = Pipeline.Clip.of (w.indexMap i a) (w.size a) (w.shape.size a))
    (t t' : Fin grid0.N) (h : w.index t = w.index t') : w.clip (grid0.coords t) = w.clip (grid0.coords t') := by
  funext a
  have ha : w.indexMap (grid0.coords t) a = w.indexMap (grid0.coords t') a := congrFun h a
  rw [hc, hc, ha]

/-! ## What each input's buffer holds before the body -/

/-- The uncut input: its whole buffer is its block. -/
theorem before_0 (c : Dev nD) (t : Fin cfg0.N) (d) : (dats m 0 c).before 0 t d = iblk m c 0 t :=
  Gen.before0_0_of m (dats m 0 c) (A_eq m c 0) (after_0 m c) t d

/-- Input 1: what a fetch at t would leave — its block on the filled part, d past it. The window is never idle, its
    cuts follow its block index, and what the body leaves, cut to the moved part, is the block. -/
theorem before_1 (c : Dev nD) (t : Fin cfg0.N) (d) : (dats m 0 c).before 1 t d = win0_1.fill (grid0.coords t) d (iblk m c 1 t) := by
  have hblk : ∀ t, (dats m 0 c).blockOf 1 t = iblk m c 1 t := fun t => by
    unfold Dat.blockOf iblk; rw [A_eq]
  rw [(dats m 0 c).before_in_eq_fetched 1 rfl (fun _ => rfl) (clip_congr (cfg0.win 1) (fun _ _ => rfl))
    (fun t => by rw [after_1, hblk]; exact Window.cut_fill _ _ _ _) t d]
  unfold Dat.fetched; rw [hblk]

/-- Input 2: what a fetch at t would leave — its block on the filled part, d past it. The window is never idle, its
    cuts follow its block index, and what the body leaves, cut to the moved part, is the block. -/
theorem before_2 (c : Dev nD) (t : Fin cfg0.N) (d) : (dats m 0 c).before 2 t d = win0_2.fill (grid0.coords t) d (iblk m c 2 t) := by
  have hblk : ∀ t, (dats m 0 c).blockOf 2 t = iblk m c 2 t := fun t => by
    unfold Dat.blockOf iblk; rw [A_eq]
  rw [(dats m 0 c).before_in_eq_fetched 2 rfl (fun _ => rfl) (clip_congr (cfg0.win 2) (fun _ _ => rfl))
    (fun t => by rw [after_2, hblk]; exact Window.cut_fill _ _ _ _) t d]
  unfold Dat.fetched; rw [hblk]

/-- Input 3: what a fetch at t would leave — its block on the filled part, d past it. The window is never idle, its
    cuts follow its block index, and what the body leaves, cut to the moved part, is the block. -/
theorem before_3 (c : Dev nD) (t : Fin cfg0.N) (d) : (dats m 0 c).before 3 t d = win0_3.fill (grid0.coords t) d (iblk m c 3 t) := by
  have hblk : ∀ t, (dats m 0 c).blockOf 3 t = iblk m c 3 t := fun t => by
    unfold Dat.blockOf iblk; rw [A_eq]
  rw [(dats m 0 c).before_in_eq_fetched 3 rfl (fun _ => rfl) (clip_congr (cfg0.win 3) (fun _ _ => rfl))
    (fun t => by rw [after_3, hblk]; exact Window.cut_fill _ _ _ _) t d]
  unfold Dat.fetched; rw [hblk]

/-- Input 4: what a fetch at t would leave — its block on the filled part, d past it. The window is never idle, its
    cuts follow its block index, and what the body leaves, cut to the moved part, is the block. -/
theorem before_4 (c : Dev nD) (t : Fin cfg0.N) (d) : (dats m 0 c).before 4 t d = win0_4.fill (grid0.coords t) d (iblk m c 4 t) := by
  have hblk : ∀ t, (dats m 0 c).blockOf 4 t = iblk m c 4 t := fun t => by
    unfold Dat.blockOf iblk; rw [A_eq]
  rw [(dats m 0 c).before_in_eq_fetched 4 rfl (fun _ => rfl) (clip_congr (cfg0.win 4) (fun _ _ => rfl))
    (fun t => by rw [after_4, hblk]; exact Window.cut_fill _ _ _ _) t d]
  unfold Dat.fetched; rw [hblk]

/-- Input 5: what a fetch at t would leave — its block on the filled part, d past it. The window is never idle, its
    cuts follow its block index, and what the body leaves, cut to the moved part, is the block. -/
theorem before_5 (c : Dev nD) (t : Fin cfg0.N) (d) : (dats m 0 c).before 5 t d = win0_5.fill (grid0.coords t) d (iblk m c 5 t) := by
  have hblk : ∀ t, (dats m 0 c).blockOf 5 t = iblk m c 5 t := fun t => by
    unfold Dat.blockOf iblk; rw [A_eq]
  rw [(dats m 0 c).before_in_eq_fetched 5 rfl (fun _ => rfl) (clip_congr (cfg0.win 5) (fun _ _ => rfl))
    (fun t => by rw [after_5, hblk]; exact Window.cut_fill _ _ _ _) t d]
  unfold Dat.fetched; rw [hblk]

/-- Input 6: what a fetch at t would leave — its block on the filled part, d past it. The window is never idle, its
    cuts follow its block index, and what the body leaves, cut to the moved part, is the block. -/
theorem before_6 (c : Dev nD) (t : Fin cfg0.N) (d) : (dats m 0 c).before 6 t d = win0_6.fill (grid0.coords t) d (iblk m c 6 t) := by
  have hblk : ∀ t, (dats m 0 c).blockOf 6 t = iblk m c 6 t := fun t => by
    unfold Dat.blockOf iblk; rw [A_eq]
  rw [(dats m 0 c).before_in_eq_fetched 6 rfl (fun _ => rfl) (clip_congr (cfg0.win 6) (fun _ _ => rfl))
    (fun t => by rw [after_6, hblk]; exact Window.cut_fill _ _ _ _) t d]
  unfold Dat.fetched; rw [hblk]

/-! ## Handing a cut input back as found -/

/-- A cut input handed back as found is what the (loose) obligation asks of it: its block on the moved part. -/
theorem keep_1 (c : Dev nD) (t : Fin cfg0.N) (d) :
    win0_1.fill (grid0.coords t) d (iblk m c 1 t) = (cfg0.win 1).fill (grid0.coords t) (win0_1.fill (grid0.coords t) d (iblk m c 1 t)) ((cfg0.win 1).cut (grid0.coords t) ((dats m 0 c).after 1 t)) := by
  -- the moved part of what the body leaves is the block, and filling the block into a buffer that holds it already
  -- changes nothing
  rw [after_1]
  exact ((congrArg (win0_1.fill (grid0.coords t) _) (Window.cut_fill win0_1 _ _ _)).trans (Window.fill_fill win0_1 _ _ _)).symm
theorem keep_2 (c : Dev nD) (t : Fin cfg0.N) (d) :
    win0_2.fill (grid0.coords t) d (iblk m c 2 t) = (cfg0.win 2).fill (grid0.coords t) (win0_2.fill (grid0.coords t) d (iblk m c 2 t)) ((cfg0.win 2).cut (grid0.coords t) ((dats m 0 c).after 2 t)) := by
  -- the moved part of what the body leaves is the block, and filling the block into a buffer that holds it already
  -- changes nothing
  rw [after_2]
  exact ((congrArg (win0_2.fill (grid0.coords t) _) (Window.cut_fill win0_2 _ _ _)).trans (Window.fill_fill win0_2 _ _ _)).symm
theorem keep_3 (c : Dev nD) (t : Fin cfg0.N) (d) :
    win0_3.fill (grid0.coords t) d (iblk m c 3 t) = (cfg0.win 3).fill (grid0.coords t) (win0_3.fill (grid0.coords t) d (iblk m c 3 t)) ((cfg0.win 3).cut (grid0.coords t) ((dats m 0 c).after 3 t)) := by
  -- the moved part of what the body leaves is the block, and filling the block into a buffer that holds it already
  -- changes nothing
  rw [after_3]
  exact ((congrArg (win0_3.fill (grid0.coords t) _) (Window.cut_fill win0_3 _ _ _)).trans (Window.fill_fill win0_3 _ _ _)).symm
theorem keep_4 (c : Dev nD) (t : Fin cfg0.N) (d) :
    win0_4.fill (grid0.coords t) d (iblk m c 4 t) = (cfg0.win 4).fill (grid0.coords t) (win0_4.fill (grid0.coords t) d (iblk m c 4 t)) ((cfg0.win 4).cut (grid0.coords t) ((dats m 0 c).after 4 t)) := by
  -- the moved part of what the body leaves is the block, and filling the block into a buffer that holds it already
  -- changes nothing
  rw [after_4]
  exact ((congrArg (win0_4.fill (grid0.coords t) _) (Window.cut_fill win0_4 _ _ _)).trans (Window.fill_fill win0_4 _ _ _)).symm
theorem keep_5 (c : Dev nD) (t : Fin cfg0.N) (d) :
    win0_5.fill (grid0.coords t) d (iblk m c 5 t) = (cfg0.win 5).fill (grid0.coords t) (win0_5.fill (grid0.coords t) d (iblk m c 5 t)) ((cfg0.win 5).cut (grid0.coords t) ((dats m 0 c).after 5 t)) := by
  -- the moved part of what the body leaves is the block, and filling the block into a buffer that holds it already
  -- changes nothing
  rw [after_5]
  exact ((congrArg (win0_5.fill (grid0.coords t) _) (Window.cut_fill win0_5 _ _ _)).trans (Window.fill_fill win0_5 _ _ _)).symm
theorem keep_6 (c : Dev nD) (t : Fin cfg0.N) (d) :
    win0_6.fill (grid0.coords t) d (iblk m c 6 t) = (cfg0.win 6).fill (grid0.coords t) (win0_6.fill (grid0.coords t) d (iblk m c 6 t)) ((cfg0.win 6).cut (grid0.coords t) ((dats m 0 c).after 6 t)) := by
  -- the moved part of what the body leaves is the block, and filling the block into a buffer that holds it already
  -- changes nothing
  rw [after_6]
  exact ((congrArg (win0_6.fill (grid0.coords t) _) (Window.cut_fill win0_6 _ _ _)).trans (Window.fill_fill win0_6 _ _ _)).symm

end Cert.KernelIdeal.KProof

end
-- ==== Proof.KBlocks.lean ====
/-
  The seven input windows' staging contents read at an element inside the arrays.

  The arrays the region finds are the arguments themselves (the packed weights and zero points) or host re-layouts of
  them: the activations with their unit axis dropped; the even and the odd columns of the scales; the even and the odd
  entries of the bias, as a row. A block's element at block coordinates (r, j) sits in its array at (block index ·
  block size + coordinate) on each axis. So an element of a staging buffer inside the arrays is an element of an
  argument array.
-/
import proofs.«407691_j14783277433034_1_alg».proof.Proof.KData
import Idealize.ShloMosaic.Lib.Pipeline.Value
import Idealize.ShloMosaic.Lib.ValueLayout

set_option maxRecDepth 16384

noncomputable section

open scoped BigOperators

namespace Cert.KernelIdeal.KProof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The arrays the region finds, read at an index -/

/-- The activations with the unit axis dropped: row b, channel k is the argument's (b, 0, k). -/
theorem arr_x (c : Dev nD) (b : Fin 32) (k : Fin 4096) :
    (V m c main_v0 : S32x4096.Idx → EReal) (ix2 b k) = aX m c (ix3 b (0 : Fin 1) k) := by
  have e : (V m c main_v0 : S32x4096.Idx → EReal)
      = shapeCast S32x4096 (aX m c) shapeCasts_S32x1x4096_S32x4096 := by
    show StableHlo.after hostOps0 (fun b => m (c, b)) (Proc.devRef .tc main_v0) = _
    after_results; rfl
  rw [e]
  exact shapeCast_apply _ _ _ _ (by
    rw [Shape.rowMajor_val_three, Shape.rowMajor_val_two]
    show (b.val * 1 + 0) * 4096 + k.val = b.val * 4096 + k.val
    omega)

/-- A [32, 11008] array viewed [32, 5504, 2], its last axis cut to the one entry h, viewed [32, 5504]: entry (g, J) is
    the array's (g, 2J + h). The two steps that do not depend on h: -/
theorem pairs_apply (A : S32x11008.Idx → EReal) (g : Fin 32) (J : Fin 5504) (h : Fin 2) :
    shapeCast S32x5504x2 A shapeCasts_S32x11008_S32x5504x2 (ix3 g J h) = A (ix2 g (Cert.Spec.colOf J h)) :=
  shapeCast_apply _ _ _ _ (by
    rw [Shape.rowMajor_val_two, Shape.rowMajor_val_three]
    show g.val * 11008 + (2 * J.val + h.val) = (g.val * 5504 + J.val) * 2 + h.val
    omega)

theorem dropLast_apply (B : S32x5504x1.Idx → EReal) (g : Fin 32) (J : Fin 5504) :
    shapeCast S32x5504 B shapeCasts_S32x5504x1_S32x5504 (ix2 g J) = B (ix3 g J (0 : Fin 1)) :=
  shapeCast_apply _ _ _ _ (by
    rw [Shape.rowMajor_val_three, Shape.rowMajor_val_two]
    show (g.val * 5504 + J.val) * 1 + 0 = g.val * 5504 + J.val
    omega)

/-- The even columns of the scales. -/
theorem arr_sc0 (c : Dev nD) (g : Fin 32) (J : Fin 5504) :
    (V m c main_v3 : S32x5504.Idx → EReal) (ix2 g J) = aSC m c (ix2 g (Cert.Spec.colOf J 0)) := by
  have e : (V m c main_v3 : S32x5504.Idx → EReal)
      = shapeCast S32x5504 (extractStridedSlice S32x5504x1 ![0, 0, 0]
          (shapeCast S32x5504x2 (aSC m c) shapeCasts_S32x11008_S32x5504x2) slices_S32x5504x2_S32x5504x1_0_0_0)
          shapeCasts_S32x5504x1_S32x5504 := by
    show StableHlo.after hostOps0 (fun b => m (c, b)) (Proc.devRef .tc main_v3) = _
    after_results; rfl
  rw [e, dropLast_apply]
  refine (extractStridedSlice_apply _ _ _ _ (ix3 g J (0 : Fin 2)) fun a => ?_).trans (pairs_apply _ g J 0)
  match a with
  | ⟨0, _⟩ => show g.val = 0 + g.val; omega
  | ⟨1, _⟩ => show J.val = 0 + J.val; omega
  | ⟨2, _⟩ => show 0 = 0 + 0; rfl

/-- The odd columns of the scales. -/
theorem arr_sc1 (c : Dev nD) (g : Fin 32) (J : Fin 5504) :
    (V m c main_v5 : S32x5504.Idx → EReal) (ix2 g J) = aSC m c (ix2 g (Cert.Spec.colOf J 1)) := by
  have e : (V m c main_v5 : S32x5504.Idx → EReal)
      = shapeCast S32x5504 (extractStridedSlice S32x5504x1 ![0, 0, 1]
          (shapeCast S32x5504x2 (aSC m c) shapeCasts_S32x11008_S32x5504x2) slices_S32x5504x2_S32x5504x1_0_0_1)
          shapeCasts_S32x5504x1_S32x5504 := by
    show StableHlo.after hostOps0 (fun b => m (c, b)) (Proc.devRef .tc main_v5) = _
    after_results; rfl
  rw [e, dropLast_apply]
  refine (extractStridedSlice_apply _ _ _ _ (ix3 g J (1 : Fin 2)) fun a => ?_).trans (pairs_apply _ g J 1)
  match a with
  | ⟨0, _⟩ => show g.val = 0 + g.val; omega
  | ⟨1, _⟩ => show J.val = 0 + J.val; omega
  | ⟨2, _⟩ => show 1 = 1 + 0; rfl

/-- The bias viewed [5504, 2]: entry (J, h) is the bias's 2J + h. -/
theorem bpairs_apply (A : S11008.Idx → EReal) (J : Fin 5504) (h : Fin 2) :
    shapeCast S5504x2 A shapeCasts_S11008_S5504x2 (ix2 J h) = A (ix1 (Cert.Spec.colOf J h)) :=
  shapeCast_apply _ _ _ _ (by
    rw [Shape.rowMajor_val_one, Shape.rowMajor_val_two]
    show 2 * J.val + h.val = J.val * 2 + h.val
    omega)

/-- A [5504, 1] column viewed [5504], then as the row [1, 5504]. -/
theorem asRow_apply (B : S5504x1.Idx → EReal) (J : Fin 5504) :
    shapeCast S1x5504 (shapeCast S5504 B shapeCasts_S5504x1_S5504) shapeCasts_S5504_S1x5504 (ix2 (0 : Fin 1) J)
      = B (ix2 J (0 : Fin 1)) := by
  rw [shapeCast_a_1a_apply]
  exact shapeCast_apply _ _ _ _ (by
    rw [Shape.rowMajor_val_two, Shape.rowMajor_val_one]
    show J.val * 1 + 0 = J.val
    omega)

/-- The even entries of the bias, as a row. -/
theorem arr_b0 (c : Dev nD) (J : Fin 5504) :
    (V m c main_v9 : S1x5504.Idx → EReal) (ix2 (0 : Fin 1) J) = aB m c (ix1 (Cert.Spec.colOf J 0)) := by
  have e : (V m c main_v9 : S1x5504.Idx → EReal)
      = shapeCast S1x5504 (shapeCast S5504 (extractStridedSlice S5504x1 ![0, 0]
          (shapeCast S5504x2 (aB m c) shapeCasts_S11008_S5504x2) slices_S5504x2_S5504x1_0_0)
          shapeCasts_S5504x1_S5504) shapeCasts_S5504_S1x5504 := by
    show StableHlo.after hostOps0 (fun b => m (c, b)) (Proc.devRef .tc main_v9) = _
    after_results; rfl
  rw [e, asRow_apply]
  refine (extractStridedSlice_apply _ _ _ _ (ix2 J (0 : Fin 2)) fun a => ?_).trans (bpairs_apply _ J 0)
  match a with
  | ⟨0, _⟩ => show J.val = 0 + J.val; omega
  | ⟨1, _⟩ => show 0 = 0 + 0; rfl

/-- The odd entries of the bias, as a row. -/
theorem arr_b1 (c : Dev nD) (J : Fin 5504) :
    (V m c main_v12 : S1x5504.Idx → EReal) (ix2 (0 : Fin 1) J) = aB m c (ix1 (Cert.Spec.colOf J 1)) := by
  have e : (V m c main_v12 : S1x5504.Idx → EReal)
      = shapeCast S1x5504 (shapeCast S5504 (extractStridedSlice S5504x1 ![0, 1]
          (shapeCast S5504x2 (aB m c) shapeCasts_S11008_S5504x2) slices_S5504x2_S5504x1_0_1)
          shapeCasts_S5504x1_S5504) shapeCasts_S5504_S1x5504 := by
    show StableHlo.after hostOps0 (fun b => m (c, b)) (Proc.devRef .tc main_v12) = _
    after_results; rfl
  rw [e, asRow_apply]
  refine (extractStridedSlice_apply _ _ _ _ (ix2 J (1 : Fin 2)) fun a => ?_).trans (bpairs_apply _ J 1)
  match a with
  | ⟨0, _⟩ => show J.val = 0 + J.val; omega
  | ⟨1, _⟩ => show 1 = 1 + 0; rfl

/-! ## The grid's block indices and cuts -/

theorem lt64 (t : Fin cfg0.N) : t.val < 64 := lt_of_lt_of_eq t.isLt N_0

/-- Window 0's block index is (0, group); it is never cut. -/
theorem idx_w0 : ∀ t : Fin cfg0.N, win0_0.index t (0 : Fin 2) = 0 ∧ win0_0.index t (1 : Fin 2) = t.val % 32 :=
  (by decide +kernel : ∀ t : Fin grid0.N, win0_0.index t (0 : Fin 2) = 0 ∧ win0_0.index t (1 : Fin 2) = t.val % 32)

/-- Window 1's block index is (group, tile); its rows are never cut, its columns are cut to 2688 on the second tile. -/
theorem idx_w1 : ∀ t : Fin cfg0.N, win0_1.index t (0 : Fin 2) = t.val % 32 ∧ win0_1.index t (1 : Fin 2) = t.val / 32
    ∧ win0_1.xsize (grid0.coords t) (0 : Fin 2) = 128
    ∧ (t.val < 32 → win0_1.xsize (grid0.coords t) (1 : Fin 2) = 2816)
    ∧ (32 ≤ t.val → win0_1.xsize (grid0.coords t) (1 : Fin 2) = 2688) :=
  (by decide +kernel : ∀ t : Fin grid0.N, win0_1.index t (0 : Fin 2) = t.val % 32 ∧ win0_1.index t (1 : Fin 2) = t.val / 32
    ∧ win0_1.xsize (grid0.coords t) (0 : Fin 2) = 128
    ∧ (t.val < 32 → win0_1.xsize (grid0.coords t) (1 : Fin 2) = 2816)
    ∧ (32 ≤ t.val → win0_1.xsize (grid0.coords t) (1 : Fin 2) = 2688))

/-- Windows 2 to 6 have block index (0, tile), all their rows moved, and the columns cut as window 1's. -/
theorem idx_w2 : ∀ t : Fin cfg0.N, win0_2.index t (0 : Fin 2) = 0 ∧ win0_2.index t (1 : Fin 2) = t.val / 32
    ∧ win0_2.xsize (grid0.coords t) (0 : Fin 2) = 32
    ∧ (t.val < 32 → win0_2.xsize (grid0.coords t) (1 : Fin 2) = 2816)
    ∧ (32 ≤ t.val → win0_2.xsize (grid0.coords t) (1 : Fin 2) = 2688) :=
  (by decide +kernel : ∀ t : Fin grid0.N, win0_2.index t (0 : Fin 2) = 0 ∧ win0_2.index t (1 : Fin 2) = t.val / 32
    ∧ win0_2.xsize (grid0.coords t) (0 : Fin 2) = 32
    ∧ (t.val < 32 → win0_2.xsize (grid0.coords t) (1 : Fin 2) = 2816)
    ∧ (32 ≤ t.val → win0_2.xsize (grid0.coords t) (1 : Fin 2) = 2688))
theorem idx_w3 : ∀ t : Fin cfg0.N, win0_3.index t (0 : Fin 2) = 0 ∧ win0_3.index t (1 : Fin 2) = t.val / 32
    ∧ win0_3.xsize (grid0.coords t) (0 : Fin 2) = 32
    ∧ (t.val < 32 → win0_3.xsize (grid0.coords t) (1 : Fin 2) = 2816)
    ∧ (32 ≤ t.val → win0_3.xsize (grid0.coords t) (1 : Fin 2) = 2688) :=
  (by decide +kernel : ∀ t : Fin grid0.N, win0_3.index t (0 : Fin 2) = 0 ∧ win0_3.index t (1 : Fin 2) = t.val / 32
    ∧ win0_3.xsize (grid0.coords t) (0 : Fin 2) = 32
    ∧ (t.val < 32 → win0_3.xsize (grid0.coords t) (1 : Fin 2) = 2816)
    ∧ (32 ≤ t.val → win0_3.xsize (grid0.coords t) (1 : Fin 2) = 2688))
theorem idx_w4 : ∀ t : Fin cfg0.N, win0_4.index t (0 : Fin 2) = 0 ∧ win0_4.index t (1 : Fin 2) = t.val / 32
    ∧ win0_4.xsize (grid0.coords t) (0 : Fin 2) = 32
    ∧ (t.val < 32 → win0_4.xsize (grid0.coords t) (1 : Fin 2) = 2816)
    ∧ (32 ≤ t.val → win0_4.xsize (grid0.coords t) (1 : Fin 2) = 2688) :=
  (by decide +kernel : ∀ t : Fin grid0.N, win0_4.index t (0 : Fin 2) = 0 ∧ win0_4.index t (1 : Fin 2) = t.val / 32
    ∧ win0_4.xsize (grid0.coords t) (0 : Fin 2) = 32
    ∧ (t.val < 32 → win0_4.xsize (grid0.coords t) (1 : Fin 2) = 2816)
    ∧ (32 ≤ t.val → win0_4.xsize (grid0.coords t) (1 : Fin 2) = 2688))
theorem idx_w5 : ∀ t : Fin cfg0.N, win0_5.index t (0 : Fin 2) = 0 ∧ win0_5.index t (1 : Fin 2) = t.val / 32
    ∧ win0_5.xsize (grid0.coords t) (0 : Fin 2) = 1
    ∧ (t.val < 32 → win0_5.xsize (grid0.coords t) (1 : Fin 2) = 2816)
    ∧ (32 ≤ t.val → win0_5.xsize (grid0.coords t) (1 : Fin 2) = 2688) :=
  (by decide +kernel : ∀ t : Fin grid0.N, win0_5.index t (0 : Fin 2) = 0 ∧ win0_5.index t (1 : Fin 2) = t.val / 32
    ∧ win0_5.xsize (grid0.coords t) (0 : Fin 2) = 1
    ∧ (t.val < 32 → win0_5.xsize (grid0.coords t) (1 : Fin 2) = 2816)
    ∧ (32 ≤ t.val → win0_5.xsize (grid0.coords t) (1 : Fin 2) = 2688))
theorem idx_w6 : ∀ t : Fin cfg0.N, win0_6.index t (0 : Fin 2) = 0 ∧ win0_6.index t (1 : Fin 2) = t.val / 32
    ∧ win0_6.xsize (grid0.coords t) (0 : Fin 2) = 1
    ∧ (t.val < 32 → win0_6.xsize (grid0.coords t) (1 : Fin 2) = 2816)
    ∧ (32 ≤ t.val → win0_6.xsize (grid0.coords t) (1 : Fin 2) = 2688) :=
  (by decide +kernel : ∀ t : Fin grid0.N, win0_6.index t (0 : Fin 2) = 0 ∧ win0_6.index t (1 : Fin 2) = t.val / 32
    ∧ win0_6.xsize (grid0.coords t) (0 : Fin 2) = 1
    ∧ (t.val < 32 → win0_6.xsize (grid0.coords t) (1 : Fin 2) = 2816)
    ∧ (32 ≤ t.val → win0_6.xsize (grid0.coords t) (1 : Fin 2) = 2688))

/-- A column of point t's tile that lies inside the arrays is among the columns the cut transfer moves: 2816 of them
    on the first tile, 5504 − 2816 = 2688 on the second. -/
theorem col_lt (t : Fin cfg0.N) (j : Fin 2816) (hJ : gcol t j < 5504) (x : ℕ)
    (h0 : t.val < 32 → x = 2816) (h1 : 32 ≤ t.val → x = 2688) : j.val < x := by
  have hJ' : 2816 * (t.val / 32) + j.val < 5504 := hJ
  have := lt64 t; have := j.isLt
  omega

/-! ## The elements inside the arrays are moved -/

theorem moved_w1 (t : Fin cfg0.N) (kk : Fin 128) (j : Fin 2816) (hJ : gcol t j < 5504) :
    win0_1.moved (grid0.coords t) (ix2 kk j) = true := by
  rw [Window.moved_iff]
  obtain ⟨_, _, e0, e1, e2⟩ := idx_w1 t
  intro a
  match a with
  | ⟨0, _⟩ => show kk.val < win0_1.xsize (grid0.coords t) (0 : Fin 2); rw [e0]; exact kk.isLt
  | ⟨1, _⟩ => exact col_lt t j hJ _ e1 e2
theorem moved_w2 (t : Fin cfg0.N) (g : Fin 32) (j : Fin 2816) (hJ : gcol t j < 5504) :
    win0_2.moved (grid0.coords t) (ix2 g j) = true := by
  rw [Window.moved_iff]
  obtain ⟨_, _, e0, e1, e2⟩ := idx_w2 t
  intro a
  match a with
  | ⟨0, _⟩ => show g.val < win0_2.xsize (grid0.coords t) (0 : Fin 2); rw [e0]; exact g.isLt
  | ⟨1, _⟩ => exact col_lt t j hJ _ e1 e2
theorem moved_w3 (t : Fin cfg0.N) (g : Fin 32) (j : Fin 2816) (hJ : gcol t j < 5504) :
    win0_3.moved (grid0.coords t) (ix2 g j) = true := by
  rw [Window.moved_iff]
  obtain ⟨_, _, e0, e1, e2⟩ := idx_w3 t
  intro a
  match a with
  | ⟨0, _⟩ => show g.val < win0_3.xsize (grid0.coords t) (0 : Fin 2); rw [e0]; exact g.isLt
  | ⟨1, _⟩ => exact col_lt t j hJ _ e1 e2
theorem moved_w4 (t : Fin cfg0.N) (g : Fin 32) (j : Fin 2816) (hJ : gcol t j < 5504) :
    win0_4.moved (grid0.coords t) (ix2 g j) = true := by
  rw [Window.moved_iff]
  obtain ⟨_, _, e0, e1, e2⟩ := idx_w4 t
  intro a
  match a with
  | ⟨0, _⟩ => show g.val < win0_4.xsize (grid0.coords t) (0 : Fin 2); rw [e0]; exact g.isLt
  | ⟨1, _⟩ => exact col_lt t j hJ _ e1 e2
theorem moved_w5 (t : Fin cfg0.N) (j : Fin 2816) (hJ : gcol t j < 5504) :
    win0_5.moved (grid0.coords t) (ix2 (0 : Fin 1) j) = true := by
  rw [Window.moved_iff]
  obtain ⟨_, _, e0, e1, e2⟩ := idx_w5 t
  intro a
  match a with
  | ⟨0, _⟩ => show (0 : Fin 1).val < win0_5.xsize (grid0.coords t) (0 : Fin 2); rw [e0]; exact (0 : Fin 1).isLt
  | ⟨1, _⟩ => exact col_lt t j hJ _ e1 e2
theorem moved_w6 (t : Fin cfg0.N) (j : Fin 2816) (hJ : gcol t j < 5504) :
    win0_6.moved (grid0.coords t) (ix2 (0 : Fin 1) j) = true := by
  rw [Window.moved_iff]
  obtain ⟨_, _, e0, e1, e2⟩ := idx_w6 t
  intro a
  match a with
  | ⟨0, _⟩ => show (0 : Fin 1).val < win0_6.xsize (grid0.coords t) (0 : Fin 2); rw [e0]; exact (0 : Fin 1).isLt
  | ⟨1, _⟩ => exact col_lt t j hJ _ e1 e2

/-! ## The buffers' elements inside the arrays -/

/-- The activations' block: batch row b, channel kk of the point's group. -/
theorem x0_read (c : Dev nD) (t : Fin cfg0.N) (b : Fin 32) (kk : Fin 128) :
    (iblk m c 0 t : S32x128.Idx → EReal) (ix2 b kk) = aX m c (ix3 b (0 : Fin 1) (Cert.Spec.chan (grpPt t) kk)) := by
  show (V m c main_v0 : S32x4096.Idx → EReal) (((cfg0.win 0).blk t).view.emb (ix2 b kk)) = _
  refine (congrArg (V m c main_v0 : S32x4096.Idx → EReal) ?_).trans (arr_x m c b (Cert.Spec.chan (grpPt t) kk))
  obtain ⟨i0, i1⟩ := idx_w0 t
  funext a; apply Fin.ext
  match a with
  | ⟨0, _⟩ => show win0_0.index t (0 : Fin 2) * 32 + 1 * b.val = b.val; rw [i0]; omega
  | ⟨1, _⟩ => show win0_0.index t (1 : Fin 2) * 128 + 1 * kk.val = 128 * (t.val % 32) + kk.val; rw [i1]; omega
/-- The packed weights' block. -/
theorem x1_read (c : Dev nD) (t : Fin cfg0.N) (d) (kk : Fin 128) (j : Fin 2816) (hJ : gcol t j < 5504) :
    (win0_1.fill (grid0.coords t) d (iblk m c 1 t) : S128x2816.Idx → BitVec 32) (ix2 kk j) = aQW m c (ix2 (Cert.Spec.chan (grpPt t) kk) (⟨gcol t j, hJ⟩ : Fin 5504)) := by
  unfold Window.fill
  rw [dif_pos (moved_w1 t kk j hJ)]
  show V m c main_arg1 (((cfg0.win 1).blk t).view.emb _) = _
  rw [V_main_arg1]
  refine congrArg (aQW m c) ?_
  obtain ⟨i0, i1, _⟩ := idx_w1 t
  funext a; apply Fin.ext
  match a with
  | ⟨0, _⟩ => show win0_1.index t (0 : Fin 2) * 128 + 1 * kk.val = 128 * (t.val % 32) + kk.val; rw [i0]; omega
  | ⟨1, _⟩ => show win0_1.index t (1 : Fin 2) * 2816 + 1 * j.val = 2816 * (t.val / 32) + j.val; rw [i1]; omega
/-- The packed zero points' block: all 32 groups' rows of the tile's columns. -/
theorem x2_read (c : Dev nD) (t : Fin cfg0.N) (d) (g : Fin 32) (j : Fin 2816) (hJ : gcol t j < 5504) :
    (win0_2.fill (grid0.coords t) d (iblk m c 2 t) : S32x2816.Idx → BitVec 32) (ix2 g j) = aQZ m c (ix2 g (⟨gcol t j, hJ⟩ : Fin 5504)) := by
  unfold Window.fill
  rw [dif_pos (moved_w2 t g j hJ)]
  show V m c main_arg3 (((cfg0.win 2).blk t).view.emb _) = _
  rw [V_main_arg3]
  refine congrArg (aQZ m c) ?_
  obtain ⟨i0, i1, _⟩ := idx_w2 t
  funext a; apply Fin.ext
  match a with
  | ⟨0, _⟩ => show win0_2.index t (0 : Fin 2) * 32 + 1 * g.val = g.val; rw [i0]; omega
  | ⟨1, _⟩ => show win0_2.index t (1 : Fin 2) * 2816 + 1 * j.val = 2816 * (t.val / 32) + j.val; rw [i1]; omega
/-- The even columns of the scales … -/
theorem x3_read (c : Dev nD) (t : Fin cfg0.N) (d) (g : Fin 32) (j : Fin 2816) (hJ : gcol t j < 5504) :
    (win0_3.fill (grid0.coords t) d (iblk m c 3 t) : S32x2816.Idx → EReal) (ix2 g j) = aSC m c (ix2 g (Cert.Spec.colOf ⟨gcol t j, hJ⟩ 0)) := by
  unfold Window.fill
  rw [dif_pos (moved_w3 t g j hJ)]
  show (V m c main_v3 : S32x5504.Idx → EReal) (((cfg0.win 3).blk t).view.emb _) = _
  refine (congrArg (V m c main_v3 : S32x5504.Idx → EReal) ?_).trans (arr_sc0 m c g ⟨gcol t j, hJ⟩)
  obtain ⟨i0, i1, _⟩ := idx_w3 t
  funext a; apply Fin.ext
  match a with
  | ⟨0, _⟩ => show win0_3.index t (0 : Fin 2) * 32 + 1 * g.val = g.val; rw [i0]; omega
  | ⟨1, _⟩ => show win0_3.index t (1 : Fin 2) * 2816 + 1 * j.val = 2816 * (t.val / 32) + j.val; rw [i1]; omega
/-- … and the odd ones. -/
theorem x4_read (c : Dev nD) (t : Fin cfg0.N) (d) (g : Fin 32) (j : Fin 2816) (hJ : gcol t j < 5504) :
    (win0_4.fill (grid0.coords t) d (iblk m c 4 t) : S32x2816.Idx → EReal) (ix2 g j) = aSC m c (ix2 g (Cert.Spec.colOf ⟨gcol t j, hJ⟩ 1)) := by
  unfold Window.fill
  rw [dif_pos (moved_w4 t g j hJ)]
  show (V m c main_v5 : S32x5504.Idx → EReal) (((cfg0.win 4).blk t).view.emb _) = _
  refine (congrArg (V m c main_v5 : S32x5504.Idx → EReal) ?_).trans (arr_sc1 m c g ⟨gcol t j, hJ⟩)
  obtain ⟨i0, i1, _⟩ := idx_w4 t
  funext a; apply Fin.ext
  match a with
  | ⟨0, _⟩ => show win0_4.index t (0 : Fin 2) * 32 + 1 * g.val = g.val; rw [i0]; omega
  | ⟨1, _⟩ => show win0_4.index t (1 : Fin 2) * 2816 + 1 * j.val = 2816 * (t.val / 32) + j.val; rw [i1]; omega
/-- The even entries of the bias … -/
theorem x5_read (c : Dev nD) (t : Fin cfg0.N) (d) (j : Fin 2816) (hJ : gcol t j < 5504) :
    (win0_5.fill (grid0.coords t) d (iblk m c 5 t) : S1x2816.Idx → EReal) (ix2 (0 : Fin 1) j) = aB m c (ix1 (Cert.Spec.colOf ⟨gcol t j, hJ⟩ 0)) := by
  unfold Window.fill
  rw [dif_pos (moved_w5 t j hJ)]
  show (V m c main_v9 : S1x5504.Idx → EReal) (((cfg0.win 5).blk t).view.emb _) = _
  refine (congrArg (V m c main_v9 : S1x5504.Idx → EReal) ?_).trans (arr_b0 m c ⟨gcol t j, hJ⟩)
  obtain ⟨i0, i1, _⟩ := idx_w5 t
  funext a; apply Fin.ext
  match a with
  | ⟨0, _⟩ => show win0_5.index t (0 : Fin 2) * 1 + 1 * (0 : Fin 1).val = (0 : Fin 1).val; rw [i0]; omega
  | ⟨1, _⟩ => show win0_5.index t (1 : Fin 2) * 2816 + 1 * j.val = 2816 * (t.val / 32) + j.val; rw [i1]; omega
/-- … and the odd ones. -/
theorem x6_read (c : Dev nD) (t : Fin cfg0.N) (d) (j : Fin 2816) (hJ : gcol t j < 5504) :
    (win0_6.fill (grid0.coords t) d (iblk m c 6 t) : S1x2816.Idx → EReal) (ix2 (0 : Fin 1) j) = aB m c (ix1 (Cert.Spec.colOf ⟨gcol t j, hJ⟩ 1)) := by
  unfold Window.fill
  rw [dif_pos (moved_w6 t j hJ)]
  show (V m c main_v12 : S1x5504.Idx → EReal) (((cfg0.win 6).blk t).view.emb _) = _
  refine (congrArg (V m c main_v12 : S1x5504.Idx → EReal) ?_).trans (arr_b1 m c ⟨gcol t j, hJ⟩)
  obtain ⟨i0, i1, _⟩ := idx_w6 t
  funext a; apply Fin.ext
  match a with
  | ⟨0, _⟩ => show win0_6.index t (0 : Fin 2) * 1 + 1 * (0 : Fin 1).val = (0 : Fin 1).val; rw [i0]; omega
  | ⟨1, _⟩ => show win0_6.index t (1 : Fin 2) * 2816 + 1 * j.val = 2816 * (t.val / 32) + j.val; rw [i1]; omega

end Cert.KernelIdeal.KProof

end
-- ==== Proof.KBody.lean ====
/-
  The body obligation of the kernel's run at the exact instance: at every grid point, from the invariant and the
  windows' buffers as the pipeline hands them over, the body runs to the invariant of the next point and to the
  buffers the proof data names.

  Three situations. At a tile's first point the accumulators start from zero: after the step they hold group 0's
  partial contraction on the columns inside the arrays. At a middle point they advance from what the invariant says
  they held. At a tile's last point they advance once more, to the whole contraction, and each output buffer receives
  accumulator + bias: on the columns inside the arrays that is the kernel's value there, which is all the (cut)
  write-back moves. An input's buffer is handed back as found. One step's value at an element is read off the body's
  arithmetic (a sum over the group's 128 channels of activation · dequantised weight) with the staging buffers'
  elements replaced by the argument arrays' elements they are.
-/
import proofs.«407691_j14783277433034_1_alg».proof.Proof.KData
import proofs.«407691_j14783277433034_1_alg».proof.Proof.KRun
import proofs.«407691_j14783277433034_1_alg».proof.Proof.KPay
import proofs.«407691_j14783277433034_1_alg».proof.Proof.KBefore
import proofs.«407691_j14783277433034_1_alg».proof.Proof.KBlocks

set_option maxRecDepth 16384

noncomputable section

open scoped BigOperators

namespace Cert.KernelIdeal.KProof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Points, groups and the contraction's recursion -/

/-- The row of the zero points and of the scales that the body reads at point t is the point's group. -/
theorem row_eq (t : Fin cfg0.N) :
    (⟨(grid0.coords t 1).val, (grid0.coords t 1).isLt⟩ : Fin 32) = grpPt t := Fin.ext (coords_grp t)

/-- A group's channel lies in that group. -/
theorem grpOf_chan (g : Fin 32) (kk : Fin 128) : Cert.Spec.grpOf (Cert.Spec.chan g kk) = g := by
  apply Fin.ext
  show (128 * g.val + kk.val) / 128 = g.val
  have := kk.isLt
  omega

/-- The accumulator after one more group. -/
theorem accK_succ (x : Cert.Spec.SX.Idx → EReal) (qw : Cert.Spec.SQW.Idx → BitVec 32) (sc : Cert.Spec.SSC.Idx → EReal)
    (qz : Cert.Spec.SQZ.Idx → BitVec 32) (b : Fin 32) (J : Fin 5504) (h : Fin 2) (n : ℕ) (hn : n < 32) :
    Cert.Spec.accK x qw sc qz b J h (n + 1)
      = Cert.Spec.accK x qw sc qz b J h n + Cert.Spec.grp x qw sc qz b J h ⟨n, hn⟩ := by
  show _ + (if hn : n < 32 then _ else 0) = _
  rw [dif_pos hn]

/-- The specified accumulator at an element inside the arrays. -/
theorem accSpec_apply (c : Dev nD) (h : Fin 2) (t : Fin cfg0.N) (b : Fin 32) (j : Fin 2816) (hJ : gcol t j < 5504) :
    accSpec m c h t (ix2 b j)
      = Cert.Spec.accK (aX m c) (aQW m c) (aSC m c) (aQZ m c) b ⟨gcol t j, hJ⟩ h (t.val % 32 + 1) := by
  unfold accSpec
  exact dif_pos hJ

/-- The specified output at an element inside the arrays. -/
theorem outSpec_apply (c : Dev nD) (h : Fin 2) (t : Fin cfg0.N) (b : Fin 32) (j : Fin 2816) (hJ : gcol t j < 5504) :
    outSpec m c h t (ix2 b j)
      = Cert.Spec.kOutAt (aX m c) (aQW m c) (aSC m c) (aQZ m c) (aB m c) b ⟨gcol t j, hJ⟩ h := by
  unfold outSpec
  exact dif_pos hJ

/-! ## One step at an element inside the arrays: the point's group is added -/

theorem stepLo_read (c : Dev nD) (t : Fin cfg0.N) (d1 : S128x2816.Idx → BitVec 32) (d2 : S32x2816.Idx → BitVec 32)
    (d3 : S32x2816.Idx → EReal) (s : S32x2816.Idx → EReal) (b : Fin 32) (j : Fin 2816) (hJ : gcol t j < 5504) :
    stepLo (F := Ideal) (grid0.coords t) (iblk m c 0 t) (win0_1.fill (grid0.coords t) d1 (iblk m c 1 t))
        (win0_2.fill (grid0.coords t) d2 (iblk m c 2 t)) (win0_3.fill (grid0.coords t) d3 (iblk m c 3 t)) s (ix2 b j)
      = s (ix2 b j) + Cert.Spec.grp (aX m c) (aQW m c) (aSC m c) (aQZ m c) b ⟨gcol t j, hJ⟩ 0 (grpPt t) := by
  refine (stepLo_apply _ _ _ _ _ _ b j).trans ?_
  rw [row_eq t]
  congr 1
  unfold Cert.Spec.grp
  refine Finset.sum_congr rfl fun kk _ => ?_
  rw [x0_read m c t b kk, x1_read m c t d1 kk j hJ, x2_read m c t d2 (grpPt t) j hJ, x3_read m c t d3 (grpPt t) j hJ]
  unfold Cert.Spec.term
  rw [grpOf_chan]

theorem stepHi_read (c : Dev nD) (t : Fin cfg0.N) (d1 : S128x2816.Idx → BitVec 32) (d2 : S32x2816.Idx → BitVec 32)
    (d4 : S32x2816.Idx → EReal) (s : S32x2816.Idx → EReal) (b : Fin 32) (j : Fin 2816) (hJ : gcol t j < 5504) :
    stepHi (F := Ideal) (grid0.coords t) (iblk m c 0 t) (win0_1.fill (grid0.coords t) d1 (iblk m c 1 t))
        (win0_2.fill (grid0.coords t) d2 (iblk m c 2 t)) (win0_4.fill (grid0.coords t) d4 (iblk m c 4 t)) s (ix2 b j)
      = s (ix2 b j) + Cert.Spec.grp (aX m c) (aQW m c) (aSC m c) (aQZ m c) b ⟨gcol t j, hJ⟩ 1 (grpPt t) := by
  refine (stepHi_apply _ _ _ _ _ _ b j).trans ?_
  rw [row_eq t]
  congr 1
  unfold Cert.Spec.grp
  refine Finset.sum_congr rfl fun kk _ => ?_
  rw [x0_read m c t b kk, x1_read m c t d1 kk j hJ, x2_read m c t d2 (grpPt t) j hJ, x4_read m c t d4 (grpPt t) j hJ]
  unfold Cert.Spec.term
  rw [grpOf_chan]

/-- The specified accumulator after point t: the groups before the point's, and the point's group. -/
theorem accSpec_step (c : Dev nD) (h : Fin 2) (t : Fin cfg0.N) (b : Fin 32) (j : Fin 2816) (hJ : gcol t j < 5504) :
    accSpec m c h t (ix2 b j)
      = Cert.Spec.accK (aX m c) (aQW m c) (aSC m c) (aQZ m c) b ⟨gcol t j, hJ⟩ h (t.val % 32)
        + Cert.Spec.grp (aX m c) (aQW m c) (aSC m c) (aQZ m c) b ⟨gcol t j, hJ⟩ h (grpPt t) := by
  rw [accSpec_apply m c h t b j hJ]
  exact accK_succ _ _ _ _ b _ h (t.val % 32) (Nat.mod_lt _ (by decide))

/-- Away from a tile's first point, the point before works on the same tile and on the group before: what the
    accumulator held after it, inside the arrays, is the contraction over the groups before this point's. -/
theorem prev_read (c : Dev nD) (h : Fin 2) (t : Fin cfg0.N) (h0 : ¬t.val % 32 = 0) (hp : t.val - 1 < cfg0.N)
    (S : S32x2816.Idx → EReal) (hS : AgreeOn ⟨t.val - 1, hp⟩ S (accSpec m c h ⟨t.val - 1, hp⟩))
    (b : Fin 32) (j : Fin 2816) (hJ : gcol t j < 5504) :
    S (ix2 b j) = Cert.Spec.accK (aX m c) (aQW m c) (aSC m c) (aQZ m c) b ⟨gcol t j, hJ⟩ h (t.val % 32) := by
  have hq : (t.val - 1) / 32 = t.val / 32 := by omega
  have hr : (t.val - 1) % 32 + 1 = t.val % 32 := by omega
  have hJ' : gcol ⟨t.val - 1, hp⟩ j < 5504 := by
    show 2816 * ((t.val - 1) / 32) + j.val < 5504
    rw [hq]; exact hJ
  have e1 : (⟨gcol ⟨t.val - 1, hp⟩ j, hJ'⟩ : Fin 5504) = ⟨gcol t j, hJ⟩ :=
    Fin.ext (by show 2816 * ((t.val - 1) / 32) + j.val = 2816 * (t.val / 32) + j.val; rw [hq])
  rw [hS b j hJ', accSpec_apply m c h ⟨t.val - 1, hp⟩ b j hJ', e1]
  show Cert.Spec.accK _ _ _ _ b _ h ((t.val - 1) % 32 + 1) = _
  rw [hr]

/-! ## The invariant's pure fact at the next point -/

/-- A tile's first point: one step from zero is the first group's contraction. -/
theorem agree_first_lo (c : Dev nD) (t : Fin cfg0.N) (h0 : t.val % 32 = 0) (d1 : S128x2816.Idx → BitVec 32)
    (d2 : S32x2816.Idx → BitVec 32) (d3 : S32x2816.Idx → EReal) :
    AgreeOn t (stepLo (F := Ideal) (grid0.coords t) (iblk m c 0 t) (win0_1.fill (grid0.coords t) d1 (iblk m c 1 t))
        (win0_2.fill (grid0.coords t) d2 (iblk m c 2 t)) (win0_3.fill (grid0.coords t) d3 (iblk m c 3 t)) (k0_pay6 (F := Ideal)))
      (accSpec m c 0 t) := by
  intro b j hJ
  rw [stepLo_read m c t d1 d2 d3 _ b j hJ, accSpec_step m c 0 t b j hJ, pay6_apply, h0]
  rfl

theorem agree_first_hi (c : Dev nD) (t : Fin cfg0.N) (h0 : t.val % 32 = 0) (d1 : S128x2816.Idx → BitVec 32)
    (d2 : S32x2816.Idx → BitVec 32) (d4 : S32x2816.Idx → EReal) :
    AgreeOn t (stepHi (F := Ideal) (grid0.coords t) (iblk m c 0 t) (win0_1.fill (grid0.coords t) d1 (iblk m c 1 t))
        (win0_2.fill (grid0.coords t) d2 (iblk m c 2 t)) (win0_4.fill (grid0.coords t) d4 (iblk m c 4 t)) (k0_pay7 (F := Ideal)))
      (accSpec m c 1 t) := by
  intro b j hJ
  rw [stepHi_read m c t d1 d2 d4 _ b j hJ, accSpec_step m c 1 t b j hJ, pay7_apply, h0]
  rfl

/-- A later point: one step from the groups before adds the point's group. -/
theorem agree_step_lo (c : Dev nD) (t : Fin cfg0.N) (h0 : ¬t.val % 32 = 0) (hp : t.val - 1 < cfg0.N)
    (d1 : S128x2816.Idx → BitVec 32) (d2 : S32x2816.Idx → BitVec 32) (d3 : S32x2816.Idx → EReal)
    (S : S32x2816.Idx → EReal) (hS : AgreeOn ⟨t.val - 1, hp⟩ S (accSpec m c 0 ⟨t.val - 1, hp⟩)) :
    AgreeOn t (stepLo (F := Ideal) (grid0.coords t) (iblk m c 0 t) (win0_1.fill (grid0.coords t) d1 (iblk m c 1 t))
        (win0_2.fill (grid0.coords t) d2 (iblk m c 2 t)) (win0_3.fill (grid0.coords t) d3 (iblk m c 3 t)) S)
      (accSpec m c 0 t) := by
  intro b j hJ
  rw [stepLo_read m c t d1 d2 d3 _ b j hJ, accSpec_step m c 0 t b j hJ, prev_read m c 0 t h0 hp S hS b j hJ]

theorem agree_step_hi (c : Dev nD) (t : Fin cfg0.N) (h0 : ¬t.val % 32 = 0) (hp : t.val - 1 < cfg0.N)
    (d1 : S128x2816.Idx → BitVec 32) (d2 : S32x2816.Idx → BitVec 32) (d4 : S32x2816.Idx → EReal)
    (S : S32x2816.Idx → EReal) (hS : AgreeOn ⟨t.val - 1, hp⟩ S (accSpec m c 1 ⟨t.val - 1, hp⟩)) :
    AgreeOn t (stepHi (F := Ideal) (grid0.coords t) (iblk m c 0 t) (win0_1.fill (grid0.coords t) d1 (iblk m c 1 t))
        (win0_2.fill (grid0.coords t) d2 (iblk m c 2 t)) (win0_4.fill (grid0.coords t) d4 (iblk m c 4 t)) S)
      (accSpec m c 1 t) := by
  intro b j hJ
  rw [stepHi_read m c t d1 d2 d4 _ b j hJ, accSpec_step m c 1 t b j hJ, prev_read m c 1 t h0 hp S hS b j hJ]

/-! ## The stored outputs at a tile's last point -/

/-- Inside the arrays the specified output is the specified accumulator after the last group, plus the bias. -/
theorem outSpec_last (c : Dev nD) (h : Fin 2) (t : Fin cfg0.N) (h1 : t.val % 32 = 31) (b : Fin 32) (j : Fin 2816)
    (hJ : gcol t j < 5504) :
    outSpec m c h t (ix2 b j) = accSpec m c h t (ix2 b j) + aB m c (ix1 (Cert.Spec.colOf ⟨gcol t j, hJ⟩ h)) := by
  rw [outSpec_apply m c h t b j hJ, accSpec_apply m c h t b j hJ, h1]
  rfl

/-- The part of the two output windows that the write-back moves lies inside the arrays. -/
theorem xsize7_col : ∀ t : Fin cfg0.N, 2816 * (t.val / 32) + win0_7.xsize (grid0.coords t) 1 ≤ 5504 :=
  (by decide +kernel : ∀ t : Fin grid0.N, 2816 * (t.val / 32) + win0_7.xsize (grid0.coords t) 1 ≤ 5504)
theorem xsize8_col : ∀ t : Fin cfg0.N, 2816 * (t.val / 32) + win0_8.xsize (grid0.coords t) 1 ≤ 5504 :=
  (by decide +kernel : ∀ t : Fin grid0.N, 2816 * (t.val / 32) + win0_8.xsize (grid0.coords t) 1 ≤ 5504)

/-- Contents that are the specified output on the columns inside the arrays are the specified output on the moved
    part. -/
theorem cut7_eq (c : Dev nD) (t : Fin cfg0.N) (X : S32x2816.Idx → EReal)
    (hX : ∀ (b : Fin 32) (j : Fin 2816), gcol t j < 5504 → X (ix2 b j) = outSpec m c 0 t (ix2 b j)) :
    (cfg0.win 7).cut (grid0.coords t) X = (cfg0.win 7).cut (grid0.coords t) ((dats m 0 c).after 7 t) := by
  rw [after_7]
  funext y
  show X (win0_7.xinj (grid0.coords t) y) = outSpec m c 0 t (win0_7.xinj (grid0.coords t) y)
  have hb : (y 0).val < 32 := lt_of_lt_of_le (y 0).isLt (win0_7.xsize_le (grid0.coords t) 0)
  have hj : (y 1).val < 2816 := lt_of_lt_of_le (y 1).isLt (win0_7.xsize_le (grid0.coords t) 1)
  have e : win0_7.xinj (grid0.coords t) y = ix2 (⟨(y 0).val, hb⟩ : Fin 32) (⟨(y 1).val, hj⟩ : Fin 2816) :=
    Shape.idx_ext₂ rfl rfl
  rw [e]
  refine hX _ _ ?_
  show 2816 * (t.val / 32) + (y 1).val < 5504
  have h1 := xsize7_col t
  have h2 : (y 1).val < win0_7.xsize (grid0.coords t) 1 := (y 1).isLt
  omega

theorem cut8_eq (c : Dev nD) (t : Fin cfg0.N) (X : S32x2816.Idx → EReal)
    (hX : ∀ (b : Fin 32) (j : Fin 2816), gcol t j < 5504 → X (ix2 b j) = outSpec m c 1 t (ix2 b j)) :
    (cfg0.win 8).cut (grid0.coords t) X = (cfg0.win 8).cut (grid0.coords t) ((dats m 0 c).after 8 t) := by
  rw [after_8]
  funext y
  show X (win0_8.xinj (grid0.coords t) y) = outSpec m c 1 t (win0_8.xinj (grid0.coords t) y)
  have hb : (y 0).val < 32 := lt_of_lt_of_le (y 0).isLt (win0_8.xsize_le (grid0.coords t) 0)
  have hj : (y 1).val < 2816 := lt_of_lt_of_le (y 1).isLt (win0_8.xsize_le (grid0.coords t) 1)
  have e : win0_8.xinj (grid0.coords t) y = ix2 (⟨(y 0).val, hb⟩ : Fin 32) (⟨(y 1).val, hj⟩ : Fin 2816) :=
    Shape.idx_ext₂ rfl rfl
  rw [e]
  refine hX _ _ ?_
  show 2816 * (t.val / 32) + (y 1).val < 5504
  have h1 := xsize8_col t
  have h2 : (y 1).val < win0_8.xsize (grid0.coords t) 1 := (y 1).isLt
  omega

/-- The low output as stored at a tile's last point: on the columns inside the arrays, the specified output. -/
theorem out_lo (c : Dev nD) (t : Fin cfg0.N) (h0 : ¬t.val % 32 = 0) (h1 : t.val % 32 = 31) (hp : t.val - 1 < cfg0.N)
    (d1 : S128x2816.Idx → BitVec 32) (d2 : S32x2816.Idx → BitVec 32) (d3 : S32x2816.Idx → EReal) (d5 : S1x2816.Idx → EReal)
    (S : S32x2816.Idx → EReal) (hS : AgreeOn ⟨t.val - 1, hp⟩ S (accSpec m c 0 ⟨t.val - 1, hp⟩))
    (b : Fin 32) (j : Fin 2816) (hJ : gcol t j < 5504) :
    k0_pay4 (F := Ideal) (stepLo (F := Ideal) (grid0.coords t) (iblk m c 0 t) (win0_1.fill (grid0.coords t) d1 (iblk m c 1 t))
        (win0_2.fill (grid0.coords t) d2 (iblk m c 2 t)) (win0_3.fill (grid0.coords t) d3 (iblk m c 3 t)) S)
        (win0_5.fill (grid0.coords t) d5 (iblk m c 5 t)) (ix2 b j)
      = outSpec m c 0 t (ix2 b j) := by
  rw [pay4_apply, agree_step_lo m c t h0 hp d1 d2 d3 S hS b j hJ, x5_read m c t d5 j hJ, outSpec_last m c 0 t h1 b j hJ]

theorem out_hi (c : Dev nD) (t : Fin cfg0.N) (h0 : ¬t.val % 32 = 0) (h1 : t.val % 32 = 31) (hp : t.val - 1 < cfg0.N)
    (d1 : S128x2816.Idx → BitVec 32) (d2 : S32x2816.Idx → BitVec 32) (d4 : S32x2816.Idx → EReal) (d6 : S1x2816.Idx → EReal)
    (S : S32x2816.Idx → EReal) (hS : AgreeOn ⟨t.val - 1, hp⟩ S (accSpec m c 1 ⟨t.val - 1, hp⟩))
    (b : Fin 32) (j : Fin 2816) (hJ : gcol t j < 5504) :
    k0_pay5 (F := Ideal) (stepHi (F := Ideal) (grid0.coords t) (iblk m c 0 t) (win0_1.fill (grid0.coords t) d1 (iblk m c 1 t))
        (win0_2.fill (grid0.coords t) d2 (iblk m c 2 t)) (win0_4.fill (grid0.coords t) d4 (iblk m c 4 t)) S)
        (win0_6.fill (grid0.coords t) d6 (iblk m c 6 t)) (ix2 b j)
      = outSpec m c 1 t (ix2 b j) := by
  rw [pay5_apply, agree_step_hi m c t h0 hp d1 d2 d4 S hS b j hJ, x6_read m c t d6 j hJ, outSpec_last m c 1 t h1 b j hJ]

/-! ## The invariant, opened and closed -/

/-- Before a point that is not the first: the accumulators at contents that agree with the specification of the point
    before. -/
theorem Phi_pos (c : Dev nD) (t : Fin cfg0.N) (hz : t.val ≠ 0) (hp : t.val - 1 < cfg0.N) :
    (dats m 0 c).Φ t.castSucc
      = iprop(iprop(∃ S0 S1 : S32x2816.Idx → EReal,
            ⌜AgreeOn ⟨t.val - 1, hp⟩ S0 (accSpec m c 0 ⟨t.val - 1, hp⟩) ∧ AgreeOn ⟨t.val - 1, hp⟩ S1 (accSpec m c 1 ⟨t.val - 1, hp⟩)⌝
          ∗ owns (c : Thread nD τ) scLo fullShare S0 ∗ owns (c : Thread nD τ) scHi fullShare S1) ∗ (∃ r, prngReg c r)) := by
  rw [Phi_castSucc m c t]
  obtain ⟨n, hn⟩ := t
  cases n with
  | zero => exact absurd rfl hz
  | succ n => rfl

/-- Before any point the accumulators are held at some contents. -/
theorem Phi_any (c : Dev nD) (t : Fin cfg0.N) :
    (dats m 0 c).Φ t.castSucc
      ⊢ iprop(iprop((∃ d, owns (c : Thread nD τ) scLo fullShare d) ∗ (∃ d, owns (c : Thread nD τ) scHi fullShare d)) ∗ (∃ r, prngReg c r)) := by
  by_cases hz : t.val = 0
  · rw [Phi_castSucc m c t, PhiV_zero m c _ _ hz, PhiA_eq]
  · rw [Phi_pos m c t hz (Nat.lt_of_le_of_lt (Nat.sub_le _ _) t.isLt)]
    iintro ⟨⟨%S0, %S1, -, H0, H1⟩, Hg⟩
    isplitr [Hg]
    · isplitl [H0]
      · iexists _; iexact H0
      iexists _; iexact H1
    iexact Hg

/-- After a point: the accumulators at contents that agree with the point's specification. -/
theorem Phi_succ_intro (c : Dev nD) (t : Fin cfg0.N) (S0 S1 : S32x2816.Idx → EReal)
    (h0 : AgreeOn t S0 (accSpec m c 0 t)) (h1 : AgreeOn t S1 (accSpec m c 1 t)) :
    iprop(owns (c : Thread nD τ) scLo fullShare S0 ∗ owns (c : Thread nD τ) scHi fullShare S1 ∗ (∃ r, prngReg c r))
      ⊢ (dats m 0 c).Φ t.succ := by
  rw [show (dats m 0 c).Φ t.succ = PhiV m c (t.val + 1) t.isLt from rfl, PhiV_succ]
  iintro ⟨H0, H1, Hg⟩
  isplitl [H0 H1]
  · iexists S0; iexists S1
    isplitr
    · ipureintro; exact ⟨h0, h1⟩
    isplitl [H0]
    · iexact H0
    iexact H1
  iexact Hg

/-! ## What the obligation asks of each window's buffer -/

/-- A cut window at a point where the body may store into it: its buffer at anything that is the stated contents on
    the moved part. -/
theorem leaves_live_loose (c : Dev nD) (w : Fin cfg0.W) (t : Fin cfg0.N) (hi : cfg0.idle w (grid0.coords t) = false)
    (hl : cfg0.loose w = true) :
    (dats m 0 c).leaves w t
      = iprop(∃ d, owns (c : Thread nD τ) ((cfg0.win w).stage (cfg0.slots t w)) fullShare
          ((cfg0.win w).fill (grid0.coords t) d ((cfg0.win w).cut (grid0.coords t) ((dats m 0 c).after w t)))) := by
  unfold Dat.leaves
  rw [hi, hl]

/-- The activations' window is not cut: its buffer holds its block, as found. -/
theorem give_0 (c : Dev nD) (t : Fin cfg0.N) :
    owns (c : Thread nD τ) (ms0 t) fullShare (iblk m c 0 t) ⊢ (dats m 0 c).leaves 0 t := by
  rw [show (dats m 0 c).leaves 0 t = owns (c : Thread nD τ) (ms0 t) fullShare ((dats m 0 c).after 0 t) from rfl, after_0]

/-- A cut input's buffer handed back as found. -/
theorem give_1 (c : Dev nD) (t : Fin cfg0.N) (d) :
    owns (c : Thread nD τ) (ms1 t) fullShare (win0_1.fill (grid0.coords t) d (iblk m c 1 t)) ⊢ (dats m 0 c).leaves 1 t := by
  rw [leaves_live_loose m c 1 t rfl rfl]
  iintro H
  iexists (win0_1.fill (grid0.coords t) d (iblk m c 1 t))
  rw [← keep_1 m c t d]
  iexact H
theorem give_2 (c : Dev nD) (t : Fin cfg0.N) (d) :
    owns (c : Thread nD τ) (ms2 t) fullShare (win0_2.fill (grid0.coords t) d (iblk m c 2 t)) ⊢ (dats m 0 c).leaves 2 t := by
  rw [leaves_live_loose m c 2 t rfl rfl]
  iintro H
  iexists (win0_2.fill (grid0.coords t) d (iblk m c 2 t))
  rw [← keep_2 m c t d]
  iexact H
theorem give_3 (c : Dev nD) (t : Fin cfg0.N) (d) :
    owns (c : Thread nD τ) (ms3 t) fullShare (win0_3.fill (grid0.coords t) d (iblk m c 3 t)) ⊢ (dats m 0 c).leaves 3 t := by
  rw [leaves_live_loose m c 3 t rfl rfl]
  iintro H
  iexists (win0_3.fill (grid0.coords t) d (iblk m c 3 t))
  rw [← keep_3 m c t d]
  iexact H
theorem give_4 (c : Dev nD) (t : Fin cfg0.N) (d) :
    owns (c : Thread nD τ) (ms4 t) fullShare (win0_4.fill (grid0.coords t) d (iblk m c 4 t)) ⊢ (dats m 0 c).leaves 4 t := by
  rw [leaves_live_loose m c 4 t rfl rfl]
  iintro H
  iexists (win0_4.fill (grid0.coords t) d (iblk m c 4 t))
  rw [← keep_4 m c t d]
  iexact H
theorem give_5 (c : Dev nD) (t : Fin cfg0.N) (d) :
    owns (c : Thread nD τ) (ms5 t) fullShare (win0_5.fill (grid0.coords t) d (iblk m c 5 t)) ⊢ (dats m 0 c).leaves 5 t := by
  rw [leaves_live_loose m c 5 t rfl rfl]
  iintro H
  iexists (win0_5.fill (grid0.coords t) d (iblk m c 5 t))
  rw [← keep_5 m c t d]
  iexact H
theorem give_6 (c : Dev nD) (t : Fin cfg0.N) (d) :
    owns (c : Thread nD τ) (ms6 t) fullShare (win0_6.fill (grid0.coords t) d (iblk m c 6 t)) ⊢ (dats m 0 c).leaves 6 t := by
  rw [leaves_live_loose m c 6 t rfl rfl]
  iintro H
  iexists (win0_6.fill (grid0.coords t) d (iblk m c 6 t))
  rw [← keep_6 m c t d]
  iexact H

/-- Away from a tile's last point an output's buffer is handed back as found. -/
theorem give_idle7 (c : Dev nD) (t : Fin cfg0.N) (hL : ¬condLast (grid0.coords t)) (d) :
    owns (c : Thread nD τ) (ms7 t) fullShare ((dats m 0 c).before 7 t d) ⊢ (dats m 0 c).leaves 7 t := by
  rw [Dat.leaves_idle (dats m 0 c) 7 t (idle7 t hL) (noFlush7 t hL)]
  iintro H
  iexists d
  iexact H
theorem give_idle8 (c : Dev nD) (t : Fin cfg0.N) (hL : ¬condLast (grid0.coords t)) (d) :
    owns (c : Thread nD τ) (ms8 t) fullShare ((dats m 0 c).before 8 t d) ⊢ (dats m 0 c).leaves 8 t := by
  rw [Dat.leaves_idle (dats m 0 c) 8 t (idle8 t hL) (noFlush8 t hL)]
  iintro H
  iexists d
  iexact H

/-- At a tile's last point an output's buffer holding the specified output on the columns inside the arrays is what
    the obligation asks: the write-back moves only those columns. -/
theorem give_last7 (c : Dev nD) (t : Fin cfg0.N) (hL : condLast (grid0.coords t)) (X : S32x2816.Idx → EReal)
    (hX : ∀ (b : Fin 32) (j : Fin 2816), gcol t j < 5504 → X (ix2 b j) = outSpec m c 0 t (ix2 b j)) :
    owns (c : Thread nD τ) (ms7 t) fullShare X ⊢ (dats m 0 c).leaves 7 t := by
  rw [leaves_live_loose m c 7 t (live7 t hL) rfl]
  iintro H
  iexists X
  rw [(cfg0.win 7).fill_congr_cut (grid0.coords t) (cut7_eq m c t X hX)]
  iexact H
theorem give_last8 (c : Dev nD) (t : Fin cfg0.N) (hL : condLast (grid0.coords t)) (X : S32x2816.Idx → EReal)
    (hX : ∀ (b : Fin 32) (j : Fin 2816), gcol t j < 5504 → X (ix2 b j) = outSpec m c 1 t (ix2 b j)) :
    owns (c : Thread nD τ) (ms8 t) fullShare X ⊢ (dats m 0 c).leaves 8 t := by
  rw [leaves_live_loose m c 8 t (live8 t hL) rfl]
  iintro H
  iexists X
  rw [(cfg0.win 8).fill_congr_cut (grid0.coords t) (cut8_eq m c t X hX)]
  iexact H

/-! ## The body obligation, at a generic point -/

/-- What the body is called with at point t (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t
    ∗ (dats m 0 c).leaves 6 t ∗ (dats m 0 c).leaves 7 t ∗ (dats m 0 c).leaves 8 t)

set_option maxHeartbeats 1600000 in
/-- A tile's first point: the accumulators, held at anything, are reset and advanced by the first group; the outputs'
    buffers are handed back as found. -/
theorem sound_first (c : Dev nD) (t : Fin cfg0.N) (h0 : t.val % 32 = 0) :
    bodyPre m c t ⊢ wp frame (wpE (defs₀ (F := Ideal)) Variants.none c none) Set.univ (bodyAt0 t) (fun _ => bodyPost m c t) := by
  have hF : condFirst (grid0.coords t) := (hcondFirst t).mpr h0
  have hL : ¬condLast (grid0.coords t) := fun h => by have := (hcondLast t).mp h; omega
  unfold bodyPre bodyPost bodyAt0
  rw [show (dats m 0 c).owesAt () t.succ = (dats m 0 c).owesAt () t.castSucc from rfl]
  simp only [before_0, before_1, before_2, before_3, before_4, before_5, before_6]
  refine (sep_mono (Phi_any m c t) .rfl).trans ?_
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _) hF hL
    (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) ((dats m 0 c).before 7 t d7) ((dats m 0 c).before 8 t d8) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [HS0]
  · iexact HS0
  isplitl [HS1]
  · iexact HS1
  iintro ⟨H0, H1, H2, H3, H4, H5, H6, H7, H8, HS0, HS1⟩
  isplitl [HS0 HS1 Hg]
  · iapply (Phi_succ_intro m c t _ _ (agree_first_lo m c t h0 d1 d2 d3) (agree_first_hi m c t h0 d1 d2 d4))
    isplitl [HS0]
    · iexact HS0
    isplitl [HS1]
    · iexact HS1
    iexact Hg
  isplitl [Ho]
  · iexact Ho
  isplitl [H0]
  · iapply (give_0 m c t); iexact H0
  isplitl [H1]
  · iapply (give_1 m c t d1); iexact H1
  isplitl [H2]
  · iapply (give_2 m c t d2); iexact H2
  isplitl [H3]
  · iapply (give_3 m c t d3); iexact H3
  isplitl [H4]
  · iapply (give_4 m c t d4); iexact H4
  isplitl [H5]
  · iapply (give_5 m c t d5); iexact H5
  isplitl [H6]
  · iapply (give_6 m c t d6); iexact H6
  isplitl [H7]
  · iapply (give_idle7 m c t hL d7); iexact H7
  iapply (give_idle8 m c t hL d8); iexact H8

set_option maxHeartbeats 1600000 in
/-- A middle point: the accumulators advance from what the invariant says they held; the outputs' buffers are handed
    back as found. -/
theorem sound_mid (c : Dev nD) (t : Fin cfg0.N) (h0 : ¬t.val % 32 = 0) (h1 : ¬t.val % 32 = 31) :
    bodyPre m c t ⊢ wp frame (wpE (defs₀ (F := Ideal)) Variants.none c none) Set.univ (bodyAt0 t) (fun _ => bodyPost m c t) := by
  have hF : ¬condFirst (grid0.coords t) := fun h => h0 ((hcondFirst t).mp h)
  have hL : ¬condLast (grid0.coords t) := fun h => h1 ((hcondLast t).mp h)
  have hz : t.val ≠ 0 := fun h => h0 (by rw [h])
  have hp : t.val - 1 < cfg0.N := Nat.lt_of_le_of_lt (Nat.sub_le _ _) t.isLt
  unfold bodyPre bodyPost bodyAt0
  rw [Phi_pos m c t hz hp]
  rw [show (dats m 0 c).owesAt () t.succ = (dats m 0 c).owesAt () t.castSucc from rfl]
  simp only [before_0, before_1, before_2, before_3, before_4, before_5, before_6]
  iintro ⟨⟨⟨%S0, %S1, %hS, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_mid (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _) hF hL
    (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) ((dats m 0 c).before 7 t d7) ((dats m 0 c).before 8 t d8) S0 S1 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [HS0]
  · iexact HS0
  isplitl [HS1]
  · iexact HS1
  iintro ⟨H0, H1, H2, H3, H4, H5, H6, H7, H8, HS0, HS1⟩
  isplitl [HS0 HS1 Hg]
  · iapply (Phi_succ_intro m c t _ _ (agree_step_lo m c t h0 hp d1 d2 d3 S0 hS.1) (agree_step_hi m c t h0 hp d1 d2 d4 S1 hS.2))
    isplitl [HS0]
    · iexact HS0
    isplitl [HS1]
    · iexact HS1
    iexact Hg
  isplitl [Ho]
  · iexact Ho
  isplitl [H0]
  · iapply (give_0 m c t); iexact H0
  isplitl [H1]
  · iapply (give_1 m c t d1); iexact H1
  isplitl [H2]
  · iapply (give_2 m c t d2); iexact H2
  isplitl [H3]
  · iapply (give_3 m c t d3); iexact H3
  isplitl [H4]
  · iapply (give_4 m c t d4); iexact H4
  isplitl [H5]
  · iapply (give_5 m c t d5); iexact H5
  isplitl [H6]
  · iapply (give_6 m c t d6); iexact H6
  isplitl [H7]
  · iapply (give_idle7 m c t hL d7); iexact H7
  iapply (give_idle8 m c t hL d8); iexact H8

set_option maxHeartbeats 1600000 in
/-- A tile's last point: the accumulators advance once more, and each output's buffer receives accumulator + bias:
    the specified output on the columns inside the arrays. -/
theorem sound_last (c : Dev nD) (t : Fin cfg0.N) (h1 : t.val % 32 = 31) :
    bodyPre m c t ⊢ wp frame (wpE (defs₀ (F := Ideal)) Variants.none c none) Set.univ (bodyAt0 t) (fun _ => bodyPost m c t) := by
  have h0 : ¬t.val % 32 = 0 := by omega
  have hF : ¬condFirst (grid0.coords t) := fun h => h0 ((hcondFirst t).mp h)
  have hL : condLast (grid0.coords t) := (hcondLast t).mpr h1
  have hz : t.val ≠ 0 := fun h => h0 (by rw [h])
  have hp : t.val - 1 < cfg0.N := Nat.lt_of_le_of_lt (Nat.sub_le _ _) t.isLt
  unfold bodyPre bodyPost bodyAt0
  rw [Phi_pos m c t hz hp]
  rw [show (dats m 0 c).owesAt () t.succ = (dats m 0 c).owesAt () t.castSucc from rfl]
  simp only [before_0, before_1, before_2, before_3, before_4, before_5, before_6]
  iintro ⟨⟨⟨%S0, %S1, %hS, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_last (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scLo (Memref.isWhole_whole _) scHi (Memref.isWhole_whole _) hF hL
    (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) S0 S1 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexists _; iexact H7
  isplitl [H8]
  · iexists _; iexact H8
  isplitl [HS0]
  · iexact HS0
  isplitl [HS1]
  · iexact HS1
  iintro ⟨H0, H1, H2, H3, H4, H5, H6, H7, H8, HS0, HS1⟩
  isplitl [HS0 HS1 Hg]
  · iapply (Phi_succ_intro m c t _ _ (agree_step_lo m c t h0 hp d1 d2 d3 S0 hS.1) (agree_step_hi m c t h0 hp d1 d2 d4 S1 hS.2))
    isplitl [HS0]
    · iexact HS0
    isplitl [HS1]
    · iexact HS1
    iexact Hg
  isplitl [Ho]
  · iexact Ho
  isplitl [H0]
  · iapply (give_0 m c t); iexact H0
  isplitl [H1]
  · iapply (give_1 m c t d1); iexact H1
  isplitl [H2]
  · iapply (give_2 m c t d2); iexact H2
  isplitl [H3]
  · iapply (give_3 m c t d3); iexact H3
  isplitl [H4]
  · iapply (give_4 m c t d4); iexact H4
  isplitl [H5]
  · iapply (give_5 m c t d5); iexact H5
  isplitl [H6]
  · iapply (give_6 m c t d6); iexact H6
  isplitl [H7]
  · iapply (give_last7 m c t hL _ (out_lo m c t h0 h1 hp d1 d2 d3 d5 S0 hS.1)); iexact H7
  iapply (give_last8 m c t hL _ (out_hi m c t h0 h1 hp d1 d2 d4 d6 S1 hS.2)); iexact H8

/-- The body at any point: by the point's place in its tile. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 32 = 0
  · exact sound_first m c t h0
  · by_cases h1 : t.val % 32 = 31
    · exact sound_last m c t h1
    · exact sound_mid m c t h0 h1

/-- The library's body obligation (its loose form: a cut window's buffer is described on the moved part only). -/
theorem body_obligation (c : Dev nD) :
    Pipeline.BodyObligationLoose (dats m 0 c) (defs₀ (F := Ideal)) Variants.none () Set.univ := by
  intro t
  rw [bigSep_W0, bigSep_W0]
  exact sound_body m c t

end Cert.KernelIdeal.KProof

end
-- ==== Proof.KFinal.lean ====
/-
  The kernel's result array from the run's final state.

  The two output arrays (5504 packed columns each) are written back one column tile at a time, at the tile's last
  point; the second tile's write-back is cut at the arrays' end. The flushed parts of the two tiles cover each array,
  and each flushed element is the kernel's value there, so output array h ends holding kOutAt … b J h at (b, J). The
  host operations after the region interleave the two arrays: the result at (b, 0, n) is output array n % 2 at
  (b, n / 2), which is Cert.Spec.kOut.
-/
import proofs.«407691_j14783277433034_1_alg».proof.Proof.KData
import proofs.«407691_j14783277433034_1_alg».proof.Proof.KBlocks
import Idealize.ShloMosaic.Lib.Pipeline.Value
import Idealize.ShloMosaic.Lib.ValueLayout

set_option maxRecDepth 16384

noncomputable section

open scoped BigOperators

namespace Cert.KernelIdeal.KProof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The kernel's value depends on the row, the packed column and the parity only through their values. -/
theorem kOutAt_congr (x : Cert.Spec.SX.Idx → EReal) (qw : Cert.Spec.SQW.Idx → BitVec 32) (sc : Cert.Spec.SSC.Idx → EReal)
    (qz : Cert.Spec.SQZ.Idx → BitVec 32) (bias : Cert.Spec.SB.Idx → EReal)
    {b b' : Fin 32} {J J' : Fin 5504} {h h' : Fin 2} (hb : b.val = b'.val) (hJ : J.val = J'.val) (hh : h.val = h'.val) :
    Cert.Spec.kOutAt x qw sc qz bias b J h = Cert.Spec.kOutAt x qw sc qz bias b' J' h' := by
  obtain rfl : b = b' := Fin.ext hb
  obtain rfl : J = J' := Fin.ext hJ
  obtain rfl : h = h' := Fin.ext hh
  rfl

/-- What output array h ends holding: the kernel's value at each row and packed column. -/
abbrev GOut (c : Dev nD) (h : Fin 2) : S32x5504.Idx → EReal :=
  fun y => Cert.Spec.kOutAt (aX m c) (aQW m c) (aSC m c) (aQZ m c) (aB m c) (y 0) (y 1) h

/-! ## Output array of parity 0 (window 7) -/

/-- Window 7's block index at point t is (0, t / 32); a block holds all 32 rows, and its columns are the tile's 2816
    cut at the arrays' end: they stop at column min (2816 · (t / 32 + 1)) 5504. -/
theorem idx_facts7 : ∀ t : Fin cfg0.N, win0_7.index t (0 : Fin 2) = 0 ∧ win0_7.xsize (grid0.coords t) (0 : Fin 2) = 32
    ∧ win0_7.index t (1 : Fin 2) = t.val / 32
    ∧ win0_7.index t (1 : Fin 2) * 2816 + win0_7.xsize (grid0.coords t) (1 : Fin 2) = min (2816 * (t.val / 32 + 1)) 5504 :=
  (by decide +kernel : ∀ t : Fin grid0.N, win0_7.index t (0 : Fin 2) = 0 ∧ win0_7.xsize (grid0.coords t) (0 : Fin 2) = 32
    ∧ win0_7.index t (1 : Fin 2) = t.val / 32
    ∧ win0_7.index t (1 : Fin 2) * 2816 + win0_7.xsize (grid0.coords t) (1 : Fin 2) = min (2816 * (t.val / 32 + 1)) 5504)

/-- What point t writes back is its (cut) block of the kernel's value: a column of the cut block lies inside the
    arrays, so the stored block is the kernel's value there, and the block's element (r, j) is the array's element
    (r, 2816 · (t / 32) + j). -/
theorem flushed7_eq (c : Dev nD) (t : Fin cfg0.N) :
    (dats m 0 c).flushed 7 t = ((cfg0.win 7).blk t).view.read (Elt Ideal) (GOut m c 0) := by
  show (cfg0.win 7).cut (grid0.coords t) ((dats m 0 c).after 7 t) = _
  rw [after_7]
  obtain ⟨e0, e1, e2, e3⟩ := idx_facts7 t
  funext y
  have hy1 : (y 1).val < win0_7.xsize (grid0.coords t) (1 : Fin 2) := (y 1).isLt
  show outSpec m c 0 t (win0_7.xinj (grid0.coords t) y) = GOut m c 0 (((cfg0.win 7).blk t).view.emb y)
  have hJ : gcol t ((win0_7.xinj (grid0.coords t) y) 1) < 5504 := by
    show 2816 * (t.val / 32) + (y 1).val < 5504
    omega
  refine Eq.trans (dif_pos hJ) ?_
  refine kOutAt_congr _ _ _ _ _ ?_ ?_ rfl
  · show (y 0).val = win0_7.index t (0 : Fin 2) * 32 + 1 * (y 0).val
    omega
  · show 2816 * (t.val / 32) + (y 1).val = win0_7.index t (1 : Fin 2) * 2816 + 1 * (y 1).val
    omega

/-- An element of the array lies in point t's block iff each coordinate lies in the block's range on its axis. -/
theorem mem_blk7 (t : Fin cfg0.N) (i : S32x5504.Idx) :
    i ∈ ((cfg0.win 7).blk t).view.set ↔ ∀ a : Fin 2, win0_7.index t a * S32x2816.size a ≤ (i a).val
      ∧ (i a).val < win0_7.index t a * S32x2816.size a + win0_7.xsize (grid0.coords t) a := by
  show i ∈ ((View.whole main_v13_0).slice (win0_7.rect t)).set ↔ _
  rw [View.set_slice_whole, Rect.mem_set_unit]
  exact Iff.rfl

/-- Every element (r, J) of the array lies in the block written back at the last point of column tile J / 2816. -/
theorem cover7 (i : S32x5504.Idx) :
    ∃ t : Fin cfg0.N, (cfg0.win 7).flush t = true ∧ i ∈ ((cfg0.win 7).blk t).view.set := by
  have hi0 : (i 0).val < 32 := (i 0).isLt
  have hi1 : (i 1).val < 5504 := (i 1).isLt
  obtain ⟨t, ht⟩ : ∃ t : Fin cfg0.N, t.val = 32 * ((i 1).val / 2816) + 31 :=
    ⟨⟨32 * ((i 1).val / 2816) + 31, by rw [show cfg0.N = 64 from N_0]; omega⟩, rfl⟩
  obtain ⟨e0, e1, e2, e3⟩ := idx_facts7 t
  refine ⟨t, (flush0_7 t).mpr (by omega), ?_⟩
  rw [mem_blk7]
  intro a
  match a with
  | ⟨0, _⟩ =>
    show win0_7.index t (0 : Fin 2) * 32 ≤ (i 0).val ∧ (i 0).val < win0_7.index t (0 : Fin 2) * 32 + win0_7.xsize (grid0.coords t) (0 : Fin 2)
    omega
  | ⟨1, _⟩ =>
    show win0_7.index t (1 : Fin 2) * 2816 ≤ (i 1).val ∧ (i 1).val < win0_7.index t (1 : Fin 2) * 2816 + win0_7.xsize (grid0.coords t) (1 : Fin 2)
    omega

/-- The low-nibble output array after the run. -/
theorem arr7_final (c : Dev nD) :
    ((dats m 0 c).arrAt 7 cfg0.N : S32x5504.Idx → EReal)
      = fun y => Cert.Spec.kOutAt (aX m c) (aQW m c) (aSC m c) (aQZ m c) (aB m c) (y 0) (y 1) 0 :=
  (dats m 0 c).arrAt_eq_of_cover 7 (GOut m c 0) (fun t _ => flushed7_eq m c t) cover7

/-! ## Output array of parity 1 (window 8) -/

/-- Window 8's block index at point t is (0, t / 32); a block holds all 32 rows, and its columns are the tile's 2816
    cut at the arrays' end: they stop at column min (2816 · (t / 32 + 1)) 5504. -/
theorem idx_facts8 : ∀ t : Fin cfg0.N, win0_8.index t (0 : Fin 2) = 0 ∧ win0_8.xsize (grid0.coords t) (0 : Fin 2) = 32
    ∧ win0_8.index t (1 : Fin 2) = t.val / 32
    ∧ win0_8.index t (1 : Fin 2) * 2816 + win0_8.xsize (grid0.coords t) (1 : Fin 2) = min (2816 * (t.val / 32 + 1)) 5504 :=
  (by decide +kernel : ∀ t : Fin grid0.N, win0_8.index t (0 : Fin 2) = 0 ∧ win0_8.xsize (grid0.coords t) (0 : Fin 2) = 32
    ∧ win0_8.index t (1 : Fin 2) = t.val / 32
    ∧ win0_8.index t (1 : Fin 2) * 2816 + win0_8.xsize (grid0.coords t) (1 : Fin 2) = min (2816 * (t.val / 32 + 1)) 5504)

/-- What point t writes back is its (cut) block of the kernel's value: a column of the cut block lies inside the
    arrays, so the stored block is the kernel's value there, and the block's element (r, j) is the array's element
    (r, 2816 · (t / 32) + j). -/
theorem flushed8_eq (c : Dev nD) (t : Fin cfg0.N) :
    (dats m 0 c).flushed 8 t = ((cfg0.win 8).blk t).view.read (Elt Ideal) (GOut m c 1) := by
  show (cfg0.win 8).cut (grid0.coords t) ((dats m 0 c).after 8 t) = _
  rw [after_8]
  obtain ⟨e0, e1, e2, e3⟩ := idx_facts8 t
  funext y
  have hy1 : (y 1).val < win0_8.xsize (grid0.coords t) (1 : Fin 2) := (y 1).isLt
  show outSpec m c 1 t (win0_8.xinj (grid0.coords t) y) = GOut m c 1 (((cfg0.win 8).blk t).view.emb y)
  have hJ : gcol t ((win0_8.xinj (grid0.coords t) y) 1) < 5504 := by
    show 2816 * (t.val / 32) + (y 1).val < 5504
    omega
  refine Eq.trans (dif_pos hJ) ?_
  refine kOutAt_congr _ _ _ _ _ ?_ ?_ rfl
  · show (y 0).val = win0_8.index t (0 : Fin 2) * 32 + 1 * (y 0).val
    omega
  · show 2816 * (t.val / 32) + (y 1).val = win0_8.index t (1 : Fin 2) * 2816 + 1 * (y 1).val
    omega

/-- An element of the array lies in point t's block iff each coordinate lies in the block's range on its axis. -/
theorem mem_blk8 (t : Fin cfg0.N) (i : S32x5504.Idx) :
    i ∈ ((cfg0.win 8).blk t).view.set ↔ ∀ a : Fin 2, win0_8.index t a * S32x2816.size a ≤ (i a).val
      ∧ (i a).val < win0_8.index t a * S32x2816.size a + win0_8.xsize (grid0.coords t) a := by
  show i ∈ ((View.whole main_v13_1).slice (win0_8.rect t)).set ↔ _
  rw [View.set_slice_whole, Rect.mem_set_unit]
  exact Iff.rfl

/-- Every element (r, J) of the array lies in the block written back at the last point of column tile J / 2816. -/
theorem cover8 (i : S32x5504.Idx) :
    ∃ t : Fin cfg0.N, (cfg0.win 8).flush t = true ∧ i ∈ ((cfg0.win 8).blk t).view.set := by
  have hi0 : (i 0).val < 32 := (i 0).isLt
  have hi1 : (i 1).val < 5504 := (i 1).isLt
  obtain ⟨t, ht⟩ : ∃ t : Fin cfg0.N, t.val = 32 * ((i 1).val / 2816) + 31 :=
    ⟨⟨32 * ((i 1).val / 2816) + 31, by rw [show cfg0.N = 64 from N_0]; omega⟩, rfl⟩
  obtain ⟨e0, e1, e2, e3⟩ := idx_facts8 t
  refine ⟨t, (flush0_8 t).mpr (by omega), ?_⟩
  rw [mem_blk8]
  intro a
  match a with
  | ⟨0, _⟩ =>
    show win0_8.index t (0 : Fin 2) * 32 ≤ (i 0).val ∧ (i 0).val < win0_8.index t (0 : Fin 2) * 32 + win0_8.xsize (grid0.coords t) (0 : Fin 2)
    omega
  | ⟨1, _⟩ =>
    show win0_8.index t (1 : Fin 2) * 2816 ≤ (i 1).val ∧ (i 1).val < win0_8.index t (1 : Fin 2) * 2816 + win0_8.xsize (grid0.coords t) (1 : Fin 2)
    omega

/-- The high-nibble output array after the run. -/
theorem arr8_final (c : Dev nD) :
    ((dats m 0 c).arrAt 8 cfg0.N : S32x5504.Idx → EReal)
      = fun y => Cert.Spec.kOutAt (aX m c) (aQW m c) (aSC m c) (aQZ m c) (aB m c) (y 0) (y 1) 1 :=
  (dats m 0 c).arrAt_eq_of_cover 8 (GOut m c 1) (fun t _ => flushed8_eq m c t) cover8

/-! ## The host operations after the region -/

/-- The five host operations after the region, as one function of the two output arrays: each array gets a trailing
    unit axis, the two are joined along it, the last two axes are merged, and a unit axis is put in the middle. -/
def interleave (lo hi : S32x5504.Idx → EReal) : S32x1x11008.Idx → EReal :=
  broadcastInDim (α := EReal) S32x1x11008 ![0, 2] bcast_S32x11008_S32x1x11008_0_2
    (shapeCast S32x11008
      (concatenate S32x5504x2 2 [⟨S32x5504x1, broadcastInDim S32x5504x1 ![0, 1] bcast_S32x5504_S32x5504x1_0_1 lo⟩,
                                  ⟨S32x5504x1, broadcastInDim S32x5504x1 ![0, 1] bcast_S32x5504_S32x5504x1_0_1 hi⟩]
        concatenates_S32x5504x1_S32x5504x1_S32x5504x2_d2)
      shapeCasts_S32x5504x2_S32x11008)

/-- The result at (b, 0, n) is the array of parity n % 2 at (b, n / 2): column n of the merged axis is position
    2 · (n / 2) + n % 2 of the pair of axes (5504, 2), and position n % 2 of the joined axis is the first array's for 0
    and the second's for 1. -/
theorem interleave_apply (lo hi : S32x5504.Idx → EReal) (b : Fin 32) (n : Fin 11008) :
    interleave lo hi (ix3 b (0 : Fin 1) n)
      = if n.val % 2 = 0 then lo (ix2 b (Cert.Spec.packOf n)) else hi (ix2 b (Cert.Spec.packOf n)) := by
  have hn : n.val < 11008 := n.isLt
  unfold interleave
  refine (broadcastInDim_apply _ _ _ (ix3 b (0 : Fin 1) n) (ix2 b n) (fun a => ?_)).trans ?_
  · match a with
    | ⟨0, _⟩ => rfl
    | ⟨1, _⟩ => rfl
  refine (shapeCast_apply _ _ (ix2 b n) (ix3 b (Cert.Spec.packOf n) (Cert.Spec.parOf n)) ?_).trans ?_
  · rw [Shape.rowMajor_val_three, Shape.rowMajor_val_two]
    show (b.val * 5504 + n.val / 2) * 2 + n.val % 2 = b.val * 11008 + n.val
    omega
  by_cases h : n.val % 2 = 0
  · rw [if_pos h]
    refine (concatenate_pair_apply_left (s₁ := S32x5504x1) (s₂ := S32x5504x1) (2 : Fin 3) _ _ _ (ix3 b (Cert.Spec.packOf n) (Cert.Spec.parOf n)) rfl
      (ix3 b (Cert.Spec.packOf n) (0 : Fin 1)) (fun a => ?_)).trans ?_
    · match a with
      | ⟨0, _⟩ => rfl
      | ⟨1, _⟩ => rfl
      | ⟨2, _⟩ => exact h.symm
    refine broadcastInDim_apply _ _ lo (ix3 b (Cert.Spec.packOf n) (0 : Fin 1)) (ix2 b (Cert.Spec.packOf n)) (fun a => ?_)
    match a with
    | ⟨0, _⟩ => rfl
    | ⟨1, _⟩ => rfl
  · rw [if_neg h]
    refine (concatenate_pair_apply_right (s₁ := S32x5504x1) (s₂ := S32x5504x1) (2 : Fin 3) _ _ _ (ix3 b (Cert.Spec.packOf n) (Cert.Spec.parOf n)) rfl rfl
      (ix3 b (Cert.Spec.packOf n) (0 : Fin 1)) (fun a ha => ?_) ?_).trans ?_
    · match a, ha with
      | ⟨0, _⟩, _ => rfl
      | ⟨1, _⟩, _ => rfl
      | ⟨2, _⟩, ha => exact absurd rfl ha
    · show 0 + 1 = n.val % 2
      omega
    refine broadcastInDim_apply _ _ hi (ix3 b (Cert.Spec.packOf n) (0 : Fin 1)) (ix2 b (Cert.Spec.packOf n)) (fun a => ?_)
    match a with
    | ⟨0, _⟩ => rfl
    | ⟨1, _⟩ => rfl

/-- The two output arrays interleaved are the kernel's result array. -/
theorem interleave_GOut (c : Dev nD) :
    interleave (GOut m c 0) (GOut m c 1) = Cert.Spec.kOut (aX m c) (aQW m c) (aSC m c) (aQZ m c) (aB m c) := by
  funext i
  obtain ⟨b, u, n, rfl⟩ : ∃ (b : Fin 32) (u : Fin 1) (n : Fin 11008), i = ix3 b u n := ⟨i 0, i 1, i 2, eq_ix3 i⟩
  obtain rfl : u = 0 := Subsingleton.elim _ _
  rw [interleave_apply]
  unfold Cert.Spec.kOut
  by_cases h : n.val % 2 = 0
  · rw [if_pos h]
    exact kOutAt_congr _ _ _ _ _ rfl rfl h.symm
  · rw [if_neg h]
    refine kOutAt_congr _ _ _ _ _ rfl rfl ?_
    show 1 = n.val % 2
    omega

/-- The result buffer after the host operations that follow the region. -/
theorem tail_value (c : Dev nD) :
    (Pipeline.afterTail₀ cfgs (dats m) 0 (V0 m) [hostOps1] c main_v18 : S32x1x11008.Idx → EReal)
      = Cert.Spec.kOut (aX m c) (aQW m c) (aSC m c) (aQZ m c) (aB m c) := by
  unfold Pipeline.afterTail₀
  show StableHlo.after hostOps1 _ (Proc.devRef .tc main_v18) = _
  after_results
  -- the region leaves each output array at what the run's last write-back left there
  have e7 : (Pipeline.withArrays (cfgs 0).spec c (V0 m c) (fun w => (dats m 0 c).arrAt w (cfgs 0).N)
      (Proc.devRef .tc main_v13_0) : S32x5504.Idx → EReal) = GOut m c 0 :=
    (Pipeline.withArrays_arr spec0 launch0.win.arr_inj c _ _ 7).trans (arr7_final m c)
  have e8 : (Pipeline.withArrays (cfgs 0).spec c (V0 m c) (fun w => (dats m 0 c).arrAt w (cfgs 0).N)
      (Proc.devRef .tc main_v13_1) : S32x5504.Idx → EReal) = GOut m c 1 :=
    (Pipeline.withArrays_arr spec0 launch0.win.arr_inj c _ _ 8).trans (arr8_final m c)
  show interleave
    (Pipeline.withArrays (cfgs 0).spec c (V0 m c) (fun w => (dats m 0 c).arrAt w (cfgs 0).N) (Proc.devRef .tc main_v13_0))
    (Pipeline.withArrays (cfgs 0).spec c (V0 m c) (fun w => (dats m 0 c).arrAt w (cfgs 0).N) (Proc.devRef .tc main_v13_1)) = _
  rw [e7, e8]
  exact interleave_GOut m c

end Cert.KernelIdeal.KProof

end
-- ==== Proof.KValue.lean ====
/-
  The kernel's run at the exact instance, to its value: every weakly fair execution of @main terminates, the result
  buffer ends holding Cert.Spec.kOut of the five arguments (the accumulated contraction plus the bias, the two nibble
  streams interleaved), and the arguments are unchanged.

  The region's invariant starts as the class's (the accumulators at anything) and ends by forgetting what the
  accumulators hold. The run is the library's frame run around the region for proof data whose invariant tracks a
  scratch; its post gives every array of the pipeline at what the write-backs left and every other buffer at what the
  host operations after the region computed from those.
-/
import proofs.«407691_j14783277433034_1_alg».proof.Proof.KData
import proofs.«407691_j14783277433034_1_alg».proof.Proof.KBody
import proofs.«407691_j14783277433034_1_alg».proof.Proof.KFinal

set_option maxRecDepth 16384

noncomputable section

open scoped BigOperators

namespace Cert.KernelIdeal.KProof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiV m c 0 (Nat.zero_le _) from rfl, PhiV_zero m c 0 _ rfl]

/-- After the last point the invariant gives the class's back: what the accumulators hold is forgotten. -/
theorem hout (c : Dev nD) : (dats m 0 c).Φ (Fin.last cfg0.N) ⊢ Pipeline.ΦA spec0 c := by
  rw [show (dats m 0 c).Φ (Fin.last cfg0.N) = PhiV m c (63 + 1) (by decide) from rfl, PhiV_succ, PhiA_eq]
  iintro ⟨⟨%S0, %S1, -, H0, H1⟩, Hg⟩
  isplitl [H0 H1]
  · isplitl [H0]
    · iexists _; iexact H0
    · iexists _; iexact H1
  iexact Hg

set_option backward.isDefEq.respectTransparency.types false in
/-- The frame run with the exact proof data: every array of the pipeline ends at what the library computes from the
    proof data, every other buffer as the host operations after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE VALUE RUN: the result is Cert.Spec.kOut of the arguments, which are unchanged. -/
theorem run_value : θ_run defs (onTc (τ := τ) (main (F := Ideal))) ⟨m, fun _ => 0, ρ⟩ (fun r => ∀ c : Dev nD,
      r.2.mem ((c.tc : Thread nD τ).loc main_v18) = Cert.Spec.kOut (aX m c) (aQW m c) (aSC m c) (aQZ m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v18 (Pipeline.mem_restRefs_of main_v18 (by decide) (by decide))).trans (tail_value m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c))⟩)
    (run_main m ρ)

end Cert.KernelIdeal.KProof

end
-- ==== Proof.RefValue.lean ====
/-
  The reference's term is the specification: read at an output index (b, 0, n), the composed operations of the
  reference give the sum over the 4096 input channels of input · (value − zero point) · scale, plus the bias.

  The steps, one per stage that is not pointwise:
  • the group index: for a channel number k below 4096 the floored quotient by 128, as the callee spells it (the
    truncated quotient, lowered by one only when the signs differ and the remainder is not zero), is k / 128 — the
    dividend is not negative, so no corner of signed division is met and the lowering never applies —, and the
    quotient, not being negative, is kept as it is;
  • the gather: result (k, n) reads the operand at the row its start index names — read signed and clamped into
    0..31, which for k / 128 changes nothing — and at column n;
  • the unpacking: a reshape of [R, 5504, 2] to [R, 11008] reads (r, n) at (r, n / 2, n % 2) in row-major order, the
    concatenation along the last axis reads its first piece at parity 0 and its second at parity 1, and each piece is a
    plane of nibbles given a trailing unit axis; the arithmetic shift by four is inside the word;
  • the contraction: one contracted axis, re-indexed by its one coordinate;
  • the bias: broadcast over the batch rows.
  At the ideal values an integer converted to a float is the integer read signed, as a real.
-/
import proofs.«407691_j14783277433034_1_alg».proof.Proof.RefTerm
import proofs.«407691_j14783277433034_1_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

variable [Cert.ReferenceIdeal.Facts]

/-! ## The group index -/

/-- The sign of a word as the callee computes it: 0 for zero, −1 for a negative word, 1 otherwise. -/
def sgnW (x : BitVec 32) : BitVec 32 := if x = 0 then 0 else if x.msb then -1 else 1

/-- Signed division of a channel number by 128 meets no corner and is the quotient of the numbers. -/
theorem divsi_128 (n : ℕ) (hn : n < 4096) :
    IntOp.divsi .host (BitVec.ofNat 32 n) 128#32 = BitVec.ofNat 32 (n / 128) := by
  have hcorner : ¬ IntOp.SDivCorner (BitVec.ofNat 32 n) 128#32 := by
    intro hc; rcases hc with hc | ⟨_, hc⟩ <;> exact absurd hc (by decide)
  have hm : (BitVec.ofNat 32 n).msb = false :=
    BitVec.msb_eq_false_iff_two_mul_lt.mpr (by simp only [BitVec.toNat_ofNat]; omega)
  apply BitVec.eq_of_toNat_eq
  simp only [IntOp.divsi, if_neg hcorner, BitVec.sdiv_eq, hm, show (128#32 : BitVec 32).msb = false from by decide,
    BitVec.udiv_eq, BitVec.toNat_udiv, BitVec.toNat_ofNat, Nat.reducePow, Nat.reduceMod]
  omega

/-- The sign of a positive channel number is 1. -/
theorem sgnW_pos (n : ℕ) (h0 : 0 < n) (hn : n < 4096) : sgnW (BitVec.ofNat 32 n) = 1 := by
  have hne : BitVec.ofNat 32 n ≠ 0 := by
    intro h
    have h1 := congrArg BitVec.toNat h
    rw [BitVec.toNat_ofNat, show (0 : BitVec 32).toNat = 0 from rfl] at h1
    omega
  have hm : (BitVec.ofNat 32 n).msb = false :=
    BitVec.msb_eq_false_iff_two_mul_lt.mpr (by simp only [BitVec.toNat_ofNat]; omega)
  unfold sgnW
  rw [if_neg hne, hm]
  rfl

/-- The floored quotient as the callee spells it, on a channel number and 128: the truncated quotient, since the
    dividend is not negative. -/
theorem floorDiv_128 (n : ℕ) (hn : n < 4096) :
    Scalar.select
      (IntOp.andi (IntOp.cmpi .ne (sgnW (BitVec.ofNat 32 n)) (sgnW 128#32))
        (IntOp.cmpi .ne (IntOp.remsi .host (BitVec.ofNat 32 n) 128#32) 0#32))
      (IntOp.subi (IntOp.divsi .host (BitVec.ofNat 32 n) 128#32) 1#32)
      (IntOp.divsi .host (BitVec.ofNat 32 n) 128#32) = BitVec.ofNat 32 (n / 128) := by
  rcases Nat.eq_zero_or_pos n with h0 | h0
  · subst h0; decide
  · rw [sgnW_pos n h0 hn, show sgnW 128#32 = 1 from by decide,
      show IntOp.cmpi .ne (1 : BitVec 32) 1 = 0#1 from by decide]
    rw [show ∀ y : BitVec 1, IntOp.andi 0#1 y = 0#1 from fun y => BitVec.zero_and, select_zero]
    exact divsi_128 n hn

/-- The callee's result at channel k is k / 128. -/
theorem gidxRaw_apply (k : Fin 4096) : RefTerm.gidxRaw (ix1 k) = BitVec.ofNat 32 (k.val / 128) :=
  floorDiv_128 k.val k.isLt

/-- The quotient is not negative, so it is kept: the group index of channel k is k / 128. -/
theorem gidx_apply (k : Fin 4096) : RefTerm.gidx (ix1 k) = BitVec.ofNat 32 (k.val / 128) := by
  have hlt : k.val / 128 < 2 ^ 31 := by have := k.isLt; omega
  have hc : IntOp.cmpi .slt (BitVec.ofNat 32 (k.val / 128)) 0#32 = 0#1 := by
    apply eq_zero_of_ne_one
    intro h
    have := (StableHlo.Predicate.slt_ofNat_iff (k.val / 128) 0 hlt (by decide)).mp h
    omega
  show Scalar.select (IntOp.cmpi .slt (RefTerm.gidxRaw (ix1 k)) 0#32) (IntOp.addi (RefTerm.gidxRaw (ix1 k)) 32#32)
    (RefTerm.gidxRaw (ix1 k)) = _
  rw [gidxRaw_apply, hc, select_zero]

/-! ## The gather of a group's row -/

/-- The gather's dimension numbers: operand [32, 11008], start indices [4096, 1], result [4096, 11008]; the operand's
    row axis is collapsed and indexed, its column axis is the result's offset axis. -/
abbrev GD : GatherDims S32x11008 S4096x1 S4096x11008 := gather_S32x11008_S4096x1_S4096x11008_1_0_n_n_0_1_111008

/-- On the row axis the gather reads the start index of result row k, signed, clamped into 0..31. -/
theorem gather_row {w : Nat} (k : Fin 4096) (n : Fin 11008) (idx : IVec S4096x1 w) :
    (GD.operandIdx (ix2 k n) idx 0).val = min (idx (ix2 k (0 : Fin 1))).toInt.toNat 31 := by
  show GD.start (ix2 k n) idx 0 + GD.batchCoord (ix2 k n) 0 + GD.offCoord (ix2 k n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S32x11008.rank) ∈ GD.startIndexMap from List.mem_singleton.mpr rfl)]
  have hsi : GD.siIdx (ix2 k n) ⟨List.idxOf (0 : Fin S32x11008.rank) GD.startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- On the column axis the gather reads the result's own column. -/
theorem gather_col {w : Nat} (k : Fin 4096) (n : Fin 11008) (idx : IVec S4096x1 w) :
    (GD.operandIdx (ix2 k n) idx 1).val = n.val := by
  show GD.start (ix2 k n) idx 1 + GD.batchCoord (ix2 k n) 1 + GD.offCoord (ix2 k n) 1 = _
  rw [GatherDims.batchCoord_eq_zero _ _ _ List.not_mem_nil]
  unfold GatherDims.start
  rw [dif_neg (show ¬(1 : Fin S32x11008.rank) ∈ GD.startIndexMap from
    fun h => absurd (List.mem_singleton.mp h) (by decide))]
  unfold GatherDims.offCoord
  rw [dif_pos (show (1 : Fin S32x11008.rank) ∈ GD.sKept from
    (GatherDims.mem_sKept _ _).mpr ⟨fun h => absurd (List.mem_singleton.mp h) (by decide), List.not_mem_nil⟩)]
  simp only [Nat.zero_add]
  rfl

/-- THE GATHER READ AT (k, n): the operand at the row the start index of k names (read signed, clamped into 0..31)
    and at column n. -/
theorem gather_apply {α : Type} {w : Nat} (x : S32x11008.Idx → α) (idx : IVec S4096x1 w) (k : Fin 4096) (n : Fin 11008) :
    Host.gather GD x idx (ix2 k n)
      = x (ix2 (⟨min (idx (ix2 k (0 : Fin 1))).toInt.toNat 31, by omega⟩ : Fin 32) n) := by
  unfold Host.gather
  refine congrArg x (funext fun a => Fin.ext ?_)
  match a with
  | ⟨0, _⟩ => exact gather_row k n idx
  | ⟨1, _⟩ => exact gather_col k n idx

/-- The index array as the gathers take it: the group index as a column. -/
theorem gidxCol_apply (k : Fin 4096) :
    broadcastInDim S4096x1 ![0] bcast_S4096_S4096x1_0 RefTerm.gidx (ix2 k (0 : Fin 1)) = BitVec.ofNat 32 (k.val / 128) := by
  refine (broadcastInDim_apply _ _ _ (ix2 k (0 : Fin 1)) (ix1 k) (fun a => ?_)).trans (gidx_apply k)
  match a with
  | ⟨0, _⟩ => rfl

/-- A row gathered by the group index is the row of the channel's group. -/
theorem gather_gidx_apply {α : Type} (x : S32x11008.Idx → α) (k : Fin 4096) (n : Fin 11008) :
    Host.gather GD x (broadcastInDim S4096x1 ![0] bcast_S4096_S4096x1_0 RefTerm.gidx) (ix2 k n)
      = x (ix2 (Cert.Spec.grpOf k) n) := by
  rw [gather_apply, ]
  refine congrArg x (congrArg (fun g : Fin 32 => ix2 g n) (Fin.ext ?_))
  show min (broadcastInDim S4096x1 ![0] bcast_S4096_S4096x1_0 RefTerm.gidx (ix2 k (0 : Fin 1))).toInt.toNat 31 = k.val / 128
  rw [gidxCol_apply, StableHlo.Predicate.toInt_ofNat_small _ (by have := k.isLt; omega)]
  have := k.isLt
  simp only [Int.toNat_natCast]
  omega

/-! ## Unpacking: two nibble planes laid side by side, the pair axis merged into the columns -/

/-- Two arrays [R, 5504], each given a trailing unit axis, concatenated along it and reshaped to [R, 11008], read at
    (r, n): the first array at (r, n / 2) when n is even, the second when n is odd. -/
theorem interleave_apply {α : Type} (R : ℕ) (a b : (⟨2, ![R, 5504]⟩ : Shape).Idx → α)
    (hb : (⟨2, ![R, 5504]⟩ : Shape).BroadcastsInDim ⟨3, ![R, 5504, 1]⟩
      (![0, 1] : Fin 2 → Fin (⟨3, ![R, 5504, 1]⟩ : Shape).rank))
    (hc : Shape.Concatenates [(⟨3, ![R, 5504, 1]⟩ : Shape), ⟨3, ![R, 5504, 1]⟩] ⟨3, ![R, 5504, 2]⟩ 2)
    (hs : (⟨3, ![R, 5504, 2]⟩ : Shape).ShapeCasts ⟨2, ![R, 11008]⟩)
    (r : Fin R) (n : Fin 11008) :
    shapeCast ⟨2, ![R, 11008]⟩
      (concatenate ⟨3, ![R, 5504, 2]⟩ 2
        [⟨⟨3, ![R, 5504, 1]⟩, broadcastInDim ⟨3, ![R, 5504, 1]⟩ ![0, 1] hb a⟩,
         ⟨⟨3, ![R, 5504, 1]⟩, broadcastInDim ⟨3, ![R, 5504, 1]⟩ ![0, 1] hb b⟩] hc) hs (ix2 r n)
      = if n.val % 2 = 0 then a (ix2 r (Cert.Spec.packOf n)) else b (ix2 r (Cert.Spec.packOf n)) := by
  have hn := n.isLt
  have hr := r.isLt
  have hJ : (Cert.Spec.packOf n).val = n.val / 2 := rfl
  -- the reshape: (r, n) is (r, n / 2, n % 2) in row-major order
  refine (shapeCast_apply _ hs (ix2 r n) (ix3 r (Cert.Spec.packOf n) (Cert.Spec.parOf n)) ?_).trans ?_
  · rw [Shape.rowMajor_val_three, Shape.rowMajor_val_two]
    show (r.val * 5504 + (n.val / 2)) * 2 + n.val % 2 = r.val * 11008 + n.val
    omega
  -- the side of the pair axis
  by_cases h : n.val % 2 = 0
  · rw [if_pos h]
    refine (concatenate_pair_apply_left _ _ _ hc _ rfl (ix3 r (Cert.Spec.packOf n) (0 : Fin 1)) (fun c => ?_)).trans ?_
    · match c with
      | ⟨0, _⟩ => rfl
      | ⟨1, _⟩ => rfl
      | ⟨2, _⟩ => exact h.symm
    · refine broadcastInDim_apply _ hb a _ (ix2 r (Cert.Spec.packOf n)) (fun c => ?_)
      match c with
      | ⟨0, _⟩ =>
        show r.val = if R = 1 then 0 else r.val
        split <;> omega
      | ⟨1, _⟩ => rfl
  · rw [if_neg h]
    refine (concatenate_pair_apply_right _ _ _ hc _ rfl rfl (ix3 r (Cert.Spec.packOf n) (0 : Fin 1)) (fun c hca => ?_) ?_).trans ?_
    · match c with
      | ⟨0, _⟩ => rfl
      | ⟨1, _⟩ => rfl
      | ⟨2, _⟩ => exact absurd rfl hca
    · show 0 + 1 = n.val % 2
      omega
    · refine broadcastInDim_apply _ hb b _ (ix2 r (Cert.Spec.packOf n)) (fun c => ?_)
      match c with
      | ⟨0, _⟩ =>
        show r.val = if R = 1 then 0 else r.val
        split <;> omega
      | ⟨1, _⟩ => rfl

/-! ## The contraction over the channels -/

/-- The contraction's dimension numbers: input [32, 1, 4096] against weights [4096, 11008], the input's channel axis
    contracted with the weights' row axis; the result's axes are the input's batch and unit axes, then the columns. -/
abbrev DD : DotDims S32x1x4096 S4096x11008 S32x1x11008 := dot_S32x1x4096_S4096x11008_S32x1x11008_2_0_01_1_n_n

theorem lhs_axis0 (i : S32x1x11008.Idx) (q : DD.contr.Idx) : (DD.lhsIdx i q 0).val = (i 0).val := by
  unfold DotDims.lhsIdx
  rw [dif_neg (show ¬(0 : Fin S32x1x4096.rank) ∈ DD.lhsBatch from List.not_mem_nil),
    dif_pos (show (0 : Fin S32x1x4096.rank) ∈ DD.lhsNonContracting from List.mem_cons_self)]
  rfl

theorem lhs_axis1 (i : S32x1x11008.Idx) (q : DD.contr.Idx) : (DD.lhsIdx i q 1).val = (i 1).val := by
  unfold DotDims.lhsIdx
  rw [dif_neg (show ¬(1 : Fin S32x1x4096.rank) ∈ DD.lhsBatch from List.not_mem_nil),
    dif_pos (show (1 : Fin S32x1x4096.rank) ∈ DD.lhsNonContracting from List.mem_cons_of_mem _ List.mem_cons_self)]
  rfl

theorem lhs_axis2 (i : S32x1x11008.Idx) (q : DD.contr.Idx) :
    (DD.lhsIdx i q 2).val = (q ⟨0, Nat.one_pos⟩).val :=
  DD.lhsIdx_val_of_single rfl i q

theorem rhs_axis0 (i : S32x1x11008.Idx) (q : DD.contr.Idx) :
    (DD.rhsIdx i q 0).val = (q ⟨0, Nat.one_pos⟩).val :=
  DD.rhsIdx_val_of_single rfl i q

theorem rhs_axis1 (i : S32x1x11008.Idx) (q : DD.contr.Idx) : (DD.rhsIdx i q 1).val = (i 2).val := by
  unfold DotDims.rhsIdx
  rw [dif_neg (show ¬(1 : Fin S4096x11008.rank) ∈ DD.rhsBatch from List.not_mem_nil),
    dif_pos (show (1 : Fin S4096x11008.rank) ∈ DD.rhsNonContracting from List.mem_cons_self)]
  rfl

/-- THE CONTRACTION READ AT (b, 0, n): the sum over the 4096 channels of input (b, 0, k) times weight (k, n). -/
theorem dot_apply (x : FVec Ideal S32x1x4096 .f32) (w : FVec Ideal S4096x11008 .f32) (b : Fin 32) (n : Fin 11008) :
    Host.dotGeneral (F := Ideal) DD none x w (ix3 b (0 : Fin 1) n) = ∑ k : Fin 4096, x (ix3 b (0 : Fin 1) k) * w (ix2 k n) := by
  simp only [Host.dotGeneral]
  rw [Ideal.dotGeneral_apply, ← Equiv.sum_comp (contrEquiv1 DD 4096 rfl rfl).symm]
  refine Finset.sum_congr rfl fun k _ => ?_
  have hk := contrEquiv1_symm_val DD 4096 rfl rfl k
  have el : DD.lhsIdx (ix3 b (0 : Fin 1) n) ((contrEquiv1 DD 4096 rfl rfl).symm k) = ix3 b (0 : Fin 1) k :=
    funext fun a => Fin.ext (by
      match a with
      | ⟨0, _⟩ => exact lhs_axis0 _ _
      | ⟨1, _⟩ => exact lhs_axis1 _ _
      | ⟨2, _⟩ => exact (lhs_axis2 _ _).trans hk)
  have er : DD.rhsIdx (ix3 b (0 : Fin 1) n) ((contrEquiv1 DD 4096 rfl rfl).symm k) = ix2 k n :=
    funext fun a => Fin.ext (by
      match a with
      | ⟨0, _⟩ => exact (rhs_axis0 _ _).trans hk
      | ⟨1, _⟩ => exact rhs_axis1 _ _)
  rw [el, er]

/-- The bias broadcast over the rows, read at (b, 0, n), is the bias at n. -/
theorem bias_apply {α : Type} (bias : S11008.Idx → α) (b : Fin 32) (n : Fin 11008) :
    broadcastInDim S32x1x11008 ![0, 1, 2] bcast_S1x1x11008_S32x1x11008_0_1_2
      (broadcastInDim S1x1x11008 ![2] bcast_S11008_S1x1x11008_2 bias) (ix3 b (0 : Fin 1) n) = bias (ix1 n) := by
  refine (broadcastInDim_apply _ _ _ (ix3 b (0 : Fin 1) n) (ix3 (0 : Fin 1) (0 : Fin 1) n) (fun a => ?_)).trans ?_
  · match a with
    | ⟨0, _⟩ => rfl
    | ⟨1, _⟩ => rfl
    | ⟨2, _⟩ => rfl
  · refine broadcastInDim_apply _ _ _ (ix3 (0 : Fin 1) (0 : Fin 1) n) (ix1 n) (fun a => ?_)
    match a with
    | ⟨0, _⟩ => rfl

/-! ## The unpacked arrays as floats, the weights, the result -/

/-- A shift right by four is inside the word: no corner. -/
theorem shrsi_four (q : BitVec 32) : IntOp.shrsi .host q 4#32 = q.sshiftRight' 4#32 := if_pos (by decide)

/-- The two nibble planes of a packed array at a packed position, chosen by the column's parity, are nibble
    "parOf n" of the word. -/
theorem planes_apply (R : ℕ) (q : IVec ⟨2, ![R, 5504]⟩ 32)
    (hz : S_.BroadcastsInDim ⟨2, ![R, 5504]⟩ (![] : Fin 0 → Fin (⟨2, ![R, 5504]⟩ : Shape).rank))
    (r : Fin R) (n : Fin 11008) :
    (if n.val % 2 = 0 then andi q (broadcastInDim ⟨2, ![R, 5504]⟩ ![] hz (constantI S_ 32 15#32)) (ix2 r (Cert.Spec.packOf n))
      else andi (Host.shrsi q (broadcastInDim ⟨2, ![R, 5504]⟩ ![] hz (constantI S_ 32 4#32)))
        (broadcastInDim ⟨2, ![R, 5504]⟩ ![] hz (constantI S_ 32 15#32)) (ix2 r (Cert.Spec.packOf n)))
      = Cert.Spec.nib (Cert.Spec.parOf n) (q (ix2 r (Cert.Spec.packOf n))) := by
  unfold Cert.Spec.nib
  by_cases h : n.val % 2 = 0
  · rw [if_pos h, if_pos (show (Cert.Spec.parOf n).val = 0 from h)]
    rfl
  · rw [if_neg h, if_neg (show ¬(Cert.Spec.parOf n).val = 0 from h)]
    show IntOp.andi (IntOp.shrsi .host (q (ix2 r (Cert.Spec.packOf n))) 4#32) 15#32 = _
    rw [shrsi_four]
    rfl

/-- The unpacked weights at (k, n): nibble "parOf n" of the packed word (k, n / 2), read signed, as a real. -/
theorem qf_apply (qw : IVec S4096x5504 32) (k : Fin 4096) (n : Fin 11008) :
    RefTerm.qf (F := Ideal) qw (ix2 k n)
      = Cert.Spec.toR (Cert.Spec.nib (Cert.Spec.parOf n) (qw (ix2 k (Cert.Spec.packOf n)))) := by
  unfold RefTerm.qf
  rw [sitofp_apply, interleave_apply 4096 _ _ bcast_S4096x5504_S4096x5504x1_0_1
    concatenates_S4096x5504x1_S4096x5504x1_S4096x5504x2_d2 shapeCasts_S4096x5504x2_S4096x11008 k n,
    planes_apply 4096 qw bcast_S_S4096x5504 k n]
  rfl

/-- The unpacked zero points at (g, n): nibble "parOf n" of the packed word (g, n / 2), read signed, as a real. -/
theorem zf_apply (qz : IVec S32x5504 32) (g : Fin 32) (n : Fin 11008) :
    RefTerm.zf (F := Ideal) qz (ix2 g n)
      = Cert.Spec.toR (Cert.Spec.nib (Cert.Spec.parOf n) (qz (ix2 g (Cert.Spec.packOf n)))) := by
  unfold RefTerm.zf
  rw [sitofp_apply, interleave_apply 32 _ _ bcast_S32x5504_S32x5504x1_0_1
    concatenates_S32x5504x1_S32x5504x1_S32x5504x2_d2 shapeCasts_S32x5504x2_S32x11008 g n,
    planes_apply 32 qz bcast_S_S32x5504 g n]
  rfl

/-- The dequantised weight at (k, n): (value − zero point of k's group) · scale of k's group. -/
theorem wf_apply (qw : IVec S4096x5504 32) (sc : FVec Ideal S32x11008 .f32) (qz : IVec S32x5504 32)
    (k : Fin 4096) (n : Fin 11008) :
    RefTerm.wf (F := Ideal) qw sc qz (ix2 k n)
      = Cert.Spec.wq (Cert.Spec.parOf n) (qw (ix2 k (Cert.Spec.packOf n)))
          (qz (ix2 (Cert.Spec.grpOf k) (Cert.Spec.packOf n))) (sc (ix2 (Cert.Spec.grpOf k) n)) := by
  unfold RefTerm.wf
  rw [mulf_apply, subf_apply, gather_gidx_apply, gather_gidx_apply, qf_apply, zf_apply]
  rfl

/-- An output column is the column of its packed column and parity. -/
theorem colOf_packOf_parOf (n : Fin 11008) : Cert.Spec.colOf (Cert.Spec.packOf n) (Cert.Spec.parOf n) = n :=
  Fin.ext (by show 2 * (n.val / 2) + n.val % 2 = n.val; omega)

/-- The reference's term at (b, 0, n): the contraction of the input row with the dequantised column, plus the bias. -/
theorem refTerm_apply (x : FVec Ideal S32x1x4096 .f32) (qw : IVec S4096x5504 32) (sc : FVec Ideal S32x11008 .f32)
    (qz : IVec S32x5504 32) (bias : FVec Ideal S11008 .f32) (b : Fin 32) (n : Fin 11008) :
    RefTerm.refTerm (F := Ideal) x qw sc qz bias (ix3 b (0 : Fin 1) n)
      = (∑ k : Fin 4096, x (ix3 b (0 : Fin 1) k)
          * Cert.Spec.wq (Cert.Spec.parOf n) (qw (ix2 k (Cert.Spec.packOf n)))
              (qz (ix2 (Cert.Spec.grpOf k) (Cert.Spec.packOf n))) (sc (ix2 (Cert.Spec.grpOf k) n)))
        + bias (ix1 n) := by
  unfold RefTerm.refTerm
  rw [addf_apply, dot_apply, bias_apply]
  exact congrArg (· + bias (ix1 n)) (Finset.sum_congr rfl fun k _ => by rw [wf_apply])

/-- THE REFERENCE'S TERM IS THE SPECIFICATION. -/
theorem refTerm_eq_out (x : FVec Ideal S32x1x4096 .f32) (qw : IVec S4096x5504 32) (sc : FVec Ideal S32x11008 .f32)
    (qz : IVec S32x5504 32) (bias : FVec Ideal S11008 .f32) :
    RefTerm.refTerm (F := Ideal) x qw sc qz bias = Cert.Spec.out x qw sc qz bias := by
  funext i
  obtain ⟨b, u, n, rfl⟩ : ∃ (b : Fin 32) (u : Fin 1) (n : Fin 11008), i = ix3 b u n := ⟨i 0, i 1, i 2, eq_ix3 i⟩
  obtain rfl : u = 0 := Fin.eq_zero u
  rw [refTerm_apply]
  show _ = Cert.Spec.outAt x qw sc qz bias b (Cert.Spec.packOf n) (Cert.Spec.parOf n)
  unfold Cert.Spec.outAt Cert.Spec.term
  rw [colOf_packOf_parOf]

end Cert.ReferenceIdeal.RefValue

end
-- ==== Proof.SpecAlg.lean ====
/-
  The kernel's accumulator, after all its steps, is the reference's contraction.

  The accumulator starts at zero and receives one group of 128 channels per step, so after n steps it is the sum of
  the first n groups; after all 32 it is a sum of 32 sums of 128 terms each. Every channel k of the 4096 is channel
  k mod 128 of group k div 128 and of no other, so these 32 · 128 terms are exactly the 4096 terms of the whole
  contraction, each once; a finite sum may be regrouped, hence the two are equal. Adding the same bias to both gives
  the same result array. Only associativity and commutativity of addition of extended reals are used: no
  distributivity, and so nothing about the inputs being finite.
-/
import proofs.«407691_j14783277433034_1_alg».proof.Proof.Spec
import Mathlib.Algebra.BigOperators.Fin
import Mathlib.Data.Fintype.BigOperators

noncomputable section

open scoped BigOperators

namespace Cert.Spec

open Idealize.ShloMosaic Idealize.ShloMosaic.ValueIdx

/-- Channels, regrouped: channel k is channel (k mod 128) of group (k div 128), and conversely channel kk of
    group g is the channel 128·g + kk. -/
def chanEquiv : Fin 32 × Fin 128 ≃ Fin 4096 where
  toFun p := chan p.1 p.2
  invFun k := (⟨k.val / 128, by have := k.isLt; omega⟩, ⟨k.val % 128, by omega⟩)
  left_inv p := by
    obtain ⟨g, kk⟩ := p
    have hg := g.isLt
    have hk := kk.isLt
    refine Prod.ext (Fin.ext ?_) (Fin.ext ?_)
    · show (128 * g.val + kk.val) / 128 = g.val
      omega
    · show (128 * g.val + kk.val) % 128 = kk.val
      omega
  right_inv k := by
    refine Fin.ext ?_
    show 128 * (k.val / 128) + k.val % 128 = k.val
    omega

/-- The accumulator after n steps is the sum of the groups added so far (steps past the last group add zero). -/
theorem accK_eq_range (x : SX.Idx → EReal) (qw : SQW.Idx → BitVec 32) (sc : SSC.Idx → EReal)
    (qz : SQZ.Idx → BitVec 32) (b : Fin 32) (J : Fin 5504) (h : Fin 2) (n : ℕ) :
    accK x qw sc qz b J h n
      = ∑ g ∈ Finset.range n, (if hg : g < 32 then grp x qw sc qz b J h ⟨g, hg⟩ else 0) := by
  induction n with
  | zero => simp [accK]
  | succ n ih => rw [accK, ih, Finset.sum_range_succ]

/-- After all 32 groups the accumulator is the whole contraction: the 32 partial sums of 128 terms each are the
    4096 terms, regrouped. -/
theorem accK_eq_sum (x : SX.Idx → EReal) (qw : SQW.Idx → BitVec 32) (sc : SSC.Idx → EReal)
    (qz : SQZ.Idx → BitVec 32) (b : Fin 32) (J : Fin 5504) (h : Fin 2) :
    accK x qw sc qz b J h 32 = ∑ k : Fin 4096, term x qw sc qz b J h k := by
  rw [accK_eq_range, Finset.sum_range]
  have hstep : ∀ g : Fin 32,
      (if hg : g.val < 32 then grp x qw sc qz b J h ⟨g.val, hg⟩ else 0)
        = ∑ kk : Fin 128, term x qw sc qz b J h (chan g kk) := by
    intro g
    rw [dif_pos g.isLt]
    rfl
  rw [Finset.sum_congr rfl (fun g _ => hstep g), ← Fintype.sum_prod_type']
  exact Fintype.sum_equiv chanEquiv _ _ (fun _ => rfl)

/-- At every batch row, packed column and parity the kernel's value is the reference's. -/
theorem kOutAt_eq_outAt (x : SX.Idx → EReal) (qw : SQW.Idx → BitVec 32) (sc : SSC.Idx → EReal)
    (qz : SQZ.Idx → BitVec 32) (bias : SB.Idx → EReal) (b : Fin 32) (J : Fin 5504) (h : Fin 2) :
    kOutAt x qw sc qz bias b J h = outAt x qw sc qz bias b J h := by
  unfold kOutAt outAt
  rw [accK_eq_sum]

/-- The two result arrays are the same array. -/
theorem kOut_eq_out (x : SX.Idx → EReal) (qw : SQW.Idx → BitVec 32) (sc : SSC.Idx → EReal)
    (qz : SQZ.Idx → BitVec 32) (bias : SB.Idx → EReal) :
    kOut x qw sc qz bias = out x qw sc qz bias :=
  funext fun i => kOutAt_eq_outAt x qw sc qz bias (i 0) (packOf (i 2)) (parOf (i 2))

end Cert.Spec

end
-- ==== Proof.lean ====
/-
  The certificate of the grouped 4-bit dequantise-and-contract kernel against its reference, assembled.

  Frames. The kernel's program (at either float instance) terminates, faults nowhere and keeps its arguments: its
  one region's body branches and addresses by the grid point only, so whatever words the cut fetches of the
  overhanging second column tile leave in the staging tails, the run goes through; the proof forgets what the outputs
  hold. The reference is host operations only; its frame is its run with the result dropped.

  Preservation. The ideal pass rewrote nothing: the idealized kernel is the kernel's own text read at extended reals.

  Equivalence. At extended reals the kernel's result is Cert.Spec.kOut of the arguments: per output column, a zero
  accumulator to which one group of 128 channels' partial contraction is added per grid step, plus the bias; the two
  nibble streams are interleaved by the host. The reference's result is Cert.Spec.out: the whole 4096-channel
  contraction at once, plus the bias. The two are equal because a finite sum of extended reals may be regrouped
  (associativity and commutativity of addition only; no input need be finite for it).
-/
import proofs.«407691_j14783277433034_1_alg».proof.Defs
import proofs.«407691_j14783277433034_1_alg».proof.Proof.Gen.Kernel
import proofs.«407691_j14783277433034_1_alg».proof.Proof.Gen.KernelIdeal
import proofs.«407691_j14783277433034_1_alg».proof.Proof.Gen.ReferenceIdeal
import proofs.«407691_j14783277433034_1_alg».proof.Proof.Gen.Pre_finite_inputs
import proofs.«407691_j14783277433034_1_alg».proof.Proof.KFrame
import proofs.«407691_j14783277433034_1_alg».proof.Proof.KFrameBits
import proofs.«407691_j14783277433034_1_alg».proof.Proof.RefRun
import proofs.«407691_j14783277433034_1_alg».proof.Proof.KValue
import proofs.«407691_j14783277433034_1_alg».proof.Proof.RefValue
import proofs.«407691_j14783277433034_1_alg».proof.Proof.SpecAlg

noncomputable section

namespace Cert.Proof

open Idealize.ShloMosaic Idealize.SL.Sem

/-- The kernel's program at the word-level instance keeps its arguments. -/
theorem frame_p : Cert.frame_Kernel (hKernel := Cert.Kernel.Gen.facts) (hPre_finite_inputs := Cert.Pre_finite_inputs.Gen.facts) :=
  fun m ρ _ => Cert.Kernel.KProof.frame m ρ

/-- The same text read at extended reals keeps its arguments. -/
theorem frame_pi : Cert.frame_KernelIdeal (hKernelIdeal := Cert.KernelIdeal.Gen.facts) (hPre_finite_inputs := Cert.Pre_finite_inputs.Gen.facts) :=
  fun m ρ _ => Cert.KernelIdeal.KProof.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefRun.run m ρ)

/-- From memories agreeing on the arguments both programs end at one array: the kernel at the accumulated
    contraction, the reference at the whole one, equal by regrouping the sum. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.KProof.run_value m ρ, ?_⟩
  refine (θ_run (Cert.ReferenceIdeal.defs (F := Ideal)) _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2]
  exact (Cert.ReferenceIdeal.RefValue.refTerm_eq_out _ _ _ _ _).trans (Cert.Spec.kOut_eq_out _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
